-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S2x6x128x512 : Shape := ⟨4, ![2, 6, 128, 512]⟩
abbrev S2x6 : Shape := ⟨2, ![2, 6]⟩
abbrev S_ : Shape := ⟨0, ![]⟩
abbrev S1x1 : Shape := ⟨2, ![1, 1]⟩
abbrev S1x1x128x512 : Shape := ⟨4, ![1, 1, 128, 512]⟩
abbrev S128x512 : Shape := ⟨2, ![128, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S2x6x128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_19 : BitVec 32 := 1#32
  let v36 : BitVec 32 := Scalar.muli v30 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_24 : BitVec 32 := 1#32
  let v42 : BitVec 32 := Scalar.muli v19 c1_i32_24
  let v43 : BitVec 32 := Scalar.addi v41 v42
  v43.toNat
def k0_off1 (d0 : Dev nD) (c0_i32_36 : BitVec 32) (c0_i32_29 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v47 : BitVec 32 := Scalar.subi v8 c0_i32_29
  let c4_i32_30 : BitVec 32 := 4#32
  let c0_i32_31 : BitVec 32 := 0#32
  let v48 : BitVec 1 := Scalar.cmpi .eq c4_i32_30 c0_i32_31
  let c1_i32_32 : BitVec 32 := 1#32
  let v49 : BitVec 32 := Scalar.select v48 c1_i32_32 c4_i32_30
  let v50 : BitVec 32 := Scalar.remsi v47 v49
  let c0_i32_34 : BitVec 32 := 0#32
  let v52 : BitVec 1 := Scalar.cmpi .slt v50 c0_i32_34
  let c0_i32_35 : BitVec 32 := 0#32
  let v53 : BitVec 1 := Scalar.cmpi .slt v49 c0_i32_35
  let v54 : BitVec 1 := Scalar.xori v52 v53
  let c0_i32_33 : BitVec 32 := 0#32
  let v51 : BitVec 1 := Scalar.cmpi .ne v50 c0_i32_33
  let v55 : BitVec 1 := Scalar.andi v54 v51
  let v56 : BitVec 32 := Scalar.addi v50 v49
  let v57 : BitVec 32 := Scalar.select v55 v56 v50
  let c128_i32 : BitVec 32 := 128#32
  let v58 : BitVec 32 := Scalar.muli v57 c128_i32
  let v59 : BitVec 32 := Scalar.addi c0_i32_36 v58
  let c0_i32_49 : BitVec 32 := 0#32
  ![v59.toNat, 0]
def k0_off1_at (r : Fin 12) : BitVec 32 × BitVec 32 :=
  if r.val < 6 then
    if r.val < 3 then
      if r.val < 1 then
        (0#32, 0#32)
      else
        if r.val < 2 then
          (512#32, 0#32)
        else
          (0#32, 1#32)
    else
      if r.val < 4 then
        (512#32, 4294967295#32)
      else
        if r.val < 5 then
          (0#32, 2#32)
        else
          (512#32, 4294967294#32)
  else
    if r.val < 9 then
      if r.val < 7 then
        (0#32, 3#32)
      else
        if r.val < 8 then
          (512#32, 4294967293#32)
        else
          (0#32, 4#32)
    else
      if r.val < 10 then
        (512#32, 4294967292#32)
      else
        if r.val < 11 then
          (0#32, 5#32)
        else
          (512#32, 4294967291#32)
def k0_dev3 (d0 : Dev nD) : Nat :=
  let c0_i32_44 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_43 : BitVec 32 := 16#32
  let v60 : BitVec 32 := Scalar.muli v2 c16_i32_43
  let v61 : BitVec 32 := Scalar.addi c0_i32_44 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v62 : BitVec 32 := Scalar.muli v5 c4_i32_45
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_46 : BitVec 32 := 1#32
  let v64 : BitVec 32 := Scalar.muli v19 c1_i32_46
  let v65 : BitVec 32 := Scalar.addi v63 v64
  v65.toNat
def k0_dev4 (d0 : Dev nD) : Nat :=
  let c0_i32_65 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_64 : BitVec 32 := 16#32
  let v86 : BitVec 32 := Scalar.muli v2 c16_i32_64
  let v87 : BitVec 32 := Scalar.addi c0_i32_65 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v88 : BitVec 32 := Scalar.muli v5 c4_i32_66
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_67 : BitVec 32 := 1#32
  let v90 : BitVec 32 := Scalar.muli v30 c1_i32_67
  let v91 : BitVec 32 := Scalar.addi v89 v90
  v91.toNat
def k0_off2 (d0 : Dev nD) (c0_i32_102 : BitVec 32) (c1_i32_71 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v99 : BitVec 32 := Scalar.subi v8 c1_i32_71
  let c4_i32_72 : BitVec 32 := 4#32
  let c0_i32_73 : BitVec 32 := 0#32
  let v100 : BitVec 1 := Scalar.cmpi .eq c4_i32_72 c0_i32_73
  let c1_i32_74 : BitVec 32 := 1#32
  let v101 : BitVec 32 := Scalar.select v100 c1_i32_74 c4_i32_72
  let v102 : BitVec 32 := Scalar.remsi v99 v101
  let c0_i32_76 : BitVec 32 := 0#32
  let v104 : BitVec 1 := Scalar.cmpi .slt v102 c0_i32_76
  let c0_i32_77 : BitVec 32 := 0#32
  let v105 : BitVec 1 := Scalar.cmpi .slt v101 c0_i32_77
  let v106 : BitVec 1 := Scalar.xori v104 v105
  let c0_i32_75 : BitVec 32 := 0#32
  let v103 : BitVec 1 := Scalar.cmpi .ne v102 c0_i32_75
  let v107 : BitVec 1 := Scalar.andi v106 v103
  let v108 : BitVec 32 := Scalar.addi v102 v101
  let v109 : BitVec 32 := Scalar.select v107 v108 v102
  let c128_i32_101 : BitVec 32 := 128#32
  let v126 : BitVec 32 := Scalar.muli v109 c128_i32_101
  let v127 : BitVec 32 := Scalar.addi c0_i32_102 v126
  let v128 : Index := Scalar.indexCast v127
  let c0_103 : Index := 0#32
  ![v128.toNat, 0]
def k0_off2_at (r : Fin 12) : BitVec 32 × BitVec 32 :=
  if r.val < 6 then
    if r.val < 3 then
      if r.val < 1 then
        (0#32, 1#32)
      else
        if r.val < 2 then
          (512#32, 4294967295#32)
        else
          (0#32, 2#32)
    else
      if r.val < 4 then
        (512#32, 4294967294#32)
      else
        if r.val < 5 then
          (0#32, 3#32)
        else
          (512#32, 4294967293#32)
  else
    if r.val < 9 then
      if r.val < 7 then
        (0#32, 4#32)
      else
        if r.val < 8 then
          (512#32, 4294967292#32)
        else
          (0#32, 5#32)
    else
      if r.val < 10 then
        (512#32, 4294967291#32)
      else
        if r.val < 11 then
          (0#32, 6#32)
        else
          (512#32, 4294967290#32)
def k0_dev5 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v186 : BitVec 32 := Scalar.muli v2 c16_i32_160
  let v187 : BitVec 32 := Scalar.addi c0_i32_161 v186
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_162 : BitVec 32 := 4#32
  let v188 : BitVec 32 := Scalar.muli v5 c4_i32_162
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_163 : BitVec 32 := 1#32
  let v190 : BitVec 32 := Scalar.muli v19 c1_i32_163
  let v191 : BitVec 32 := Scalar.addi v189 v190
  v191.toNat
def k0_dev6 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v212 : BitVec 32 := Scalar.muli v2 c16_i32_182
  let v213 : BitVec 32 := Scalar.addi c0_i32_183 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v214 : BitVec 32 := Scalar.muli v5 c4_i32_184
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_185 : BitVec 32 := 1#32
  let v216 : BitVec 32 := Scalar.muli v30 c1_i32_185
  let v217 : BitVec 32 := Scalar.addi v215 v216
  v217.toNat
def k0_dev7 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v312 : BitVec 32 := Scalar.muli v2 c16_i32_279
  let v313 : BitVec 32 := Scalar.addi c0_i32_280 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_281 : BitVec 32 := 4#32
  let v314 : BitVec 32 := Scalar.muli v5 c4_i32_281
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_282 : BitVec 32 := 1#32
  let v316 : BitVec 32 := Scalar.muli v19 c1_i32_282
  let v317 : BitVec 32 := Scalar.addi v315 v316
  v317.toNat
def k0_dev8 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v338 : BitVec 32 := Scalar.muli v2 c16_i32_301
  let v339 : BitVec 32 := Scalar.addi c0_i32_302 v338
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v340 : BitVec 32 := Scalar.muli v5 c4_i32_303
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_304 : BitVec 32 := 1#32
  let v342 : BitVec 32 := Scalar.muli v30 c1_i32_304
  let v343 : BitVec 32 := Scalar.addi v341 v342
  v343.toNat
def k0_dev9 (d0 : Dev nD) : Nat :=
  let c0_i32_397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_396 : BitVec 32 := 16#32
  let v438 : BitVec 32 := Scalar.muli v2 c16_i32_396
  let v439 : BitVec 32 := Scalar.addi c0_i32_397 v438
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_398 : BitVec 32 := 4#32
  let v440 : BitVec 32 := Scalar.muli v5 c4_i32_398
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_399 : BitVec 32 := 1#32
  let v442 : BitVec 32 := Scalar.muli v19 c1_i32_399
  let v443 : BitVec 32 := Scalar.addi v441 v442
  v443.toNat
def k0_dev10 (d0 : Dev nD) : Nat :=
  let c0_i32_419 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_418 : BitVec 32 := 16#32
  let v464 : BitVec 32 := Scalar.muli v2 c16_i32_418
  let v465 : BitVec 32 := Scalar.addi c0_i32_419 v464
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_420 : BitVec 32 := 4#32
  let v466 : BitVec 32 := Scalar.muli v5 c4_i32_420
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_421 : BitVec 32 := 1#32
  let v468 : BitVec 32 := Scalar.muli v30 c1_i32_421
  let v469 : BitVec 32 := Scalar.addi v467 v468
  v469.toNat
def k0_dev11 (d0 : Dev nD) : Nat :=
  let c0_i32_513 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_512 : BitVec 32 := 16#32
  let v556 : BitVec 32 := Scalar.muli v2 c16_i32_512
  let v557 : BitVec 32 := Scalar.addi c0_i32_513 v556
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_514 : BitVec 32 := 4#32
  let v558 : BitVec 32 := Scalar.muli v5 c4_i32_514
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_515 : BitVec 32 := 1#32
  let v560 : BitVec 32 := Scalar.muli v19 c1_i32_515
  let v561 : BitVec 32 := Scalar.addi v559 v560
  v561.toNat
def k0_dev12 (d0 : Dev nD) : Nat :=
  let c0_i32_535 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_534 : BitVec 32 := 16#32
  let v582 : BitVec 32 := Scalar.muli v2 c16_i32_534
  let v583 : BitVec 32 := Scalar.addi c0_i32_535 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_536 : BitVec 32 := 4#32
  let v584 : BitVec 32 := Scalar.muli v5 c4_i32_536
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_537 : BitVec 32 := 1#32
  let v586 : BitVec 32 := Scalar.muli v30 c1_i32_537
  let v587 : BitVec 32 := Scalar.addi v585 v586
  v587.toNat
def k0_dev13 (d0 : Dev nD) : Nat :=
  let c0_i32_628 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_627 : BitVec 32 := 16#32
  let v674 : BitVec 32 := Scalar.muli v2 c16_i32_627
  let v675 : BitVec 32 := Scalar.addi c0_i32_628 v674
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_629 : BitVec 32 := 4#32
  let v676 : BitVec 32 := Scalar.muli v5 c4_i32_629
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_630 : BitVec 32 := 1#32
  let v678 : BitVec 32 := Scalar.muli v19 c1_i32_630
  let v679 : BitVec 32 := Scalar.addi v677 v678
  v679.toNat
def k0_dev14 (d0 : Dev nD) : Nat :=
  let c0_i32_650 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_649 : BitVec 32 := 16#32
  let v700 : BitVec 32 := Scalar.muli v2 c16_i32_649
  let v701 : BitVec 32 := Scalar.addi c0_i32_650 v700
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_651 : BitVec 32 := 4#32
  let v702 : BitVec 32 := Scalar.muli v5 c4_i32_651
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_652 : BitVec 32 := 1#32
  let v704 : BitVec 32 := Scalar.muli v30 c1_i32_652
  let v705 : BitVec 32 := Scalar.addi v703 v704
  v705.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2x6_S1x1_0_0 : ∀ a, (![0, 0] : Fin 2 → Nat) a + S1x1.size a ≤ S2x6.size a
  squeezes_S1x1_S_ : S1x1.Squeezes S_
  inb_S2x6x128x512_S1x1x128x512_0_0_0_0 : ∀ a, (![0, 0, 0, 0] : Fin 4 → Nat) a + S1x1x128x512.size a ≤ S2x6x128x512.size a
  squeezes_S1x1x128x512_S128x512 : S1x1x128x512.Squeezes S128x512
  inb_S2x6_S1x1_1_0 : ∀ a, (![1, 0] : Fin 2 → Nat) a + S1x1.size a ≤ S2x6.size a
  inb_S2x6x128x512_S1x1x128x512_1_0_0_0 : ∀ a, (![1, 0, 0, 0] : Fin 4 → Nat) a + S1x1x128x512.size a ≤ S2x6x128x512.size a
  h_S128x512 : 0 < S128x512.numel
  shapeCasts_S128x512_S128x512 : S128x512.ShapeCasts S128x512
  h_S1x1x128x512 : 0 < S1x1x128x512.numel
  shapeCasts_S1x1x128x512_S128x512 : S1x1x128x512.ShapeCasts S128x512
  inb_S2x6_S1x1_0_1 : ∀ a, (![0, 1] : Fin 2 → Nat) a + S1x1.size a ≤ S2x6.size a
  inb_S2x6x128x512_S1x1x128x512_0_1_0_0 : ∀ a, (![0, 1, 0, 0] : Fin 4 → Nat) a + S1x1x128x512.size a ≤ S2x6x128x512.size a
  inb_S2x6_S1x1_1_1 : ∀ a, (![1, 1] : Fin 2 → Nat) a + S1x1.size a ≤ S2x6.size a
  inb_S2x6x128x512_S1x1x128x512_1_1_0_0 : ∀ a, (![1, 1, 0, 0] : Fin 4 → Nat) a + S1x1x128x512.size a ≤ S2x6x128x512.size a
  inb_S2x6_S1x1_0_2 : ∀ a, (![0, 2] : Fin 2 → Nat) a + S1x1.size a ≤ S2x6.size a
  inb_S2x6x128x512_S1x1x128x512_0_2_0_0 : ∀ a, (![0, 2, 0, 0] : Fin 4 → Nat) a + S1x1x128x512.size a ≤ S2x6x128x512.size a
  inb_S2x6_S1x1_1_2 : ∀ a, (![1, 2] : Fin 2 → Nat) a + S1x1.size a ≤ S2x6.size a
  inb_S2x6x128x512_S1x1x128x512_1_2_0_0 : ∀ a, (![1, 2, 0, 0] : Fin 4 → Nat) a + S1x1x128x512.size a ≤ S2x6x128x512.size a
  inb_S2x6_S1x1_0_3 : ∀ a, (![0, 3] : Fin 2 → Nat) a + S1x1.size a ≤ S2x6.size a
  inb_S2x6x128x512_S1x1x128x512_0_3_0_0 : ∀ a, (![0, 3, 0, 0] : Fin 4 → Nat) a + S1x1x128x512.size a ≤ S2x6x128x512.size a
  inb_S2x6_S1x1_1_3 : ∀ a, (![1, 3] : Fin 2 → Nat) a + S1x1.size a ≤ S2x6.size a
  inb_S2x6x128x512_S1x1x128x512_1_3_0_0 : ∀ a, (![1, 3, 0, 0] : Fin 4 → Nat) a + S1x1x128x512.size a ≤ S2x6x128x512.size a
  inb_S2x6_S1x1_0_4 : ∀ a, (![0, 4] : Fin 2 → Nat) a + S1x1.size a ≤ S2x6.size a
  inb_S2x6x128x512_S1x1x128x512_0_4_0_0 : ∀ a, (![0, 4, 0, 0] : Fin 4 → Nat) a + S1x1x128x512.size a ≤ S2x6x128x512.size a
  inb_S2x6_S1x1_1_4 : ∀ a, (![1, 4] : Fin 2 → Nat) a + S1x1.size a ≤ S2x6.size a
  inb_S2x6x128x512_S1x1x128x512_1_4_0_0 : ∀ a, (![1, 4, 0, 0] : Fin 4 → Nat) a + S1x1x128x512.size a ≤ S2x6x128x512.size a
  inb_S2x6_S1x1_0_5 : ∀ a, (![0, 5] : Fin 2 → Nat) a + S1x1.size a ≤ S2x6.size a
  inb_S2x6x128x512_S1x1x128x512_0_5_0_0 : ∀ a, (![0, 5, 0, 0] : Fin 4 → Nat) a + S1x1x128x512.size a ≤ S2x6x128x512.size a
  inb_S2x6_S1x1_1_5 : ∀ a, (![1, 5] : Fin 2 → Nat) a + S1x1.size a ≤ S2x6.size a
  inb_S2x6x128x512_S1x1x128x512_1_5_0_0 : ∀ a, (![1, 5, 0, 0] : Fin 4 → Nat) a + S1x1x128x512.size a ≤ S2x6x128x512.size a
  hcc0_scratch1 : 2 + S2x6.numel ≤ 26
  hcc0_scratch2 : 14 + S2x6.numel ≤ 26
  k0_dev1_lt : ∀ d0 : Dev nD, (k0_dev1 d0) < nD
  k0_dev2_lt : ∀ d0 : Dev nD, (k0_dev2 d0) < nD
  k0_off1_inb : ∀ d0 : Dev nD, ∀ (r : Fin 12), ∀ a, (k0_off1 d0 (k0_off1_at r).1 (k0_off1_at r).2) a + S128x512.size a ≤ S1024x512.size a
  k0_dev3_lt : ∀ d0 : Dev nD, (k0_dev3 d0) < nD
  k0_dev4_lt : ∀ d0 : Dev nD, (k0_dev4 d0) < nD
  k0_off2_inb : ∀ d0 : Dev nD, ∀ (r : Fin 12), ∀ a, (k0_off2 d0 (k0_off2_at r).1 (k0_off2_at r).2) a + S128x512.size a ≤ S1024x512.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S2x6 := SemArray.consecutive 2 S2x6 hcc0_scratch1
abbrev cc0_scratch2 : DmaSems sig S2x6 := SemArray.consecutive 14 S2x6 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S4x1024x512 : S4096x512.ShapeCasts S4x1024x512
  reducesTo_S4x1024x512_S1024x512_d0 : S4x1024x512.ReducesTo [0] S1024x512
  h_S_ : 0 < S_.numel

variable [Facts₀]

class Facts : Prop extends Facts₀ where

variable [Facts]
-- ==== Proof.Ring.lean ====
/-
  The ring along the mesh's third axis. A device's logical id is 16·x + 4·y + z; its ring neighbours keep x and y and
  move z by one, modulo four. Direction 0 sends to the neighbour above (z + 1), direction 1 to the one below (z − 1).
  At step s a device sends, in direction 0, the 128-row chunk numbered z − s (mod 4) of the first half of its rows
  and receives into chunk z − (s + 1); in direction 1 it sends chunk z + s of the second half and receives into z + s + 1.
  Proved here by evaluation over the 32 devices: which device each printed device-id chain names, and which rows each
  printed offset chain names.
-/
import proofs.«900732_g7700000000000733_dist_ar_v7x_xyz2x4x4_z_m1024_n512_f32_1_alg».proof.Proof.Gen.KernelIdeal
import Idealize.ShloMosaic.Lib.Decide

set_option Elab.async false

namespace Cert.KernelIdealProof

open Cert.KernelIdeal Cert.KernelIdeal.Gen
open Idealize.ShloMosaic

/-- The neighbour one step up the ring (z + 1). -/
def rgt (c : Dev nD) : Dev nD := ⟨c.val / 4 * 4 + (c.val + 1) % 4, by have h : c.val < 32 := c.isLt; show _ < 32; omega⟩
/-- The neighbour one step down the ring (z − 1). -/
def lft (c : Dev nD) : Dev nD := ⟨c.val / 4 * 4 + (c.val + 3) % 4, by have h : c.val < 32 := c.isLt; show _ < 32; omega⟩

theorem lft_rgt (c : Dev nD) : lft (rgt c) = c := by revert c; decide
theorem rgt_lft (c : Dev nD) : rgt (lft c) = c := by revert c; decide
theorem rgt_ne_lft (c : Dev nD) : rgt c ≠ lft c := by revert c; decide
theorem rgt_ne (c : Dev nD) : rgt c ≠ c := by revert c; decide
theorem lft_ne (c : Dev nD) : lft c ≠ c := by revert c; decide

/-- Where direction `d`'s copies go. -/
def dn (d : Fin 2) (c : Dev nD) : Dev nD := if d = 0 then rgt c else lft c
/-- Where direction `d`'s copies come from. -/
def up (d : Fin 2) (c : Dev nD) : Dev nD := if d = 0 then lft c else rgt c

theorem up_dn (d : Fin 2) (c : Dev nD) : up d (dn d c) = c := by revert d c; decide
theorem dn_up (d : Fin 2) (c : Dev nD) : dn d (up d c) = c := by revert d c; decide

/-- The chunk (of four, within half `d` of the rows) that device `c` sends at step `s` in direction `d`; it receives
    into chunk `sidx d (s + 1) c`. -/
def sidx (d : Fin 2) (s : ℕ) (c : Dev nD) : Fin 4 :=
  if d = 0 then ⟨(c.val + 3 * s) % 4, Nat.mod_lt _ (by decide)⟩ else ⟨(c.val + s) % 4, Nat.mod_lt _ (by decide)⟩

/-- What the neighbour upstream sends at step `s` is the chunk this device receives into. -/
theorem sidx_up (d : Fin 2) (s : ℕ) (c : Dev nD) : sidx d s (up d c) = sidx d (s + 1) c := by
  have hc : c.val < 32 := c.isLt
  fin_cases d
  · refine Fin.ext ?_
    show (c.val / 4 * 4 + (c.val + 3) % 4 + 3 * s) % 4 = (c.val + 3 * (s + 1)) % 4
    omega
  · refine Fin.ext ?_
    show (c.val / 4 * 4 + (c.val + 1) % 4 + s) % 4 = (c.val + (s + 1)) % 4
    omega

/-- Row offset of chunk `j` of half `d` in the 1024-row block. -/
abbrev chunkOff (d : Fin 2) (j : Fin 4) : Fin 2 → Nat := ![512 * d.val + 128 * j.val, 0]

theorem chunk_inb : ∀ (d : Fin 2) (j : Fin 4) a, chunkOff d j a + S128x512.size a ≤ S1024x512.size a := by decide

/-! ## The printed device-id chains -/

theorem dev1_eq (c : Dev nD) : (⟨k0_dev1 c, k0_dev1_lt c⟩ : Dev nD) = lft c := Fin.ext ((by decide +kernel : ∀ c : Dev nD, k0_dev1 c = (lft c).val) c)
theorem dev2_eq (c : Dev nD) : (⟨k0_dev2 c, k0_dev2_lt c⟩ : Dev nD) = rgt c := Fin.ext ((by decide +kernel : ∀ c : Dev nD, k0_dev2 c = (rgt c).val) c)
theorem dev3_eq (c : Dev nD) : (⟨k0_dev3 c, k0_dev3_lt c⟩ : Dev nD) = dn 0 c := Fin.ext ((by decide +kernel : ∀ c : Dev nD, k0_dev3 c = (dn 0 c).val) c)
theorem dev4_eq (c : Dev nD) : (⟨k0_dev4 c, k0_dev4_lt c⟩ : Dev nD) = dn 1 c := Fin.ext ((by decide +kernel : ∀ c : Dev nD, k0_dev4 c = (dn 1 c).val) c)
theorem dev5_eq (c : Dev nD) : (⟨k0_dev5 c, k0_dev5_lt c⟩ : Dev nD) = dn 0 c := Fin.ext ((by decide +kernel : ∀ c : Dev nD, k0_dev5 c = (dn 0 c).val) c)
theorem dev6_eq (c : Dev nD) : (⟨k0_dev6 c, k0_dev6_lt c⟩ : Dev nD) = dn 1 c := Fin.ext ((by decide +kernel : ∀ c : Dev nD, k0_dev6 c = (dn 1 c).val) c)
theorem dev7_eq (c : Dev nD) : (⟨k0_dev7 c, k0_dev7_lt c⟩ : Dev nD) = dn 0 c := Fin.ext ((by decide +kernel : ∀ c : Dev nD, k0_dev7 c = (dn 0 c).val) c)
theorem dev8_eq (c : Dev nD) : (⟨k0_dev8 c, k0_dev8_lt c⟩ : Dev nD) = dn 1 c := Fin.ext ((by decide +kernel : ∀ c : Dev nD, k0_dev8 c = (dn 1 c).val) c)
theorem dev9_eq (c : Dev nD) : (⟨k0_dev9 c, k0_dev9_lt c⟩ : Dev nD) = dn 0 c := Fin.ext ((by decide +kernel : ∀ c : Dev nD, k0_dev9 c = (dn 0 c).val) c)
theorem dev10_eq (c : Dev nD) : (⟨k0_dev10 c, k0_dev10_lt c⟩ : Dev nD) = dn 1 c := Fin.ext ((by decide +kernel : ∀ c : Dev nD, k0_dev10 c = (dn 1 c).val) c)
theorem dev11_eq (c : Dev nD) : (⟨k0_dev11 c, k0_dev11_lt c⟩ : Dev nD) = dn 0 c := Fin.ext ((by decide +kernel : ∀ c : Dev nD, k0_dev11 c = (dn 0 c).val) c)
theorem dev12_eq (c : Dev nD) : (⟨k0_dev12 c, k0_dev12_lt c⟩ : Dev nD) = dn 1 c := Fin.ext ((by decide +kernel : ∀ c : Dev nD, k0_dev12 c = (dn 1 c).val) c)
theorem dev13_eq (c : Dev nD) : (⟨k0_dev13 c, k0_dev13_lt c⟩ : Dev nD) = dn 0 c := Fin.ext ((by decide +kernel : ∀ c : Dev nD, k0_dev13 c = (dn 0 c).val) c)
theorem dev14_eq (c : Dev nD) : (⟨k0_dev14 c, k0_dev14_lt c⟩ : Dev nD) = dn 1 c := Fin.ext ((by decide +kernel : ∀ c : Dev nD, k0_dev14 c = (dn 1 c).val) c)

/-! ## The printed row offsets: row `r` of each table serves direction `r % 2` at step `r / 2` -/

theorem off1_eq : ∀ (c : Dev nD) (r : Fin 12), k0_off1 c (k0_off1_at r).1 (k0_off1_at r).2 = chunkOff ⟨r.val % 2, Nat.mod_lt _ (by decide)⟩ (sidx ⟨r.val % 2, Nat.mod_lt _ (by decide)⟩ (r.val / 2) c) := by
  decide +kernel
theorem off2_eq : ∀ (c : Dev nD) (r : Fin 12), k0_off2 c (k0_off2_at r).1 (k0_off2_at r).2 = chunkOff ⟨r.val % 2, Nat.mod_lt _ (by decide)⟩ (sidx ⟨r.val % 2, Nat.mod_lt _ (by decide)⟩ (r.val / 2 + 1) c) := by
  decide +kernel

end Cert.KernelIdealProof
-- ==== Proof.Values.lean ====
/-
  The data of the ring all-reduce, with no logic in it. Each device's 1024 rows are two halves of four 128-row chunks.
  Half 0 travels up the ring (to z + 1), half 1 down it (to z − 1). In each direction, at step s a device sends one
  chunk and receives one from the other side; during the first three steps what arrives is ADDED to the chunk it
  arrives at (so after three steps one chunk of each half holds the sum over the four devices of the ring), during
  the last three it REPLACES it (the finished sums go round). `st m d s c j` is what chunk `j` of half `d` holds on
  device `c` when step `s` begins (`s = 6`: when the kernel ends); `snt m d s c` is what `c` sends at step `s`.
-/
import proofs.«900732_g7700000000000733_dist_ar_v7x_xyz2x4x4_z_m1024_n512_f32_1_alg».proof.Proof.Ring
import proofs.«900732_g7700000000000733_dist_ar_v7x_xyz2x4x4_z_m1024_n512_f32_1_alg».proof.Proof.Gen.KernelIdeal.Skeleton
import proofs.«900732_g7700000000000733_dist_ar_v7x_xyz2x4x4_z_m1024_n512_f32_1_alg».proof.Proof.Gen.KernelIdeal.Launch

noncomputable section

namespace Cert.KernelIdealProof

open Cert.KernelIdeal Cert.KernelIdeal.Gen
open Idealize.ShloMosaic
open Idealize.ShloMosaic.TcCoe
open Idealize.SL.Sem

variable {F : FTy → Type} [FloatOps F]

/-- A memory of the 32 devices. -/
abbrev Mem (F : FTy → Type) : Type := (ℓ : Loc nD τ sig) → Buf (Elt F) ℓ

/-! ## The buffers the body sees, and their pieces -/

/-- The staged input block, the staged result block, the receive buffer (2 directions × 6 steps × [128, 512]). -/
abbrev xM : Memref sig .tc .vmem S1024x512 .f32 := Memref.whole cc0_stg0_0
abbrev oM : Memref sig .tc .vmem S1024x512 .f32 := Memref.whole cc0_stg1_0
abbrev rM : Memref sig .tc .vmem S2x6x128x512 .f32 := Memref.whole cc0_scratch0

/-- Chunk `j` of half `d` of the result block, as the rectangle and as the memref a copy names it by. -/
abbrev chunkR (d : Fin 2) (j : Fin 4) : Rect S1024x512 := Rect.unit (s := S1024x512) (chunkOff d j) S128x512.size (chunk_inb d j)
abbrev chunkM (d : Fin 2) (j : Fin 4) : Memref sig .tc .vmem S128x512 .f32 := oM.slice (chunkR d j) (fun _ => rfl)

/-- Receive slot (direction `d`, step `s`). -/
abbrev slotOff (d : Fin 2) (s : Fin 6) : Fin 4 → Nat := ![d.val, s.val, 0, 0]
theorem slot_inb : ∀ (d : Fin 2) (s : Fin 6) a, slotOff d s a + S1x1x128x512.size a ≤ S2x6x128x512.size a := by decide
abbrev slotR (d : Fin 2) (s : Fin 6) : Rect S2x6x128x512 := Rect.unit (s := S2x6x128x512) (slotOff d s) S1x1x128x512.size (slot_inb d s)
abbrev slotM (d : Fin 2) (s : Fin 6) : Memref sig .tc .vmem S128x512 .f32 :=
  (rM.slice (slotR d s) (fun _ => rfl)).squeeze S128x512 squeezes_S1x1x128x512_S128x512

/-! ## The semaphores -/

abbrev semOff (d : Fin 2) (s : Fin 6) : Fin 2 → Nat := ![d.val, s.val]
theorem sem_inb : ∀ (d : Fin 2) (s : Fin 6) a, semOff d s a + S1x1.size a ≤ S2x6.size a := by decide
/-- The send and the receive semaphore of (direction, step). -/
abbrev sendS (d : Fin 2) (s : Fin 6) : DmaSem sig :=
  ((cc0_scratch1.slice (Rect.unit (s := S2x6) (semOff d s) S1x1.size (sem_inb d s))).squeeze S_ squeezes_S1x1_S_).sem
abbrev recvS (d : Fin 2) (s : Fin 6) : DmaSem sig :=
  ((cc0_scratch2.slice (Rect.unit (s := S2x6) (semOff d s) S1x1.size (sem_inb d s))).squeeze S_ squeezes_S1x1_S_).sem
/-- The runtime's barrier semaphore. -/
abbrev barS : Sem sig := (SemArray.scalar (sig.barrier 0 rfl) : Sems sig S_).sem

theorem sendS_val : ∀ (d : Fin 2) (s : Fin 6), (sendS d s).val = 2 + 6 * d.val + s.val := by decide
theorem recvS_val : ∀ (d : Fin 2) (s : Fin 6), (recvS d s).val = 14 + 6 * d.val + s.val := by decide

abbrev barCell (c : Dev nD) : GSem nD τ sig := ((c : Thread nD τ), .reg barS)
abbrev sendCell (d : Fin 2) (s : Fin 6) (c : Dev nD) : GSem nD τ sig := ((c : Thread nD τ), .dma (sendS d s))
abbrev recvCell (d : Fin 2) (s : Fin 6) (c : Dev nD) : GSem nD τ sig := ((c : Thread nD τ), .dma (recvS d s))

/-- What a copy of one chunk credits. -/
abbrev Ncr : ℕ := (slotM 0 0).view.dmaCredit
theorem Ncr_pos : 0 < Ncr := View.dmaCredit_pos _ (by decide)

/-! ## The values -/

/-- What the pipeline stages of device `c`'s input: its whole [1024, 512] block. -/
def xstg (m : Mem F) (c : Dev nD) : (cc0_stg0_0 : Ref sig .tc).ty.Contents (Elt F) :=
  (win0_0.blk t0_0).view.read (Elt F) (m ((c : Thread nD τ).loc main_arg0))

/-- The result block after the body's first store: the input block. -/
def out0 (m : Mem F) (c : Dev nD) : (cc0_stg1_0 : Ref sig .tc).ty.Contents (Elt F) := k0_pay2 (xstg m c)

/-- Chunk `j` of half `d` of a result block's contents. -/
def chunkV (X : (cc0_stg1_0 : Ref sig .tc).ty.Contents (Elt F)) (d : Fin 2) (j : Fin 4) : Vec F S128x512 .f32 :=
  (chunkM d j).view.read (Elt F) (show Buf (Elt F) ((chunkM d j).view.loc ((0 : Dev nD) : Thread nD τ)) from X)

/-- The body's accumulate: the chunk as it stands plus what arrived. -/
def acc (a b : Vec F S128x512 .f32) : Vec F S128x512 .f32 :=
  addf (shapeCast S128x512 a shapeCasts_S128x512_S128x512) b

/-- Chunk `j` of half `d` on device `c` when step `s` begins. Step `s` rewrites chunk `sidx d (s + 1) c`: with its sum with
    what the upstream neighbour sent at step `s` while `s < 3`, with what that neighbour sent from then on. -/
def st (m : Mem F) (d : Fin 2) : ℕ → Dev nD → Fin 4 → Vec F S128x512 .f32
  | 0, c, j => chunkV (out0 m c) d j
  | s + 1, c, j =>
    Function.update (st m d s c) (sidx d (s + 1) c)
      (if s < 3 then acc (st m d s c (sidx d (s + 1) c)) (st m d s (up d c) (sidx d s (up d c)))
       else st m d s (up d c) (sidx d s (up d c))) j

/-- What device `c` sends at step `s` in direction `d`. -/
def snt (m : Mem F) (d : Fin 2) (s : ℕ) (c : Dev nD) : Vec F S128x512 .f32 := st m d s c (sidx d s c)

theorem st_zero (m : Mem F) (d : Fin 2) (c : Dev nD) (j : Fin 4) : st m d 0 c j = chunkV (out0 m c) d j := rfl

theorem st_succ (m : Mem F) (d : Fin 2) (s : ℕ) (c : Dev nD) :
    st m d (s + 1) c = Function.update (st m d s c) (sidx d (s + 1) c)
      (if s < 3 then acc (st m d s c (sidx d (s + 1) c)) (snt m d s (up d c)) else snt m d s (up d c)) := by
  funext j; rfl

/-- What a device has just received and stored is what it sends next. -/
theorem snt_succ (m : Mem F) (d : Fin 2) (s : ℕ) (c : Dev nD) :
    snt m d (s + 1) c = if s < 3 then acc (st m d s c (sidx d (s + 1) c)) (snt m d s (up d c)) else snt m d s (up d c) := by
  show st m d (s + 1) c (sidx d (s + 1) c) = _
  rw [st_succ, Function.update_self]

/-- The skeleton's accumulate payloads are `acc` of the chunk and the slot recast; its copy payloads the slot recast. -/
theorem pay3_eq (a : Vec F S128x512 .f32) (w : Vec F S1x1x128x512 .f32) :
    k0_pay3 a w = acc a (shapeCast S128x512 w shapeCasts_S1x1x128x512_S128x512) := rfl
theorem pay4_eq (a : Vec F S128x512 .f32) (w : Vec F S1x1x128x512 .f32) :
    k0_pay4 a w = acc a (shapeCast S128x512 w shapeCasts_S1x1x128x512_S128x512) := rfl
theorem pay5_eq (a : Vec F S128x512 .f32) (w : Vec F S1x1x128x512 .f32) :
    k0_pay5 a w = acc a (shapeCast S128x512 w shapeCasts_S1x1x128x512_S128x512) := rfl
theorem pay6_eq (a : Vec F S128x512 .f32) (w : Vec F S1x1x128x512 .f32) :
    k0_pay6 a w = acc a (shapeCast S128x512 w shapeCasts_S1x1x128x512_S128x512) := rfl
theorem pay7_eq (a : Vec F S128x512 .f32) (w : Vec F S1x1x128x512 .f32) :
    k0_pay7 a w = acc a (shapeCast S128x512 w shapeCasts_S1x1x128x512_S128x512) := rfl

end Cert.KernelIdealProof

end
-- ==== Proof.Common.lean ====
/-
  What the protocol's modules share: the resource algebra, the pieces of the result block and of the receive buffer
  as assertions, and the schedule. A device's barrier cell is paid one unit by each ring neighbour, and each unit brings
  with it that neighbour's six receive slots for the direction in which this device sends to it: after its barrier
  wait a device owns every slot it will write. The send cell of (direction, step) is paid by the device's own copy
  once its source chunk has been read, and gives the chunk back; the receive cell of (direction, step) is paid by the
  upstream neighbour's copy once it has landed, and gives the slot holding what that neighbour sent at that step.
-/
import proofs.«900732_g7700000000000733_dist_ar_v7x_xyz2x4x4_z_m1024_n512_f32_1_alg».proof.Proof.Values
import proofs.«900732_g7700000000000733_dist_ar_v7x_xyz2x4x4_z_m1024_n512_f32_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's (duties named by the direction) -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The memory at launch: arbitrary contents, every semaphore counter zero, arbitrary generator registers. -/
def s₀ (m : Mem F) (ρ : Dev nD → PrngReg) : MemSt nD τ sig (Elt F) := ⟨m, fun _ => 0, ρ⟩

abbrev 𝒱₀ : Variants := Variants.none

/-! ## Pieces as assertions -/

/-- Chunk `(d, j)` of device `c`'s result block, held by its own elements at contents `f`. -/
def chunkPts (c : Dev nD) (d : Fin 2) (j : Fin 4) (f : Buf (Elt F) ((chunkM d j).view.loc (c : Thread nD τ))) : sProp 𝕄 :=
  (chunkM d j).view.loc (c : Thread nD τ) ↦[(chunkM d j).view.set]{fullShare} f
/-- The same, known by what the chunk reads as. -/
def chunkAt (c : Dev nD) (d : Fin 2) (j : Fin 4) (v : Vec F S128x512 .f32) : sProp 𝕄 :=
  iprop(∃ f, ⌜(chunkM d j).view.read (Elt F) f = v⌝ ∗ chunkPts c d j f)

/-- Receive slot `(d, s)` of device `c`, held by its own elements at contents `f`. -/
def slotPts (c : Dev nD) (d : Fin 2) (s : Fin 6) (f : Buf (Elt F) ((slotM d s).view.loc (c : Thread nD τ))) : sProp 𝕄 :=
  (slotM d s).view.loc (c : Thread nD τ) ↦[(slotM d s).view.set]{fullShare} f
def slotAt (c : Dev nD) (d : Fin 2) (s : Fin 6) (v : Vec F S128x512 .f32) : sProp 𝕄 :=
  iprop(∃ f, ⌜(slotM d s).view.read (Elt F) f = v⌝ ∗ slotPts c d s f)
def slotAny (c : Dev nD) (d : Fin 2) (s : Fin 6) : sProp 𝕄 := iprop(∃ f, slotPts c d s f)
/-- The six slots of direction `d` on device `c`, at any contents. -/
def slotsAny (c : Dev nD) (d : Fin 2) : sProp 𝕄 := bigSep Finset.univ fun s : Fin 6 => slotAny c d s

omit [FloatOps F] in
instance chunkPts_storable (c : Dev nD) (d : Fin 2) (j : Fin 4) (f) : BI.Storable (upEmb : UEmb _ 𝕄) (chunkPts (F := F) c d j f) := by
  unfold chunkPts; infer_instance
omit [FloatOps F] in
instance chunkAt_storable (c : Dev nD) (d : Fin 2) (j : Fin 4) (v) : BI.Storable (upEmb : UEmb _ 𝕄) (chunkAt (F := F) c d j v) := by
  unfold chunkAt; infer_instance
omit [FloatOps F] in
instance slotPts_storable (c : Dev nD) (d : Fin 2) (s : Fin 6) (f) : BI.Storable (upEmb : UEmb _ 𝕄) (slotPts (F := F) c d s f) := by
  unfold slotPts; infer_instance
omit [FloatOps F] in
instance slotAt_storable (c : Dev nD) (d : Fin 2) (s : Fin 6) (v) : BI.Storable (upEmb : UEmb _ 𝕄) (slotAt (F := F) c d s v) := by
  unfold slotAt; infer_instance
omit [FloatOps F] in
instance slotAny_storable (c : Dev nD) (d : Fin 2) (s : Fin 6) : BI.Storable (upEmb : UEmb _ 𝕄) (slotAny (F := F) c d s) := by
  unfold slotAny; infer_instance
omit [FloatOps F] in
instance slotsAny_storable (c : Dev nD) (d : Fin 2) : BI.Storable (upEmb : UEmb _ 𝕄) (slotsAny (F := F) c d) := by
  unfold slotsAny; infer_instance

/-! ## The schedule -/

/-- Which copy a DMA semaphore belongs to: `(false, d, s)` the send semaphore of (direction, step), `(true, d, s)` the
    receive semaphore; the pipeline's own two staging semaphores belong to none. -/
def xferOf (q : DmaSem sig) : Option (Bool × Fin 2 × Fin 6) :=
  if h : 2 ≤ q.val ∧ q.val < 14 then some (false, ⟨(q.val - 2) / 6, by omega⟩, ⟨(q.val - 2) % 6, Nat.mod_lt _ (by decide)⟩)
  else if h : 14 ≤ q.val ∧ q.val < 26 then some (true, ⟨(q.val - 14) / 6, by omega⟩, ⟨(q.val - 14) % 6, Nat.mod_lt _ (by decide)⟩)
  else none

theorem xferOf_send : ∀ (d : Fin 2) (s : Fin 6), xferOf (sendS d s) = some (false, d, s) := by decide
theorem xferOf_recv : ∀ (d : Fin 2) (s : Fin 6), xferOf (recvS d s) = some (true, d, s) := by decide

/-- A cell's payload by its semaphore: a barrier unit of direction `dd` brings the payer's slots of that direction;
    a send cell gives the source chunk back as sent; a receive cell the slot holding what upstream sent. -/
def payOf (m : Mem F) (c : Dev nD) (sm : SemLoc sig) (dd : Fin 2) : sProp 𝕄 :=
  match sm with
  | .reg _ => slotsAny (dn dd c) dd
  | .dma q =>
    match xferOf q with
    | some (false, d, s) => chunkAt c d (sidx d s.val c) (snt m d s.val c)
    | some (true, d, s) => slotAt c d s (snt m d s.val (up d c))
    | none => iprop(emp)

instance payOf_storable (m : Mem F) (c : Dev nD) (sm : SemLoc sig) (dd : Fin 2) : BI.Storable (upEmb : UEmb _ 𝕄) (payOf m c sm dd) := by
  unfold payOf
  split
  · infer_instance
  · split <;> infer_instance

/-- One round. A TensorCore's barrier cell has the two duties 0 and 1 of one unit each; each of its send and receive
    cells the duty 0 of one chunk's credit. -/
def ringRd (m : Mem F) : Rounds.Schedule (GSem nD τ sig) (Fin 2) 𝕄 where
  duties g r :=
    if r = 0 ∧ g.1.2 = .tc then
      (match g.2 with
       | .reg q => if q = barS then Finset.univ else ∅
       | .dma q => if (xferOf q).isSome then {0} else ∅)
    else ∅
  unitless _ := False
  amount g _ _ := match g.2 with | .reg _ => 1 | .dma _ => Ncr
  payload g _ dd := payOf m g.1.1 g.2 dd
  amount_pos g _ _ _ := by
    cases g.2 with
    | reg _ => exact Nat.one_pos
    | dma _ => exact Ncr_pos

instance ringRd_payload_storable (m : Mem F) (g : GSem nD τ sig) (r : ℕ) (dd : Fin 2) :
    BI.Storable (upEmb : UEmb _ 𝕄) ((ringRd m).payload g r dd) := payOf_storable m g.1.1 g.2 dd

end Cert.KernelIdealProof

end
-- ==== Proof.Schedule.lean ====
/-
  The schedule's tables, cell by cell, what each device owes from launch, and the levels that order the waits.
  A device owes one barrier unit to each ring neighbour and, for each of its twelve copies, one chunk's credit to the
  receive cell of (direction, step) on the neighbour the copy goes to. It waits on its barrier owing all twelve
  credits, on the receive cell of step s owing only the credits of later steps, and on send and staging cells owing
  anything: so barrier cells lie below every receive cell, the receive cells of step s below those of step s + 1, and
  send and staging cells lowest.
-/
import proofs.«900732_g7700000000000733_dist_ar_v7x_xyz2x4x4_z_m1024_n512_f32_1_alg».proof.Proof.Common

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

section Tables
variable (c : Dev nD) (d : Fin 2) (s : Fin 6)

theorem duties_bar : (ringRd m).duties (barCell c) 0 = Finset.univ := by
  dsimp only [ringRd]; rw [if_pos ⟨rfl, rfl⟩]; exact if_pos rfl
theorem duties_send : (ringRd m).duties (sendCell d s c) 0 = {0} := by
  dsimp only [ringRd]; rw [if_pos ⟨rfl, rfl⟩, xferOf_send]; rfl
theorem duties_recv : (ringRd m).duties (recvCell d s c) 0 = {0} := by
  dsimp only [ringRd]; rw [if_pos ⟨rfl, rfl⟩, xferOf_recv]; rfl
theorem duties_later (g : GSem nD τ sig) : ∀ r, 1 ≤ r → (ringRd m).duties g r = ∅ :=
  fun r hr => by dsimp only [ringRd]; rw [if_neg fun h => by omega]

theorem amount_bar (dd : Fin 2) : (ringRd m).amount (barCell c) 0 dd = 1 := rfl
theorem amount_send (dd : Fin 2) : (ringRd m).amount (sendCell d s c) 0 dd = Ncr := rfl
theorem amount_recv (dd : Fin 2) : (ringRd m).amount (recvCell d s c) 0 dd = Ncr := rfl

theorem expect_bar : (ringRd m).expect (barCell c) 0 = 2 := by
  unfold Schedule.expect Schedule.amountOf
  rw [duties_bar, Finset.sum_congr rfl fun dd _ => amount_bar m c dd, Finset.sum_const, Finset.card_univ, Fintype.card_fin, smul_eq_mul]
theorem expect_send : (ringRd m).expect (sendCell d s c) 0 = Ncr := by
  unfold Schedule.expect Schedule.amountOf; rw [duties_send, Finset.sum_singleton, amount_send]
theorem expect_recv : (ringRd m).expect (recvCell d s c) 0 = Ncr := by
  unfold Schedule.expect Schedule.amountOf; rw [duties_recv, Finset.sum_singleton, amount_recv]

theorem payload_bar (dd : Fin 2) : (ringRd m).payload (barCell c) 0 dd = slotsAny (dn dd c) dd := rfl
theorem payload_send (dd : Fin 2) : (ringRd m).payload (sendCell d s c) 0 dd = chunkAt c d (sidx d s.val c) (snt m d s.val c) := by
  show payOf m c (.dma (sendS d s)) dd = _
  unfold payOf; simp only [xferOf_send]
theorem payload_recv (dd : Fin 2) : (ringRd m).payload (recvCell d s c) 0 dd = slotAt c d s (snt m d s.val (up d c)) := by
  show payOf m c (.dma (recvS d s)) dd = _
  unfold payOf; simp only [xferOf_recv]

/-- The whole of a barrier cell's round: both neighbours' slots. -/
theorem rest_bar : bigSep ((ringRd m).duties (barCell c) 0 \ ∅) (fun dd => (ringRd m).payload (barCell c) 0 dd)
    = iprop(slotsAny (dn 0 c) 0 ∗ slotsAny (dn 1 c) 1) := by
  rw [Finset.sdiff_empty, duties_bar, bigSep_univ_eq_bigSepL [0, 1] (by decide) (by decide), bigSepL_cons_cons, bigSepL_singleton]
  rfl
theorem rest_send : bigSep ((ringRd m).duties (sendCell d s c) 0 \ ∅) (fun dd => (ringRd m).payload (sendCell d s c) 0 dd)
    = chunkAt c d (sidx d s.val c) (snt m d s.val c) := by
  rw [Finset.sdiff_empty, duties_send, bigSep_singleton, payload_send]
theorem rest_recv : bigSep ((ringRd m).duties (recvCell d s c) 0 \ ∅) (fun dd => (ringRd m).payload (recvCell d s c) 0 dd)
    = slotAt c d s (snt m d s.val (up d c)) := by
  rw [Finset.sdiff_empty, duties_recv, bigSep_singleton, payload_recv]

end Tables

/-! ## What each device owes at launch -/

/-- The copies in program order: copy `i` is direction `i % 2` of step `i / 2`. -/
def dOf (i : ℕ) : Fin 2 := ⟨i % 2, Nat.mod_lt _ (by decide)⟩
def sOf (i : ℕ) : Fin 6 := ⟨i / 2 % 6, Nat.mod_lt _ (by decide)⟩

/-- The credit copy `i` of device `c` owes: one chunk's, to the receive cell of its (direction, step) downstream. -/
def copyOwes (c : Dev nD) (i : ℕ) : CellTallies nD τ sig Unit := tallyAt (recvCell (dOf i) (sOf i) (dn (dOf i) c)) () Ncr

/-- What device `c` owes for its last `n` copies (copies `12 − n … 11`), the earliest of them the last summand. -/
def owedFrom (c : Dev nD) : ℕ → CellTallies nD τ sig Unit
  | 0 => 0
  | n + 1 => owedFrom c n + copyOwes c (12 - (n + 1))

/-- After the first signal (to the neighbour below): the twelve copies and the unit for the neighbour above. -/
def O₁ (c : Dev nD) : CellTallies nD τ sig Unit := owedFrom c 12 + tallyAt (barCell (rgt c)) () 1
/-- At launch. -/
def O₀ (c : Dev nD) : CellTallies nD τ sig Unit := O₁ c + tallyAt (barCell (lft c)) () 1

theorem owedFrom_succ (c : Dev nD) (n : ℕ) : owedFrom c (n + 1) = owedFrom c n + copyOwes c (12 - (n + 1)) := rfl

/-- Whatever is owed for the last `n` copies is owed to the receive cell of one of them. -/
theorem owedFrom_pos {c : Dev nD} {n : ℕ} (hn : n ≤ 12) {g : GSem nD τ sig} {u : Unit} (h : 0 < owedFrom c n g u) :
    ∃ i, 12 - n ≤ i ∧ i < 12 ∧ g = recvCell (dOf i) (sOf i) (dn (dOf i) c) := by
  induction n with
  | zero => exact absurd h (Nat.lt_irrefl 0)
  | succ n ih =>
    rw [owedFrom_succ, Pi.add_apply, Finsupp.add_apply] at h
    by_cases h1 : 0 < owedFrom c n g u
    · obtain ⟨i, hi, hi', hg⟩ := ih (by omega) h1
      exact ⟨i, by omega, hi', hg⟩
    · have h2 : 0 < copyOwes c (12 - (n + 1)) g u := by omega
      unfold copyOwes at h2
      rw [tallyAt_apply] at h2
      by_cases hg : g = recvCell (dOf (12 - (n + 1))) (sOf (12 - (n + 1))) (dn (dOf (12 - (n + 1))) c) ∧ u = ()
      · exact ⟨12 - (n + 1), le_refl _, by omega, hg.1⟩
      · rw [if_neg hg] at h2; exact absurd h2 (Nat.lt_irrefl 0)

theorem O₀_pos {c : Dev nD} {g : GSem nD τ sig} {u : Unit} (h : 0 < O₀ c g u) :
    g = barCell (lft c) ∨ g = barCell (rgt c) ∨ ∃ i, i < 12 ∧ g = recvCell (dOf i) (sOf i) (dn (dOf i) c) := by
  unfold O₀ O₁ at h
  rw [Pi.add_apply, Finsupp.add_apply, Pi.add_apply, Finsupp.add_apply, tallyAt_apply, tallyAt_apply] at h
  by_cases h1 : 0 < owedFrom c 12 g u
  · obtain ⟨i, _, hi, hg⟩ := owedFrom_pos (le_refl 12) h1
    exact .inr (.inr ⟨i, hi, hg⟩)
  · by_contra hn
    rw [not_or, not_or] at hn
    rw [if_neg (fun h' => hn.2.1 h'.1), if_neg (fun h' => hn.1 h'.1)] at h
    omega

/-! ## The levels -/

def L (g : GSem nD τ sig) : Finset Unit := if g.1.2 = .tc then {()} else ∅
/-- Barrier cells at 1, the receive cells of step `s` at `2 + s`, every other cell at 0. -/
def lv (g : GSem nD τ sig) (_ : Unit) : ℕ :=
  match g.2 with
  | .reg _ => 1
  | .dma q => match xferOf q with
    | some (true, _, s) => 2 + s.val
    | _ => 0

theorem L_of_ne (g : GSem nD τ sig) (h : g.1.2 ≠ .tc) : L g = ∅ := if_neg h
theorem L_tc (c : Dev nD) (sm : SemLoc sig) : L ((c : Thread nD τ), sm) = {()} := if_pos rfl

private theorem lv_reg (c : Dev nD) (q : Sem sig) (u : Unit) : lv ((c : Thread nD τ), .reg q) u = 1 := rfl
private theorem lv_recv (d : Fin 2) (s : Fin 6) (c : Dev nD) (u : Unit) : lv (recvCell d s c) u = 2 + s.val := by
  unfold lv; simp only [xferOf_recv]
private theorem lv_low (c : Dev nD) (q : DmaSem sig) (hq : ∀ d s, xferOf q ≠ some (true, d, s)) (u : Unit) :
    lv ((c : Thread nD τ), .dma q) u = 0 := by
  show (match xferOf q with | some (true, _, s) => 2 + s.val | _ => 0) = 0
  split
  · next d s h => exact absurd h (hq d s)
  · rfl

omit [FloatOps F] in
/-- The cut: a device may wait on its cell `sm` when that cell's level is at most `b` and everything it owes is owed to a
    TensorCore's cell of level above `b`. -/
private theorem mayWait_of_cut (c : Dev nD) (sm : SemLoc sig) (b : ℕ) (O : CellTallies nD τ sig Unit)
    (hb : lv ((c : Thread nD τ), sm) () ≤ b)
    (hO : ∀ g u, 0 < O g u → (∃ c' : Dev nD, g.1 = (c' : Thread nD τ)) ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by
      obtain ⟨⟨c', hc'⟩, _⟩ := hO g u hg
      obtain ⟨t, sm'⟩ := g
      dsimp only at hc'; subst hc'
      rw [L_tc]; exact Finset.mem_singleton_self _)
    (fun p hp => by rw [Finset.mem_singleton.mp hp]; exact hb)
    (fun g u hg => (hO g u hg).2)

omit [FloatOps F] in
/-- A wait on a cell that is no receive cell and no regular semaphore (a send cell, a staging cell), owing anything of the launch's. -/
theorem mayWait_low (c : Dev nD) (q : DmaSem sig) (hq : ∀ d s, xferOf q ≠ some (true, d, s)) (O : CellTallies nD τ sig Unit)
    (hO : O = O₀ c ∨ ∃ n, n ≤ 12 ∧ O = owedFrom c n) :
    (levAts L lv : sProp 𝕄) ⊢ MayWait (c : Thread nD τ) (.dma q) () O := by
  refine mayWait_of_cut c (.dma q) 0 O (le_of_eq (lv_low c q hq ())) fun g u hg => ?_
  rcases hO with rfl | ⟨n, hn, rfl⟩
  · rcases O₀_pos hg with rfl | rfl | ⟨i, _, rfl⟩
    · exact ⟨⟨_, rfl⟩, by rw [lv_reg]; exact Nat.one_pos⟩
    · exact ⟨⟨_, rfl⟩, by rw [lv_reg]; exact Nat.one_pos⟩
    · exact ⟨⟨_, rfl⟩, by rw [lv_recv]; omega⟩
  · obtain ⟨i, _, _, rfl⟩ := owedFrom_pos hn hg
    exact ⟨⟨_, rfl⟩, by rw [lv_recv]; omega⟩

omit [FloatOps F] in
/-- The barrier wait, owing the twelve copies. -/
theorem mayWait_bar (c : Dev nD) : (levAts L lv : sProp 𝕄) ⊢ MayWait (c : Thread nD τ) (.reg barS) () (owedFrom c 12) := by
  refine mayWait_of_cut c (.reg barS) 1 _ (le_of_eq (lv_reg c barS ())) fun g u hg => ?_
  obtain ⟨i, _, _, rfl⟩ := owedFrom_pos (le_refl 12) hg
  exact ⟨⟨_, rfl⟩, by rw [lv_recv]; omega⟩

omit [FloatOps F] in
/-- The wait on the receive cell of (direction, step `s`), owing only copies of later steps. -/
theorem mayWait_recv (c : Dev nD) (d : Fin 2) (s : Fin 6) (n : ℕ) (hn : n + 2 * (s.val + 1) ≤ 12) :
    (levAts L lv : sProp 𝕄) ⊢ MayWait (c : Thread nD τ) (.dma (recvS d s)) () (owedFrom c n) := by
  refine mayWait_of_cut c (.dma (recvS d s)) (2 + s.val) _ (le_of_eq (lv_recv d s c ())) fun g u hg => ?_
  obtain ⟨i, hi, hi', rfl⟩ := owedFrom_pos (by omega) hg
  refine ⟨⟨_, rfl⟩, ?_⟩
  rw [lv_recv]
  show 2 + s.val < 2 + i / 2 % 6
  omega

end Cert.KernelIdealProof

end
-- ==== Proof.Pieces.lean ====
/-
  The result block as its eight chunks and the receive buffer as its twelve slots: cutting a whole buffer into the
  pieces' assertions and putting them back, taking one chunk out of a half and returning it rewritten, and the
  body's loads and stores on a chunk or a slot read through the piece's own view.
-/
import proofs.«900732_g7700000000000733_dist_ar_v7x_xyz2x4x4_z_m1024_n512_f32_1_alg».proof.Proof.Common

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A block from its chunks -/

/-- The [1024, 512] contents whose chunk `(d, j)` is `g d j`: row `r` lies in chunk `(r / 512, r % 512 / 128)` at row `r % 128`. -/
def assemble (g : Fin 2 → Fin 4 → Vec F S128x512 .f32) : (cc0_stg1_0 : Ref sig .tc).ty.Contents (Elt F) :=
  fun (i : S1024x512.Idx) =>
    g ⟨(i 0).val / 512, by have h : (i 0).val < 1024 := (i 0).isLt; omega⟩
      ⟨(i 0).val % 512 / 128, by omega⟩
      (fun a => match a with
        | ⟨0, _⟩ => ⟨(i 0).val % 128, Nat.mod_lt _ (by decide)⟩
        | ⟨1, _⟩ => ⟨(i 1).val, (i 1).isLt⟩)

omit [FloatOps F] in
/-- Where a chunk's own index sits in the block: row `512 d + 128 j + y 0`, column `y 1`. -/
private theorem chunk_emb_row (d : Fin 2) (j : Fin 4) (y : S128x512.Idx) :
    ((chunkR d j).emb y 0).val = 512 * d.val + 128 * j.val + (y 0).val := by
  simp [Rect.emb_apply, chunkOff]
omit [FloatOps F] in
private theorem chunk_emb_col (d : Fin 2) (j : Fin 4) (y : S128x512.Idx) :
    ((chunkR d j).emb y 1).val = (y 1).val := by
  simp [Rect.emb_apply, chunkOff]

omit [FloatOps F] in
private theorem chunkV_apply (X : (cc0_stg1_0 : Ref sig .tc).ty.Contents (Elt F)) (d : Fin 2) (j : Fin 4) (y : S128x512.Idx) :
    chunkV X d j y = X ((chunkR d j).emb y) := rfl

omit [FloatOps F] in
theorem chunkV_assemble (g : Fin 2 → Fin 4 → Vec F S128x512 .f32) (d : Fin 2) (j : Fin 4) : chunkV (assemble g) d j = g d j := by
  funext y
  rw [chunkV_apply]
  have hr := chunk_emb_row d j y
  have hc := chunk_emb_col d j y
  have hy : (y 0).val < 128 := (y 0).isLt
  have hd : d.val < 2 := d.isLt
  have hj : j.val < 4 := j.isLt
  unfold assemble
  have e1 : (⟨((chunkR d j).emb y 0).val / 512, by have h : ((chunkR d j).emb y 0).val < 1024 := ((chunkR d j).emb y 0).isLt; omega⟩ : Fin 2) = d :=
    Fin.ext (by show ((chunkR d j).emb y 0).val / 512 = d.val; omega)
  have e2 : (⟨((chunkR d j).emb y 0).val % 512 / 128, by omega⟩ : Fin 4) = j :=
    Fin.ext (by show ((chunkR d j).emb y 0).val % 512 / 128 = j.val; omega)
  rw [e1, e2]
  congr 1
  funext a
  match a with
  | ⟨0, _⟩ => exact Fin.ext (by show ((chunkR d j).emb y 0).val % 128 = (y 0).val; omega)
  | ⟨1, _⟩ => exact Fin.ext hc

/-! ## The pieces' element sets -/

omit [FloatOps F] in
/-- A chunk's elements are its rectangle's; a slot's likewise (the squeeze renames indices only). -/
theorem chunk_set (d : Fin 2) (j : Fin 4) : (chunkM d j).view.set = (chunkR d j).set :=
  View.set_slice_whole cc0_stg1_0 (chunkR d j)
omit [FloatOps F] in
theorem slot_set (d : Fin 2) (s : Fin 6) : (slotM d s).view.set = (slotR d s).set :=
  (View.set_reshape (v := rM.view.slice (slotR d s)) squeezes_S1x1x128x512_S128x512.numel_eq).trans (View.set_slice_whole cc0_scratch0 (slotR d s))

omit [FloatOps F] in
/-- A slot read through the copies' view is the [1, 1, 128, 512] vector the body's loads read there, recast. -/
theorem slot_read (d : Fin 2) (s : Fin 6) (f : Buf (Elt F) ((slotM d s).view.loc ((0 : Dev nD) : Thread nD τ))) :
    (slotM d s).view.read (Elt F) f
      = shapeCast S128x512 (rM.view.readAt (Elt F) (slotR d s).toLoadRect f) shapeCasts_S1x1x128x512_S128x512 :=
  Memref.read_squeeze_slice rM (slotR d s) (fun _ => rfl) squeezes_S1x1x128x512_S128x512 shapeCasts_S1x1x128x512_S128x512 f

omit [FloatOps F] in
/-- Chunk `(d, j)` is the rows `512 d + 128 j … + 127`, every column. -/
private theorem mem_chunk {d : Fin 2} {j : Fin 4} {i : S1024x512.Idx} :
    i ∈ (chunkR d j).set ↔ 512 * d.val + 128 * j.val ≤ (i 0).val ∧ (i 0).val < 512 * d.val + 128 * j.val + 128 := by
  rw [Rect.mem_set_unit]
  constructor
  · intro h
    have h0 := h 0
    simpa [chunkOff] using h0
  · rintro ⟨h1, h2⟩ a
    match a with
    | ⟨0, _⟩ => simpa [chunkOff] using And.intro h1 h2
    | ⟨1, _⟩ =>
      have h512 : (i 1).val < 512 := (i 1).isLt
      simpa [chunkOff] using h512

omit [FloatOps F] in
/-- Slot `(d, s)` is the elements whose first two coordinates are `d` and `s`. -/
private theorem mem_slot {d : Fin 2} {s : Fin 6} {i : S2x6x128x512.Idx} :
    i ∈ (slotR d s).set ↔ (i 0).val = d.val ∧ (i 1).val = s.val := by
  rw [Rect.mem_set_unit]
  constructor
  · intro h
    have h0 := h 0
    have h1 := h 1
    simp [slotOff] at h0 h1
    omega
  · rintro ⟨h0, h1⟩ a
    match a with
    | ⟨0, _⟩ => simp [slotOff]; omega
    | ⟨1, _⟩ => simp [slotOff]; omega
    | ⟨2, _⟩ =>
      have h128 : (i 2).val < 128 := (i 2).isLt
      simpa [slotOff] using h128
    | ⟨3, _⟩ =>
      have h512 : (i 3).val < 512 := (i 3).isLt
      simpa [slotOff] using h512

omit [FloatOps F] in
private theorem chunk_disjoint (a b : Fin 2 × Fin 4) (h : a ≠ b) : Disjoint (chunkR a.1 a.2).set (chunkR b.1 b.2).set := by
  rw [Finset.disjoint_left]
  intro i hi hi'
  obtain ⟨l, u⟩ := mem_chunk.mp hi
  obtain ⟨l', u'⟩ := mem_chunk.mp hi'
  have ha := a.2.isLt
  have hb := b.2.isLt
  exact h (Prod.ext (Fin.ext (by omega)) (Fin.ext (by omega)))

omit [FloatOps F] in
private theorem chunk_cover : (Finset.univ : Finset (Fin 2 × Fin 4)).biUnion (fun a => (chunkR a.1 a.2).set) = Finset.univ := by
  ext i
  simp only [Finset.mem_biUnion, Finset.mem_univ, true_and, iff_true]
  have hi : (i 0).val < 1024 := (i 0).isLt
  refine ⟨(⟨(i 0).val / 512, by omega⟩, ⟨(i 0).val % 512 / 128, by omega⟩), mem_chunk.mpr ?_⟩
  show 512 * ((i 0).val / 512) + 128 * ((i 0).val % 512 / 128) ≤ (i 0).val ∧ (i 0).val < 512 * ((i 0).val / 512) + 128 * ((i 0).val % 512 / 128) + 128
  omega

omit [FloatOps F] in
private theorem slot_disjoint (a b : Fin 2 × Fin 6) (h : a ≠ b) : Disjoint (slotR a.1 a.2).set (slotR b.1 b.2).set := by
  rw [Finset.disjoint_left]
  intro i hi hi'
  obtain ⟨h0, h1⟩ := mem_slot.mp hi
  obtain ⟨h0', h1'⟩ := mem_slot.mp hi'
  exact h (Prod.ext (Fin.ext (h0.symm.trans h0')) (Fin.ext (h1.symm.trans h1')))

omit [FloatOps F] in
private theorem slot_cover : (Finset.univ : Finset (Fin 2 × Fin 6)).biUnion (fun a => (slotR a.1 a.2).set) = Finset.univ := by
  ext i
  simp only [Finset.mem_biUnion, Finset.mem_univ, true_and, iff_true]
  exact ⟨(⟨(i 0).val, (i 0).isLt⟩, ⟨(i 1).val, (i 1).isLt⟩), mem_slot.mpr ⟨rfl, rfl⟩⟩

/-! ## A half as its four chunks -/

/-- The four chunks of half `d` on device `c`, chunk `j` reading as `g j`. -/
def chunks (c : Dev nD) (d : Fin 2) (g : Fin 4 → Vec F S128x512 .f32) : sProp 𝕄 :=
  bigSep Finset.univ fun j : Fin 4 => chunkAt c d j (g j)
/-- All but chunk `j`. -/
def chunksBut (c : Dev nD) (d : Fin 2) (g : Fin 4 → Vec F S128x512 .f32) (j : Fin 4) : sProp 𝕄 :=
  bigSep (Finset.univ.erase j) fun j' : Fin 4 => chunkAt c d j' (g j')

omit [FloatOps F] in
theorem chunks_take (c : Dev nD) (d : Fin 2) (g : Fin 4 → Vec F S128x512 .f32) (j : Fin 4) :
    chunks c d g ⊢ iprop(chunkAt c d j (g j) ∗ chunksBut c d g j) := by
  unfold chunks chunksBut
  rw [bigSep_univ_at _ j]
omit [FloatOps F] in
theorem chunks_put (c : Dev nD) (d : Fin 2) (g : Fin 4 → Vec F S128x512 .f32) (j : Fin 4) (v : Vec F S128x512 .f32) :
    iprop(chunkAt c d j v ∗ chunksBut c d g j) ⊢ chunks c d (Function.update g j v) := by
  unfold chunks chunksBut
  rw [bigSep_univ_at (fun j' => chunkAt c d j' (Function.update g j v j')) j, Function.update_self,
    bigSep_congr (s := Finset.univ.erase j) (Φ := fun j' => chunkAt c d j' (Function.update g j v j')) (Ψ := fun j' => chunkAt c d j' (g j'))
      (fun j' hj' => by rw [Function.update_of_ne (Finset.ne_of_mem_erase hj')])]

/-! ## The whole buffers and their pieces -/

omit [FloatOps F] in
/-- The block held whole is the eight chunk rectangles held at the same contents. -/
private theorem out_eq (c : Dev nD) (X : (cc0_stg1_0 : Ref sig .tc).ty.Contents (Elt F)) :
    ((((c : Thread nD τ).loc cc0_stg1_0) ↦{fullShare} X) : sProp 𝕄)
      = bigSep Finset.univ fun a : Fin 2 × Fin 4 => (((c : Thread nD τ).loc cc0_stg1_0) ↦[(chunkR a.1 a.2).set]{fullShare} X : sProp 𝕄) := by
  have e := pointsTo_biUnion (nD := nD) (τ := τ) (sig := sig) (Ix := Unit) (Val := Elt F) (Name := ℕ) (U := UU) (Lvl := ℕ)
    (ℓ := (c : Thread nD τ).loc cc0_stg1_0) (q := fullShare) (f := X) Finset.univ (fun a : Fin 2 × Fin 4 => (chunkR a.1 a.2).set)
    (fun a _ b _ h => chunk_disjoint a b h)
  rw [chunk_cover] at e
  exact e

omit [FloatOps F] in
/-- Contents whose read through a chunk is the chunk of `X` agree with `X` on the chunk's elements. -/
private theorem chunkPts_eq (c : Dev nD) (d : Fin 2) (j : Fin 4) (f : Buf (Elt F) ((chunkM d j).view.loc (c : Thread nD τ)))
    (X : (cc0_stg1_0 : Ref sig .tc).ty.Contents (Elt F)) (h : (chunkM d j).view.read (Elt F) f = chunkV X d j) :
    chunkPts c d j f = ((((c : Thread nD τ).loc cc0_stg1_0) ↦[(chunkR d j).set]{fullShare} X) : sProp 𝕄) := by
  unfold chunkPts
  rw [chunk_set]
  refine pointsTo_congr fun i hi => ?_
  obtain ⟨y, rfl⟩ := (chunkR d j).exists_idx_of_mem hi
  exact congrFun h y

omit [FloatOps F] in
private theorem chunkAt_intro (c : Dev nD) (d : Fin 2) (j : Fin 4) (X : (cc0_stg1_0 : Ref sig .tc).ty.Contents (Elt F)) :
    ((((c : Thread nD τ).loc cc0_stg1_0) ↦[(chunkR d j).set]{fullShare} X) : sProp 𝕄) ⊢ chunkAt c d j (chunkV X d j) := by
  unfold chunkAt
  iintro H
  iexists X
  isplitr
  · ipureintro; rfl
  · iapply (Entails.of_eq (chunkPts_eq c d j X X rfl).symm) $$ H

omit [FloatOps F] in
private theorem chunkAt_elim (c : Dev nD) (d : Fin 2) (j : Fin 4) (X : (cc0_stg1_0 : Ref sig .tc).ty.Contents (Elt F)) :
    chunkAt c d j (chunkV X d j) ⊢ ((((c : Thread nD τ).loc cc0_stg1_0) ↦[(chunkR d j).set]{fullShare} X) : sProp 𝕄) := by
  unfold chunkAt
  iintro ⟨%f, %hf, H⟩
  iapply (Entails.of_eq (chunkPts_eq c d j f X hf)) $$ H

omit [FloatOps F] in
/-- The result block held whole is its eight chunks, each reading as its part. -/
theorem out_split (c : Dev nD) (X : (cc0_stg1_0 : Ref sig .tc).ty.Contents (Elt F)) :
    ((((c : Thread nD τ).loc cc0_stg1_0) ↦{fullShare} X) : sProp 𝕄) ⊢ iprop(chunks c 0 (chunkV X 0) ∗ chunks c 1 (chunkV X 1)) := by
  unfold chunks
  rw [out_eq, bigSep_univ_prod, bigSep_univ_two]
  exact BIClass.sep_mono (bigSep_mono fun j _ => chunkAt_intro c 0 j X) (bigSep_mono fun j _ => chunkAt_intro c 1 j X)
omit [FloatOps F] in
/-- Eight chunks reading as the parts of `X` are the block held whole at `X`. -/
theorem out_join (c : Dev nD) (X : (cc0_stg1_0 : Ref sig .tc).ty.Contents (Elt F)) (g₀ g₁ : Fin 4 → Vec F S128x512 .f32)
    (h₀ : ∀ j, chunkV X 0 j = g₀ j) (h₁ : ∀ j, chunkV X 1 j = g₁ j) :
    iprop(chunks c 0 g₀ ∗ chunks c 1 g₁) ⊢ ((((c : Thread nD τ).loc cc0_stg1_0) ↦{fullShare} X) : sProp 𝕄) := by
  obtain rfl : chunkV X 0 = g₀ := funext h₀
  obtain rfl : chunkV X 1 = g₁ := funext h₁
  unfold chunks
  rw [out_eq, bigSep_univ_prod, bigSep_univ_two]
  exact BIClass.sep_mono (bigSep_mono fun j _ => chunkAt_elim c 0 j X) (bigSep_mono fun j _ => chunkAt_elim c 1 j X)

omit [FloatOps F] in
theorem slotAt_any (c : Dev nD) (d : Fin 2) (s : Fin 6) (v : Vec F S128x512 .f32) : slotAt c d s v ⊢ slotAny c d s := by
  unfold slotAt slotAny
  iintro ⟨%f, %hf, H⟩
  iexists f
  iexact H
omit [FloatOps F] in
/-- The six slots of a direction one by one. -/
theorem slotsAny_six (c : Dev nD) (d : Fin 2) :
    slotsAny (F := F) c d = iprop(slotAny c d 0 ∗ slotAny c d 1 ∗ slotAny c d 2 ∗ slotAny c d 3 ∗ slotAny c d 4 ∗ slotAny c d 5) := by
  unfold slotsAny
  rw [bigSep_univ_eq_bigSepL [0, 1, 2, 3, 4, 5] (by decide) (by decide)]
  rfl
omit [FloatOps F] in
/-- The receive buffer held whole is the twelve slot rectangles held at the same contents. -/
private theorem scr_eq (c : Dev nD) (f : Buf (Elt F) ((c : Thread nD τ).loc cc0_scratch0)) :
    ((((c : Thread nD τ).loc cc0_scratch0) ↦{fullShare} f) : sProp 𝕄)
      = bigSep Finset.univ fun a : Fin 2 × Fin 6 => (((c : Thread nD τ).loc cc0_scratch0) ↦[(slotR a.1 a.2).set]{fullShare} f : sProp 𝕄) := by
  have e := pointsTo_biUnion (nD := nD) (τ := τ) (sig := sig) (Ix := Unit) (Val := Elt F) (Name := ℕ) (U := UU) (Lvl := ℕ)
    (ℓ := (c : Thread nD τ).loc cc0_scratch0) (q := fullShare) (f := f) Finset.univ (fun a : Fin 2 × Fin 6 => (slotR a.1 a.2).set)
    (fun a _ b _ h => slot_disjoint a b h)
  rw [slot_cover] at e
  exact e

omit [FloatOps F] in
private theorem slotPts_eq (c : Dev nD) (d : Fin 2) (s : Fin 6) (f : Buf (Elt F) ((slotM d s).view.loc (c : Thread nD τ))) :
    slotPts c d s f = ((((c : Thread nD τ).loc cc0_scratch0) ↦[(slotR d s).set]{fullShare} f) : sProp 𝕄) := by
  unfold slotPts
  rw [slot_set]

omit [FloatOps F] in
private theorem slotAny_intro (c : Dev nD) (d : Fin 2) (s : Fin 6) (f : Buf (Elt F) ((c : Thread nD τ).loc cc0_scratch0)) :
    ((((c : Thread nD τ).loc cc0_scratch0) ↦[(slotR d s).set]{fullShare} f) : sProp 𝕄) ⊢ slotAny c d s := by
  unfold slotAny slotPts
  iintro H
  iexists f
  rw [slot_set]
  iexact H

omit [FloatOps F] in
/-- The receive buffer held whole at some contents is its twelve slots at some contents, and back. -/
theorem slots_split (c : Dev nD) :
    (iprop(∃ f : Buf (Elt F) ((c : Thread nD τ).loc cc0_scratch0), ((c : Thread nD τ).loc cc0_scratch0) ↦{fullShare} f) : sProp 𝕄)
      ⊢ iprop(slotsAny c 0 ∗ slotsAny c 1) := by
  iintro ⟨%f, H⟩
  iapply (show ((((c : Thread nD τ).loc cc0_scratch0) ↦{fullShare} f) : sProp 𝕄) ⊢ iprop(slotsAny c 0 ∗ slotsAny c 1) from by
    unfold slotsAny
    rw [scr_eq, bigSep_univ_prod, bigSep_univ_two]
    exact BIClass.sep_mono (bigSep_mono fun s _ => slotAny_intro c 0 s f) (bigSep_mono fun s _ => slotAny_intro c 1 s f)) $$ H
omit [FloatOps F] in
/-- Twelve slots at given contents are the buffer held whole at some contents. -/
private theorem slots_join_at (c : Dev nD) (fs : Fin 2 × Fin 6 → Buf (Elt F) ((c : Thread nD τ).loc cc0_scratch0)) :
    (bigSep Finset.univ fun a : Fin 2 × Fin 6 => (((c : Thread nD τ).loc cc0_scratch0) ↦[(slotR a.1 a.2).set]{fullShare} fs a : sProp 𝕄))
      ⊢ (iprop(∃ f : Buf (Elt F) ((c : Thread nD τ).loc cc0_scratch0), ((c : Thread nD τ).loc cc0_scratch0) ↦{fullShare} f) : sProp 𝕄) := by
  have e := pointsTo_biUnion_join (nD := nD) (τ := τ) (sig := sig) (Ix := Unit) (Val := Elt F) (Name := ℕ) (U := UU) (Lvl := ℕ)
    (ℓ := (c : Thread nD τ).loc cc0_scratch0) (q := fullShare) Finset.univ (fun a : Fin 2 × Fin 6 => (slotR a.1 a.2).set) fs (fs (0, 0))
    (fun a _ b _ h => slot_disjoint a b h)
  rw [slot_cover] at e
  iintro H
  ihave H' := e $$ H
  icases H' with ⟨%g, -, Hg⟩
  iexists g
  iexact Hg

omit [FloatOps F] in
/-- Twelve slots at any contents, given that there are contents at all. -/
private theorem slots_join_of (c : Dev nD) (f0 : Buf (Elt F) ((c : Thread nD τ).loc cc0_scratch0)) :
    (bigSep Finset.univ fun a : Fin 2 × Fin 6 => slotAny (F := F) c a.1 a.2)
      ⊢ (iprop(∃ f : Buf (Elt F) ((c : Thread nD τ).loc cc0_scratch0), ((c : Thread nD τ).loc cc0_scratch0) ↦{fullShare} f) : sProp 𝕄) := by
  haveI : ∀ a : Fin 2 × Fin 6, Nonempty (Buf (Elt F) ((slotM a.1 a.2).view.loc (c : Thread nD τ))) := fun _ => ⟨f0⟩
  unfold slotAny
  refine (bigSep_exists_pi Finset.univ (fun (a : Fin 2 × Fin 6) (f : Buf (Elt F) ((slotM a.1 a.2).view.loc (c : Thread nD τ))) => slotPts c a.1 a.2 f)).trans ?_
  iintro ⟨%fs, H⟩
  iapply (slots_join_at c fs)
  iapply (Entails.of_eq (bigSep_congr (s := Finset.univ) fun (a : Fin 2 × Fin 6) _ => slotPts_eq c a.1 a.2 (fs a))) $$ H

omit [FloatOps F] in
theorem slots_join (c : Dev nD) :
    iprop(slotsAny (F := F) c 0 ∗ slotsAny c 1)
      ⊢ (iprop(∃ f : Buf (Elt F) ((c : Thread nD τ).loc cc0_scratch0), ((c : Thread nD τ).loc cc0_scratch0) ↦{fullShare} f) : sProp 𝕄) := by
  unfold slotsAny
  rw [← bigSep_univ_two (fun d : Fin 2 => bigSep Finset.univ fun s : Fin 6 => slotAny (F := F) c d s),
    ← bigSep_univ_prod (fun a : Fin 2 × Fin 6 => slotAny (F := F) c a.1 a.2)]
  iintro H
  -- one slot's contents witness that there are contents at all
  ihave H' := (Entails.of_eq (bigSep_univ_at (fun a : Fin 2 × Fin 6 => slotAny (F := F) c a.1 a.2) (0, 0))) $$ H
  icases H' with ⟨H0, Hr⟩
  unfold slotAny
  icases H0 with ⟨%f0, H0⟩
  iapply (slots_join_of c f0)
  iapply (Entails.of_eq (bigSep_univ_at (fun a : Fin 2 × Fin 6 => slotAny (F := F) c a.1 a.2) (0, 0)).symm)
  isplitl [H0]
  · unfold slotAny; iexists f0; iexact H0
  · unfold slotAny; iexact Hr

/-! ## The body's loads and stores on the pieces -/

section Access

variable {α : Type} {Q : α → sProp (MT nD τ sig Unit (Elt F) ℕ UU ℕ)} (c : Dev nD)

omit [FloatOps F] in
/-- The elements a load through the whole receive buffer at a slot's rectangle reads are the slot's. -/
private theorem slot_setOn (d : Fin 2) (s : Fin 6) : rM.view.setOn (slotR d s).toLoadRect.set = (slotM d s).view.set := by
  rw [slot_set]
  exact Finset.map_refl

/-- The accumulate of one step: the chunk loaded, the slot loaded, the chunk loaded again (the store's own read), and
    the chunk stored at `pay` of the first two, which is the chunk plus the slot. -/
theorem wp_accum (d : Fin 2) (j : Fin 4) (s : Fin 6) (a v : Vec F S128x512 .f32)
    {off₁ off₃ off₄ : Fin 2 → Nat} (h₁ : off₁ = chunkOff d j) (h₃ : off₃ = chunkOff d j) (h₄ : off₄ = chunkOff d j)
    {inb₁ : ∀ x, off₁ x + S128x512.size x ≤ S1024x512.size x} {inb₃ : ∀ x, off₃ x + S128x512.size x ≤ S1024x512.size x}
    {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₁ : oM.view.LoadsAt (Rect.unit (s := S1024x512) off₁ S128x512.size inb₁).toLoadRect}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S128x512 .f32 → Vec F S1x1x128x512 .f32 → FVec F S128x512 .f32)
    (hpay : ∀ x w, pay x w = acc x (shapeCast S128x512 w shapeCasts_S1x1x128x512_S128x512))
    {k : PUnit → Prog (TpuEff nD τ sig (Elt F) Λ₀ .tc) α} :
    iprop(chunkAt c d j a ∗ slotAt c d s v)
      ⊢ iprop(((chunkAt c d j (acc a v) ∗ slotAt c d s v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x512) off₁ S128x512.size inb₁).toLoadRect hl₁) fun x =>
                .op (.load rM (Rect.unit (s := S2x6x128x512) off₂ S1x1x128x512.size inb₂).toLoadRect hl₂) fun w =>
                  .op (.load oM (Rect.unit (s := S1024x512) off₃ S128x512.size inb₃).toLoadRect hl₃) fun _ =>
                    .op (.store oM (Rect.unit (s := S1024x512) off₄ S128x512.size inb₄) (pay x w) Finset.univ hx hm) k) Q) := by
  subst h₁ h₂ h₃ h₄
  unfold chunkAt slotAt chunkPts slotPts
  iintro ⟨⟨%f, %hf, Hc⟩, ⟨%g, %hg, Hs⟩⟩ Hk
  -- the chunk read, then the slot, then the chunk again
  iapply (wp_load_rect 𝒱₀ (c : Thread nD τ) none Set.univ (m := oM) (r := chunkR d j) (S := (chunkM d j).view.set) (q := fullShare) (f := f)
    (Finset.Subset.refl _)) $$ Hc
  iintro Hc
  iapply (wp_load 𝒱₀ (c : Thread nD τ) none Set.univ (m := rM) (r := (slotR d s).toLoadRect) (S := (slotM d s).view.set) (q := fullShare) (f := g)
    (slot_setOn d s).subset) $$ Hs
  iintro Hs
  iapply (wp_load_rect 𝒱₀ (c : Thread nD τ) none Set.univ (m := oM) (r := chunkR d j) (S := (chunkM d j).view.set) (q := fullShare) (f := f)
    (Finset.Subset.refl _)) $$ Hc
  iintro Hc
  -- the store of the sum over the whole chunk
  iapply (wp_store 𝒱₀ (c : Thread nD τ) none Set.univ (m := oM) (r := chunkR d j) (Mk := Finset.univ) (S := (chunkM d j).view.set) (f := f)
    (Finset.Subset.refl _)) $$ Hc
  iintro Hc
  iapply Hk
  isplitl [Hc]
  · iexists ((oM.access (chunkR d j)).write (Elt F) f (pay ((oM.access (chunkR d j)).read (Elt F) f) (rM.view.readAt (Elt F) (slotR d s).toLoadRect g)) Finset.univ)
    isplitr
    · ipureintro
      show (oM.access (chunkR d j)).read (Elt F) ((oM.access (chunkR d j)).write (Elt F) f (pay ((oM.access (chunkR d j)).read (Elt F) f) (rM.view.readAt (Elt F) (slotR d s).toLoadRect g)) Finset.univ) = acc a v
      rw [View.read_write_univ, hpay, ← slot_read d s g, hg]
      exact congrArg (fun x => acc x v) hf
    · iexact Hc
  · iexists g
    isplitr
    · ipureintro; exact hg
    · iexact Hs

/-- The replacement of one step: the slot loaded, the chunk loaded (the store's own read), the chunk stored at `pay` of
    the slot, which is the slot recast. -/
theorem wp_replace (d : Fin 2) (j : Fin 4) (s : Fin 6) (a v : Vec F S128x512 .f32)
    {off₃ off₄ : Fin 2 → Nat} (h₃ : off₃ = chunkOff d j) (h₄ : off₄ = chunkOff d j)
    {inb₃ : ∀ x, off₃ x + S128x512.size x ≤ S1024x512.size x} {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S1x1x128x512 .f32 → FVec F S128x512 .f32)
    (hpay : ∀ w, pay w = shapeCast S128x512 w shapeCasts_S1x1x128x512_S128x512)
    {k : PUnit → Prog (TpuEff nD τ sig (Elt F) Λ₀ .tc) α} :
    iprop(chunkAt c d j a ∗ slotAt c d s v)
      ⊢ iprop(((chunkAt c d j v ∗ slotAt c d s v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load rM (Rect.unit (s := S2x6x128x512) off₂ S1x1x128x512.size inb₂).toLoadRect hl₂) fun w =>
                .op (.load oM (Rect.unit (s := S1024x512) off₃ S128x512.size inb₃).toLoadRect hl₃) fun _ =>
                  .op (.store oM (Rect.unit (s := S1024x512) off₄ S128x512.size inb₄) (pay w) Finset.univ hx hm) k) Q) := by
  subst h₂ h₃ h₄
  unfold chunkAt slotAt chunkPts slotPts
  iintro ⟨⟨%f, %hf, Hc⟩, ⟨%g, %hg, Hs⟩⟩ Hk
  iapply (wp_load 𝒱₀ (c : Thread nD τ) none Set.univ (m := rM) (r := (slotR d s).toLoadRect) (S := (slotM d s).view.set) (q := fullShare) (f := g)
    (slot_setOn d s).subset) $$ Hs
  iintro Hs
  iapply (wp_load_rect 𝒱₀ (c : Thread nD τ) none Set.univ (m := oM) (r := chunkR d j) (S := (chunkM d j).view.set) (q := fullShare) (f := f)
    (Finset.Subset.refl _)) $$ Hc
  iintro Hc
  iapply (wp_store 𝒱₀ (c : Thread nD τ) none Set.univ (m := oM) (r := chunkR d j) (Mk := Finset.univ) (S := (chunkM d j).view.set) (f := f)
    (Finset.Subset.refl _)) $$ Hc
  iintro Hc
  iapply Hk
  isplitl [Hc]
  · iexists ((oM.access (chunkR d j)).write (Elt F) f (pay (rM.view.readAt (Elt F) (slotR d s).toLoadRect g)) Finset.univ)
    isplitr
    · ipureintro
      show (oM.access (chunkR d j)).read (Elt F) ((oM.access (chunkR d j)).write (Elt F) f (pay (rM.view.readAt (Elt F) (slotR d s).toLoadRect g)) Finset.univ) = v
      rw [View.read_write_univ, hpay, ← slot_read d s g, hg]
    · iexact Hc
  · iexists g
    isplitr
    · ipureintro; exact hg
    · iexact Hs

end Access

end Cert.KernelIdealProof

end
-- ==== Proof.Inv.lean ====
/-
  What a device's body starts from and ends with. Every device holds, persistently, the invariant of every cell of
  every device and that each has reached its one round. Linearly it holds its own position on each of its 25 cells,
  the tokens of the duties it pays (a barrier unit to each neighbour; for each of its twelve copies its own send duty
  and the receive duty downstream), and the credit to wait with on the cells other devices pay (its barrier, its
  twelve receive cells). It ends with the receive buffer whole again and its 24 DMA semaphores closed at zero.
-/
import proofs.«900732_g7700000000000733_dist_ar_v7x_xyz2x4x4_z_m1024_n512_f32_1_alg».proof.Proof.Schedule
import proofs.«900732_g7700000000000733_dist_ar_v7x_xyz2x4x4_z_m1024_n512_f32_1_alg».proof.Proof.Pieces

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-! ## The cells of one device, numbered: the barrier, the twelve send cells, the twelve receive cells -/

abbrev csem (k : Fin 25) : SemLoc sig :=
  if k.val = 0 then .reg barS else .dma ⟨k.val + 1, by have h : k.val < 25 := k.isLt; show k.val + 1 < 26; omega⟩
abbrev kcell (ck : Dev nD × Fin 25) : GSem nD τ sig := ((ck.1 : Thread nD τ), csem ck.2)
def sendIx (d : Fin 2) (s : Fin 6) : Fin 25 := ⟨1 + 6 * d.val + s.val, by omega⟩
def recvIx (d : Fin 2) (s : Fin 6) : Fin 25 := ⟨13 + 6 * d.val + s.val, by omega⟩

theorem csem_bar : csem 0 = .reg barS := rfl
theorem csem_send : ∀ (d : Fin 2) (s : Fin 6), csem (sendIx d s) = .dma (sendS d s) := by decide
theorem csem_recv : ∀ (d : Fin 2) (s : Fin 6), csem (recvIx d s) = .dma (recvS d s) := by decide

/-! ## What every device holds persistently -/

/-- Every cell's invariant, under the names the launch allocated them at, and that every cell has reached round 0. -/
def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

instance records_persistent (K : Dev nD × Fin 25 → ℕ) : BI.Persistent (records m K) := by unfold records; infer_instance

theorem inv_bar (K : Dev nD × Fin 25 → ℕ) (c : Dev nD) : records m K ⊢ cellInv ER (ringRd m) (K (c, 0)) (barCell c) := by
  unfold records; exact (Idealize.SL.BI.sep_and.trans Idealize.SL.BI.and_elimL).trans (bigSep_elim (Finset.mem_univ (c, (0 : Fin 25))))
theorem inv_send (K : Dev nD × Fin 25 → ℕ) (d : Fin 2) (s : Fin 6) (c : Dev nD) :
    records m K ⊢ cellInv ER (ringRd m) (K (c, sendIx d s)) (sendCell d s c) := by
  rw [show sendCell d s c = kcell (c, sendIx d s) from (congrArg (Prod.mk (c : Thread nD τ)) (csem_send d s)).symm]
  unfold records; exact (Idealize.SL.BI.sep_and.trans Idealize.SL.BI.and_elimL).trans (bigSep_elim (Finset.mem_univ (c, sendIx d s)))
theorem inv_recv (K : Dev nD × Fin 25 → ℕ) (d : Fin 2) (s : Fin 6) (c : Dev nD) :
    records m K ⊢ cellInv ER (ringRd m) (K (c, recvIx d s)) (recvCell d s c) := by
  rw [show recvCell d s c = kcell (c, recvIx d s) from (congrArg (Prod.mk (c : Thread nD τ)) (csem_recv d s)).symm]
  unfold records; exact (Idealize.SL.BI.sep_and.trans Idealize.SL.BI.and_elimL).trans (bigSep_elim (Finset.mem_univ (c, recvIx d s)))
theorem reached_bar (K : Dev nD × Fin 25 → ℕ) (c : Dev nD) : records m K ⊢ reached ER (barCell c) 0 := by
  unfold records; exact (Idealize.SL.BI.sep_and.trans Idealize.SL.BI.and_elimR).trans (bigSep_elim (Finset.mem_univ (c, (0 : Fin 25))))
theorem reached_send (K : Dev nD × Fin 25 → ℕ) (d : Fin 2) (s : Fin 6) (c : Dev nD) : records m K ⊢ reached ER (sendCell d s c) 0 := by
  rw [show sendCell d s c = kcell (c, sendIx d s) from (congrArg (Prod.mk (c : Thread nD τ)) (csem_send d s)).symm]
  unfold records; exact (Idealize.SL.BI.sep_and.trans Idealize.SL.BI.and_elimR).trans (bigSep_elim (Finset.mem_univ (c, sendIx d s)))
theorem reached_recv (K : Dev nD × Fin 25 → ℕ) (d : Fin 2) (s : Fin 6) (c : Dev nD) : records m K ⊢ reached ER (recvCell d s c) 0 := by
  rw [show recvCell d s c = kcell (c, recvIx d s) from (congrArg (Prod.mk (c : Thread nD τ)) (csem_recv d s)).symm]
  unfold records; exact (Idealize.SL.BI.sep_and.trans Idealize.SL.BI.and_elimR).trans (bigSep_elim (Finset.mem_univ (c, recvIx d s)))

/-! ## What a device holds linearly at the start of its body -/

/-- For the entry handshake: the position on its barrier cell, the two tokens it signals with, the credit to wait for 2. -/
def barRes (c : Dev nD) : sProp 𝕄 :=
  iprop(atPos ER (barCell c) 0 ∅ 0 ∗ dutyTok ER (barCell (lft c)) 0 0 ∗ dutyTok ER (barCell (rgt c)) 0 1 ∗ cred (tallyAt (barCell c) () 2))
/-- For the copy of (direction, step): the positions on its send and receive cells, the tokens of its own send duty and
    of the receive duty downstream, the credit to wait on its receive cell. -/
def xferRes (c : Dev nD) (d : Fin 2) (s : Fin 6) : sProp 𝕄 :=
  iprop(atPos ER (sendCell d s c) 0 ∅ 0 ∗ atPos ER (recvCell d s c) 0 ∅ 0 ∗ dutyTok ER (sendCell d s c) 0 0
    ∗ dutyTok ER (recvCell d s (dn d c)) 0 0 ∗ cred (tallyAt (recvCell d s c) () Ncr))

def ghost (K : Dev nD × Fin 25 → ℕ) (c : Dev nD) : sProp 𝕄 :=
  iprop(records m K ∗ barRes c ∗ bigSep Finset.univ fun ds : Fin 2 × Fin 6 => xferRes c ds.1 ds.2)

def start (c : Dev nD) : sProp 𝕄 := iprop((∃ K, ghost m K c) ∗ levAts L lv)

/-- Before the point: the ghost state and the receive buffer at any contents. -/
def Φ₀ (c : Dev nD) : sProp 𝕄 :=
  iprop(start m c ∗ ∃ f : Buf (Elt F) ((c : Thread nD τ).loc cc0_scratch0), ((c : Thread nD τ).loc cc0_scratch0) ↦{fullShare} f)
/-- The 24 DMA semaphores of the device, closed at zero. -/
def closedSems (c : Dev nD) : sProp 𝕄 :=
  bigSep Finset.univ fun ds : Fin 2 × Fin 6 => iprop(semVal (sendCell ds.1 ds.2 c) 0 ∗ semVal (recvCell ds.1 ds.2 c) 0)
/-- After the point: the receive buffer whole at some contents, the DMA semaphores closed. -/
def Φ₁ (c : Dev nD) : sProp 𝕄 :=
  iprop((∃ f : Buf (Elt F) ((c : Thread nD τ).loc cc0_scratch0), ((c : Thread nD τ).loc cc0_scratch0) ↦{fullShare} f) ∗ closedSems c)

/-! ## The pipeline's proof data -/

/-- The result block when the body ends: chunk `(d, j)` is `st m d 6 c j`. -/
def outAt (c : Dev nD) : (cc0_stg1_0 : Ref sig .tc).ty.Contents (Elt F) := assemble fun d j => st m d 6 c j

theorem chunkV_outAt (c : Dev nD) (d : Fin 2) (j : Fin 4) : chunkV (outAt m c) d j = st m d 6 c j := chunkV_assemble _ d j

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with, the names of the cells' invariants fixed. -/
def bodyPre (K : Dev nD × Fin 25 → ℕ) (c : Dev nD) : sProp 𝕄 :=
  iprop((ghost m K c ∗ levAts L lv ∗ ∃ f : Buf (Elt F) ((c : Thread nD τ).loc cc0_scratch0), ((c : Thread nD τ).loc cc0_scratch0) ↦{fullShare} f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m c) ∗ stg c cc0_stg1_0 (outAt m c))

end Cert.KernelIdealProof

end
-- ==== Proof.Steps.lean ====
/-
  The kernel's statements as rules over the ring's schedule, for any direction `d` and step `s`: the entry handshake
  (a unit to each neighbour with the slots it will write, the wait for both neighbours' units and their slots); the copy
  of a step (the chunk this step sends leaves its half for the send cell, the slot downstream for the receive cell
  there); and the step's completion (the source chunk back, the upstream neighbour's chunk landed, both cells closed,
  and the chunk this step receives into rewritten: summed with what landed, or replaced by it), stated on the half
  as the values' recursion `st` describes it.
-/
import proofs.«900732_g7700000000000733_dist_ar_v7x_xyz2x4x4_z_m1024_n512_f32_1_alg».proof.Proof.Inv

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Mem F)

section Steps

variable {α : Type} {Q : α → sProp (MT nD τ sig Unit (Elt F) ℕ UU ℕ)} (K : Dev nD × Fin 25 → ℕ) (c : Dev nD)

/-- What is left of a copy's resources between its enqueue and its completion: the two positions, the credit on its
    receive cell (from launch) and on its send cell (from the enqueue). -/
def xferMid (c : Dev nD) (d : Fin 2) (s : Fin 6) : sProp 𝕄 :=
  iprop(atPos ER (sendCell d s c) 0 ∅ 0 ∗ atPos ER (recvCell d s c) 0 ∅ 0 ∗ cred (tallyAt (recvCell d s c) () Ncr)
    ∗ cred (tallyAt (sendCell d s c) () Ncr))

/-- Direction 0 goes up the ring, direction 1 down it. -/
theorem dn_zero (c : Dev nD) : dn 0 c = rgt c := rfl
theorem dn_one (c : Dev nD) : dn 1 c = lft c := rfl

/-- The entry handshake: a unit to the neighbour below with this device's direction-0 slots, a unit to the neighbour
    above with its direction-1 slots, and the wait for both neighbours' units, which bring the slots this device writes. -/
theorem wp_entry (n₁ n₂ : Dev nD) (hn₁ : n₁ = lft c) (hn₂ : n₂ = rgt c) {k₁ k₂ kw : ℕ} (hk₁ : 1 = k₁) (hk₂ : 1 = k₂) (hkw : 2 = kw)
    {k : PUnit → Prog (TpuEff nD τ sig (Elt F) Λ₀ .tc) α} {W : Waits sig Unit} :
    iprop(records m K ∗ levAts L lv ∗ barRes c ∗ slotsAny c 0 ∗ slotsAny c 1 ∗ owes (c : Thread nD τ) (O₀ c) W)
      ⊢ iprop(((owes (c : Thread nD τ) (owedFrom c 12) (insert (SemLoc.reg barS, ()) W) ∗ slotsAny (rgt c) 0 ∗ slotsAny (lft c) 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n₁ : Dev nD) : Thread nD τ) barS k₁) fun _ =>
                .op (.semSignal ((n₂ : Dev nD) : Thread nD τ) barS k₂) fun _ =>
                  .op (.semWait barS kw) k) Q) := by
  subst hn₁ hn₂ hk₁ hk₂ hkw
  unfold barRes
  iintro ⟨#Hrec, #Hlev, ⟨HatB, HtL, HtR, HcB⟩, Hs0, Hs1, HO⟩ Hk
  ihave #HIB := (inv_bar m K c) $$ Hrec
  ihave #HIL := (inv_bar m K (lft c)) $$ Hrec
  ihave #HIR := (inv_bar m K (rgt c)) $$ Hrec
  ihave #HrL := (reached_bar m K (lft c)) $$ Hrec
  ihave #HrR := (reached_bar m K (rgt c)) $$ Hrec
  -- the unit to the neighbour below: duty 0 of its barrier cell, paid with this device's direction-0 slots
  iapply (Rounds.wp_signal 𝒱₀ ER (ringRd m) (c : Thread nD τ) none (dst := ((lft c : Dev nD) : Thread nD τ)) (κ := K (lft c, 0))
      (r := 0) (d := (0 : Fin 2)) (by rw [duties_bar]; exact Finset.mem_univ _) (amount_bar m (lft c) 0) () (O₁ c) rfl)
    $$ [HO HtL Hs0]
  · isplitr; · iexact HIL
    isplitl [HO]; · iexact HO
    isplitl [HtL]; · iexact HtL
    isplitl [Hs0]
    · rw [payload_bar, dn_zero, rgt_lft]; iexact Hs0
    · iexact HrL
  iintro HO
  -- the unit to the neighbour above: duty 1 of its barrier cell, paid with this device's direction-1 slots
  iapply (Rounds.wp_signal 𝒱₀ ER (ringRd m) (c : Thread nD τ) none (dst := ((rgt c : Dev nD) : Thread nD τ)) (κ := K (rgt c, 0))
      (r := 0) (d := (1 : Fin 2)) (by rw [duties_bar]; exact Finset.mem_univ _) (amount_bar m (rgt c) 1) () (owedFrom c 12) rfl)
    $$ [HO HtR Hs1]
  · isplitr; · iexact HIR
    isplitl [HO]; · iexact HO
    isplitl [HtR]; · iexact HtR
    isplitl [Hs1]
    · rw [payload_bar, dn_one, lft_rgt]; iexact Hs1
    · iexact HrR
  iintro HO
  -- the wait for both neighbours' units, owing the twelve copies: their slots come with the units
  iapply (Rounds.wp_wait_rest_token 𝒱₀ ER (ringRd m) (c : Thread nD τ) none (κ := K (c, 0))
      (wpE_semWait_eq 𝒱₀ (c : Thread nD τ) none Set.univ) (Set.mem_univ _) () (O := owedFrom c 12) (W := W) (R := 0) (m := 0) (T := ∅)
      (by rw [expect_bar])) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [dn_zero, dn_one]
  icases Hp with ⟨Hr0, Hl1⟩
  iapply Hk
  isplitl [HO]; · iexact HO
  isplitl [Hr0]; · iexact Hr0
  iexact Hl1

/-- The copy of (direction `d`, step `s`), the `(12 − (rem + 1))`-th of the device's twelve: the chunk it sends leaves the
    half, the slot downstream is handed over. -/
theorem wp_send_step (d : Fin 2) (s : Fin 6) (n : Dev nD) (hn : n = dn d c) (rem : ℕ) (hd : dOf (12 - (rem + 1)) = d) (hs : sOf (12 - (rem + 1)) = s)
    {off : Fin 2 → Nat} (hoff : off = chunkOff d (sidx d s.val c)) {inb : ∀ x, off x + S128x512.size x ≤ S1024x512.size x}
    {offd : Fin 4 → Nat} (hoffd : offd = slotOff d s) {inbd : ∀ x, offd x + S1x1x128x512.size x ≤ S2x6x128x512.size x}
    {qs qr : DmaSem sig} (hqs : qs = sendS d s) (hqr : qr = recvS d s)
    {hsl : ∀ a, (Rect.unit (s := S1024x512) off S128x512.size inb).stride a = 1}
    {hsld : ∀ a, (Rect.unit (s := S2x6x128x512) offd S1x1x128x512.size inbd).stride a = 1}
    {hsc : (((rM.slice (Rect.unit (s := S2x6x128x512) offd S1x1x128x512.size inbd) hsld).squeeze S128x512 squeezes_S1x1x128x512_S128x512 :
        Memref sig (Dev.tc n : Thread nD τ).2.kind .vmem S128x512 .f32)).view.ref.isScScratch = false}
    {hsrc : (oM.slice (Rect.unit (s := S1024x512) off S128x512.size inb) hsl).view.WordExact}
    {hdst : ((rM.slice (Rect.unit (s := S2x6x128x512) offd S1x1x128x512.size inbd) hsld).squeeze S128x512 squeezes_S1x1x128x512_S128x512).view.WordExact}
    {hsem : DmaTarget.Typed .vmem (.dma qr) (.remote (Dev.tc n : Thread nD τ)
        ((rM.slice (Rect.unit (s := S2x6x128x512) offd S1x1x128x512.size inbd) hsld).squeeze S128x512 squeezes_S1x1x128x512_S128x512) (.dma qs) hsc)}
    {k : PUnit → Prog (TpuEff nD τ sig (Elt F) Λ₀ .tc) α} {W : Waits sig Unit} :
    iprop(records m K ∗ chunks c d (st m d s.val c) ∗ slotAny (dn d c) d s ∗ owes (c : Thread nD τ) (owedFrom c (rem + 1)) W ∗ xferRes c d s)
      ⊢ iprop(((chunksBut c d (st m d s.val c) (sidx d s.val c) ∗ owes (c : Thread nD τ) (owedFrom c rem) W ∗ xferMid c d s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S1024x512) off S128x512.size inb) hsl)
                (.remote (Dev.tc n : Thread nD τ)
                  ((rM.slice (Rect.unit (s := S2x6x128x512) offd S1x1x128x512.size inbd) hsld).squeeze S128x512 squeezes_S1x1x128x512_S128x512)
                  (.dma qs) hsc) (.dma qr) hsrc hdst hsem) k) Q) := by
  subst hn hoff hoffd hqs hqr
  unfold xferRes xferMid
  iintro ⟨#Hrec, Hch, Hslot, HO, ⟨HatS, HatR, HtS, HtR, HcR⟩⟩ Hk
  ihave #HIS := (inv_send m K d s c) $$ Hrec
  ihave #HIR := (inv_recv m K d s (dn d c)) $$ Hrec
  ihave #HrS := (reached_send m K d s c) $$ Hrec
  ihave #HrR := (reached_recv m K d s (dn d c)) $$ Hrec
  -- the chunk this step sends leaves the half
  ihave Hch := (chunks_take c d (st m d s.val c) (sidx d s.val c)) $$ Hch
  icases Hch with ⟨Hc, Hbut⟩
  unfold chunkAt slotAny
  icases Hc with ⟨%fs, %hfs, Hc⟩
  icases Hslot with ⟨%fd, Hslot⟩
  unfold chunkPts slotPts
  have hO : owedFrom c (rem + 1) = owedFrom c rem + tallyAt (recvCell d s (dn d c)) () Ncr := by
    rw [owedFrom_succ]; unfold copyOwes; rw [hd, hs]
  iapply (Rounds.wp_send_pointsTo 𝒱₀ ER (ringRd m) (c : Thread nD τ) none (c' := ((dn d c : Dev nD) : Thread nD τ))
      (κ₁ := K (c, sendIx d s)) (κ₂ := K (dn d c, recvIx d s)) (r₁ := 0) (r₂ := 0) (d₁ := (0 : Fin 2)) (d₂ := (0 : Fin 2))
      (q := fullShare) (fs := fs) (fd := fd)
      (by rw [duties_send]; exact Finset.mem_singleton_self _) (by rw [duties_recv]; exact Finset.mem_singleton_self _)
      () () Ncr rfl (amount_send m c d s 0) (amount_recv m (dn d c) d s 0) (owedFrom c rem) hO (W := W)
      (by
        rw [payload_send]; unfold chunkAt chunkPts
        iintro H
        iexists fs
        isplitr; · ipureintro; exact hfs
        iexact H)
      (by
        rw [payload_recv, up_dn]; unfold slotAt slotPts
        iintro H
        iexists ((slotM d s).view.write (Elt F) fd ((chunkM d (sidx d s.val c)).view.read (Elt F) fs) Finset.univ)
        isplitr
        · ipureintro; rw [View.read_write_univ]; exact hfs
        iexact H))
    $$ [Hc Hslot HO HtS HtR]
  · isplitr; · iexact HIS
    isplitr; · iexact HIR
    isplitl [Hc]; · iexact Hc
    isplitl [Hslot]; · iexact Hslot
    isplitl [HO]; · iexact HO
    isplitl [HtS]; · iexact HtS
    isplitr; · iexact HrS
    isplitl [HtR]; · iexact HtR
    iexact HrR
  iintro ⟨HcS, HO⟩
  iapply Hk
  isplitl [Hbut]; · iexact Hbut
  isplitl [HO]; · iexact HO
  isplitl [HatS]; · iexact HatS
  isplitl [HatR]; · iexact HatR
  isplitl [HcR]; · iexact HcR
  iexact HcS

/-- The completion of (direction `d`, step `s`) for `s < 3`: the wait on the send cell (the chunk sent comes back), the wait
    on the receive cell (what upstream sent has landed), both cells closed, and the accumulate into chunk `sidx d (s + 1) c`. -/
theorem wp_finish_acc (d : Fin 2) (s : Fin 6) (hs3 : s.val < 3) (rem : ℕ) (hrem : rem + 2 * (s.val + 1) ≤ 12)
    {q₁ q₂ : DmaSem sig} (hq₁ : q₁ = sendS d s) (hq₂ : q₂ = recvS d s)
    {sp₁ sp₂ : Space} {s₁ s₂ : Shape} {e₁ e₂ : EltTy} {src₁ : Memref sig .tc sp₁ s₁ e₁} {src₂ : Memref sig .tc sp₂ s₂ e₂}
    {κ₁ κ₂ : Idealize.ShloMosaic.Kind} {dst₁ : Memref sig κ₁ .vmem S128x512 .f32} {dst₂ : Memref sig κ₂ .vmem S128x512 .f32}
    (hc₁ : dst₁.view.dmaCredit = Ncr) (hc₂ : dst₂.view.dmaCredit = Ncr)
    {hsrc₁ : src₁.view.WordExact} {hdst₁ : dst₁.view.WordExact} {hsrc₂ : src₂.view.WordExact} {hdst₂ : dst₂.view.WordExact}
    {off₁ off₃ off₄ : Fin 2 → Nat} (h₁ : off₁ = chunkOff d (sidx d (s.val + 1) c)) (h₃ : off₃ = chunkOff d (sidx d (s.val + 1) c))
    (h₄ : off₄ = chunkOff d (sidx d (s.val + 1) c))
    {inb₁ : ∀ x, off₁ x + S128x512.size x ≤ S1024x512.size x} {inb₃ : ∀ x, off₃ x + S128x512.size x ≤ S1024x512.size x}
    {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₁ : oM.view.LoadsAt (Rect.unit (s := S1024x512) off₁ S128x512.size inb₁).toLoadRect}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S128x512 .f32 → Vec F S1x1x128x512 .f32 → FVec F S128x512 .f32)
    (hpay : ∀ x w, pay x w = acc x (shapeCast S128x512 w shapeCasts_S1x1x128x512_S128x512))
    {k : PUnit → Prog (TpuEff nD τ sig (Elt F) Λ₀ .tc) α} {W : Waits sig Unit} :
    iprop(records m K ∗ levAts L lv ∗ chunksBut c d (st m d s.val c) (sidx d s.val c) ∗ owes (c : Thread nD τ) (owedFrom c rem) W ∗ xferMid c d s)
      ⊢ iprop(((chunks c d (st m d (s.val + 1) c) ∗ slotAt c d s (snt m d s.val (up d c))
              ∗ owes (c : Thread nD τ) (owedFrom c rem) (insert (SemLoc.dma (recvS d s), ()) (insert (SemLoc.dma (sendS d s), ()) W))
              ∗ semVal (sendCell d s c) 0 ∗ semVal (recvCell d s c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q₁ src₁ dst₁ hsrc₁ hdst₁) fun _ =>
                .op (.waitDma2 q₂ src₂ dst₂ hsrc₂ hdst₂) fun _ =>
                  .op (.load oM (Rect.unit (s := S1024x512) off₁ S128x512.size inb₁).toLoadRect hl₁) fun x =>
                    .op (.load rM (Rect.unit (s := S2x6x128x512) off₂ S1x1x128x512.size inb₂).toLoadRect hl₂) fun w =>
                      .op (.load oM (Rect.unit (s := S1024x512) off₃ S128x512.size inb₃).toLoadRect hl₃) fun _ =>
                        .op (.store oM (Rect.unit (s := S1024x512) off₄ S128x512.size inb₄) (pay x w) Finset.univ hx hm) k) Q) := by
  subst hq₁ hq₂
  rw [st_succ, if_pos hs3]
  unfold xferMid
  iintro ⟨#Hrec, #Hlev, Hbut, HO, ⟨HatS, HatR, HcR, HcS⟩⟩ Hk
  ihave #HIS := (inv_send m K d s c) $$ Hrec
  ihave #HIR := (inv_recv m K d s c) $$ Hrec
  have hw₁ : ∀ Kk : PUnit → sProp 𝕄, wpE (defs₀ (F := F)) 𝒱₀ (c : Thread nD τ) none Set.univ (.waitDma2 (sendS d s) src₁ dst₁ hsrc₁ hdst₁) Kk
      = waitSpec (c : Thread nD τ) Set.univ (.dma (sendS d s)) Ncr Kk := fun Kk => by
    have h := wpE_waitDma2_eq (defs := defs₀ (F := F)) 𝒱₀ (c : Thread nD τ) none Set.univ (sem := sendS d s) (src := src₁) (dst := dst₁)
      (hsrc := hsrc₁) (hdst := hdst₁) Kk
    rw [hc₁] at h; exact h
  have hw₂ : ∀ Kk : PUnit → sProp 𝕄, wpE (defs₀ (F := F)) 𝒱₀ (c : Thread nD τ) none Set.univ (.waitDma2 (recvS d s) src₂ dst₂ hsrc₂ hdst₂) Kk
      = waitSpec (c : Thread nD τ) Set.univ (.dma (recvS d s)) Ncr Kk := fun Kk => by
    have h := wpE_waitDma2_eq (defs := defs₀ (F := F)) 𝒱₀ (c : Thread nD τ) none Set.univ (sem := recvS d s) (src := src₂) (dst := dst₂)
      (hsrc := hsrc₂) (hdst := hdst₂) Kk
    rw [hc₂] at h; exact h
  have hlow : ∀ d' s', xferOf (sendS d s) ≠ some (true, d', s') := fun d' s' h => by
    rw [xferOf_send] at h; exact Bool.noConfusion (Prod.mk.inj (Option.some.inj h)).1
  have hself : Function.update (st m d s.val c) (sidx d s.val c) (snt m d s.val c) = st m d s.val c := Function.update_eq_self _ _
  -- the wait on the send cell: the chunk sent comes back
  iapply (Rounds.wp_wait_rest_token 𝒱₀ ER (ringRd m) (c : Thread nD τ) none (κ := K (c, sendIx d s))
      hw₁ (Set.mem_univ _) () (O := owedFrom c rem) (W := W) (R := 0) (m := 0) (T := ∅)
      (by rw [Nat.zero_add, expect_send])) $$ [HcS HO HatS]
  · isplitr; · iexact HIS
    isplitl [HcS]; · iexact HcS
    isplitl [HO]; · iexact HO
    isplitr
    · iapply (mayWait_low c (sendS d s) hlow (owedFrom c rem) (Or.inr ⟨rem, by omega, rfl⟩)); iexact Hlev
    iexact HatS
  iintro ⟨HO, HatS, -, Hpay⟩
  ihave Hc := (Entails.of_eq (rest_send m c d s)) $$ Hpay
  imod (Rounds.cell_close ER (ringRd m) (Set.mem_univ (K (c, sendIx d s))) (fun h => h) (R := 0 + 1) (duties_later m (sendCell d s c))) $$ [HatS] with HzS
  · isplitr; · iexact HIS
    iexact HatS
  ihave Hch := (chunks_put c d (st m d s.val c) (sidx d s.val c) (snt m d s.val c)) $$ [Hc Hbut]
  · isplitl [Hc]; · iexact Hc
    iexact Hbut
  rw [hself]
  -- the wait on the receive cell, owing only later steps' copies: what upstream sent has landed
  iapply (Rounds.wp_wait_rest_token 𝒱₀ ER (ringRd m) (c : Thread nD τ) none (κ := K (c, recvIx d s))
      hw₂ (Set.mem_univ _) () (O := owedFrom c rem) (W := insert (SemLoc.dma (sendS d s), ()) W) (R := 0) (m := 0) (T := ∅)
      (by rw [Nat.zero_add, expect_recv])) $$ [HcR HO HatR]
  · isplitr; · iexact HIR
    isplitl [HcR]; · iexact HcR
    isplitl [HO]; · iexact HO
    isplitr
    · iapply (mayWait_recv c d s rem hrem); iexact Hlev
    iexact HatR
  iintro ⟨HO, HatR, -, Hpay⟩
  ihave Hsl := (Entails.of_eq (rest_recv m c d s)) $$ Hpay
  imod (Rounds.cell_close ER (ringRd m) (Set.mem_univ (K (c, recvIx d s))) (fun h => h) (R := 0 + 1) (duties_later m (recvCell d s c))) $$ [HatR] with HzR
  · isplitr; · iexact HIR
    iexact HatR
  -- the chunk this step receives into, summed with what landed
  ihave Hch' := (chunks_take c d (st m d s.val c) (sidx d (s.val + 1) c)) $$ Hch
  icases Hch' with ⟨Hc', Hbut'⟩
  iapply (wp_accum c d (sidx d (s.val + 1) c) s (st m d s.val c (sidx d (s.val + 1) c)) (snt m d s.val (up d c)) h₁ h₃ h₄ h₂ pay hpay) $$ [Hc' Hsl]
  · isplitl [Hc']; · iexact Hc'
    iexact Hsl
  iintro ⟨Hc', Hsl⟩
  ihave Hnew := (chunks_put c d (st m d s.val c) (sidx d (s.val + 1) c) (acc (st m d s.val c (sidx d (s.val + 1) c)) (snt m d s.val (up d c)))) $$ [Hc' Hbut']
  · isplitl [Hc']; · iexact Hc'
    iexact Hbut'
  iapply Hk
  isplitl [Hnew]; · iexact Hnew
  isplitl [Hsl]; · iexact Hsl
  isplitl [HO]; · iexact HO
  isplitl [HzS]; · iexact HzS
  iexact HzR

/-- The completion of (direction `d`, step `s`) for `3 ≤ s`: as above, the chunk received into replaced by what landed. -/
theorem wp_finish_rep (d : Fin 2) (s : Fin 6) (hs3 : 3 ≤ s.val) (rem : ℕ) (hrem : rem + 2 * (s.val + 1) ≤ 12)
    {q₁ q₂ : DmaSem sig} (hq₁ : q₁ = sendS d s) (hq₂ : q₂ = recvS d s)
    {sp₁ sp₂ : Space} {s₁ s₂ : Shape} {e₁ e₂ : EltTy} {src₁ : Memref sig .tc sp₁ s₁ e₁} {src₂ : Memref sig .tc sp₂ s₂ e₂}
    {κ₁ κ₂ : Idealize.ShloMosaic.Kind} {dst₁ : Memref sig κ₁ .vmem S128x512 .f32} {dst₂ : Memref sig κ₂ .vmem S128x512 .f32}
    (hc₁ : dst₁.view.dmaCredit = Ncr) (hc₂ : dst₂.view.dmaCredit = Ncr)
    {hsrc₁ : src₁.view.WordExact} {hdst₁ : dst₁.view.WordExact} {hsrc₂ : src₂.view.WordExact} {hdst₂ : dst₂.view.WordExact}
    {off₃ off₄ : Fin 2 → Nat} (h₃ : off₃ = chunkOff d (sidx d (s.val + 1) c)) (h₄ : off₄ = chunkOff d (sidx d (s.val + 1) c))
    {inb₃ : ∀ x, off₃ x + S128x512.size x ≤ S1024x512.size x} {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S1x1x128x512 .f32 → FVec F S128x512 .f32)
    (hpay : ∀ w, pay w = shapeCast S128x512 w shapeCasts_S1x1x128x512_S128x512)
    {k : PUnit → Prog (TpuEff nD τ sig (Elt F) Λ₀ .tc) α} {W : Waits sig Unit} :
    iprop(records m K ∗ levAts L lv ∗ chunksBut c d (st m d s.val c) (sidx d s.val c) ∗ owes (c : Thread nD τ) (owedFrom c rem) W ∗ xferMid c d s)
      ⊢ iprop(((chunks c d (st m d (s.val + 1) c) ∗ slotAt c d s (snt m d s.val (up d c))
              ∗ owes (c : Thread nD τ) (owedFrom c rem) (insert (SemLoc.dma (recvS d s), ()) (insert (SemLoc.dma (sendS d s), ()) W))
              ∗ semVal (sendCell d s c) 0 ∗ semVal (recvCell d s c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q₁ src₁ dst₁ hsrc₁ hdst₁) fun _ =>
                .op (.waitDma2 q₂ src₂ dst₂ hsrc₂ hdst₂) fun _ =>
                  .op (.load rM (Rect.unit (s := S2x6x128x512) off₂ S1x1x128x512.size inb₂).toLoadRect hl₂) fun w =>
                    .op (.load oM (Rect.unit (s := S1024x512) off₃ S128x512.size inb₃).toLoadRect hl₃) fun _ =>
                      .op (.store oM (Rect.unit (s := S1024x512) off₄ S128x512.size inb₄) (pay w) Finset.univ hx hm) k) Q) := by
  subst hq₁ hq₂
  rw [st_succ, if_neg (not_lt.mpr hs3)]
  unfold xferMid
  iintro ⟨#Hrec, #Hlev, Hbut, HO, ⟨HatS, HatR, HcR, HcS⟩⟩ Hk
  ihave #HIS := (inv_send m K d s c) $$ Hrec
  ihave #HIR := (inv_recv m K d s c) $$ Hrec
  have hw₁ : ∀ Kk : PUnit → sProp 𝕄, wpE (defs₀ (F := F)) 𝒱₀ (c : Thread nD τ) none Set.univ (.waitDma2 (sendS d s) src₁ dst₁ hsrc₁ hdst₁) Kk
      = waitSpec (c : Thread nD τ) Set.univ (.dma (sendS d s)) Ncr Kk := fun Kk => by
    have h := wpE_waitDma2_eq (defs := defs₀ (F := F)) 𝒱₀ (c : Thread nD τ) none Set.univ (sem := sendS d s) (src := src₁) (dst := dst₁)
      (hsrc := hsrc₁) (hdst := hdst₁) Kk
    rw [hc₁] at h; exact h
  have hw₂ : ∀ Kk : PUnit → sProp 𝕄, wpE (defs₀ (F := F)) 𝒱₀ (c : Thread nD τ) none Set.univ (.waitDma2 (recvS d s) src₂ dst₂ hsrc₂ hdst₂) Kk
      = waitSpec (c : Thread nD τ) Set.univ (.dma (recvS d s)) Ncr Kk := fun Kk => by
    have h := wpE_waitDma2_eq (defs := defs₀ (F := F)) 𝒱₀ (c : Thread nD τ) none Set.univ (sem := recvS d s) (src := src₂) (dst := dst₂)
      (hsrc := hsrc₂) (hdst := hdst₂) Kk
    rw [hc₂] at h; exact h
  have hlow : ∀ d' s', xferOf (sendS d s) ≠ some (true, d', s') := fun d' s' h => by
    rw [xferOf_send] at h; exact Bool.noConfusion (Prod.mk.inj (Option.some.inj h)).1
  have hself : Function.update (st m d s.val c) (sidx d s.val c) (snt m d s.val c) = st m d s.val c := Function.update_eq_self _ _
  -- the wait on the send cell: the chunk sent comes back
  iapply (Rounds.wp_wait_rest_token 𝒱₀ ER (ringRd m) (c : Thread nD τ) none (κ := K (c, sendIx d s))
      hw₁ (Set.mem_univ _) () (O := owedFrom c rem) (W := W) (R := 0) (m := 0) (T := ∅)
      (by rw [Nat.zero_add, expect_send])) $$ [HcS HO HatS]
  · isplitr; · iexact HIS
    isplitl [HcS]; · iexact HcS
    isplitl [HO]; · iexact HO
    isplitr
    · iapply (mayWait_low c (sendS d s) hlow (owedFrom c rem) (Or.inr ⟨rem, by omega, rfl⟩)); iexact Hlev
    iexact HatS
  iintro ⟨HO, HatS, -, Hpay⟩
  ihave Hc := (Entails.of_eq (rest_send m c d s)) $$ Hpay
  imod (Rounds.cell_close ER (ringRd m) (Set.mem_univ (K (c, sendIx d s))) (fun h => h) (R := 0 + 1) (duties_later m (sendCell d s c))) $$ [HatS] with HzS
  · isplitr; · iexact HIS
    iexact HatS
  ihave Hch := (chunks_put c d (st m d s.val c) (sidx d s.val c) (snt m d s.val c)) $$ [Hc Hbut]
  · isplitl [Hc]; · iexact Hc
    iexact Hbut
  rw [hself]
  -- the wait on the receive cell, owing only later steps' copies: what upstream sent has landed
  iapply (Rounds.wp_wait_rest_token 𝒱₀ ER (ringRd m) (c : Thread nD τ) none (κ := K (c, recvIx d s))
      hw₂ (Set.mem_univ _) () (O := owedFrom c rem) (W := insert (SemLoc.dma (sendS d s), ()) W) (R := 0) (m := 0) (T := ∅)
      (by rw [Nat.zero_add, expect_recv])) $$ [HcR HO HatR]
  · isplitr; · iexact HIR
    isplitl [HcR]; · iexact HcR
    isplitl [HO]; · iexact HO
    isplitr
    · iapply (mayWait_recv c d s rem hrem); iexact Hlev
    iexact HatR
  iintro ⟨HO, HatR, -, Hpay⟩
  ihave Hsl := (Entails.of_eq (rest_recv m c d s)) $$ Hpay
  imod (Rounds.cell_close ER (ringRd m) (Set.mem_univ (K (c, recvIx d s))) (fun h => h) (R := 0 + 1) (duties_later m (recvCell d s c))) $$ [HatR] with HzR
  · isplitr; · iexact HIR
    iexact HatR
  -- the chunk this step receives into, replaced by what landed
  ihave Hch' := (chunks_take c d (st m d s.val c) (sidx d (s.val + 1) c)) $$ Hch
  icases Hch' with ⟨Hc', Hbut'⟩
  iapply (wp_replace c d (sidx d (s.val + 1) c) s (st m d s.val c (sidx d (s.val + 1) c)) (snt m d s.val (up d c)) h₃ h₄ h₂ pay hpay) $$ [Hc' Hsl]
  · isplitl [Hc']; · iexact Hc'
    iexact Hsl
  iintro ⟨Hc', Hsl⟩
  ihave Hnew := (chunks_put c d (st m d s.val c) (sidx d (s.val + 1) c) (snt m d s.val (up d c))) $$ [Hc' Hbut']
  · isplitl [Hc']; · iexact Hc'
    iexact Hbut'
  iapply Hk
  isplitl [Hnew]; · iexact Hnew
  isplitl [Hsl]; · iexact Hsl
  isplitl [HO]; · iexact HO
  isplitl [HzS]; · iexact HzS
  iexact HzR

end Steps

end Cert.KernelIdealProof

end
-- ==== Proof.Body.lean ====
/-
  One device's body, from what the launch hands it to what the point leaves: the entry handshake; the input block copied
  into the result block; then six steps, each of which starts the two copies (one chunk up the ring, one down) and
  completes them in turn — the chunk sent comes back, the neighbour's chunk lands, and the chunk received into is
  summed with it (steps 0–2) or replaced by it (steps 3–5). The halves are carried as the values' recursion describes
  them, so that after step 5 the result block's chunk (d, j) is `st m d 6 c j`.
-/
import proofs.«900732_g7700000000000733_dist_ar_v7x_xyz2x4x4_z_m1024_n512_f32_1_alg».proof.Proof.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev r0 : Rect S1024x512 := Rect.unit (s := S1024x512) ![0, 0] S1024x512.size inb_S1024x512_S1024x512_0_0

omit [FloatOps F] in
theorem hz : (![0, 0] : Fin 2 → Nat) = fun _ => 0 := funext fun a => by fin_cases a <;> rfl
omit [FloatOps F] in
/-- The input block read whole is its contents; the result block written whole is what was written. -/
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1024x512 .f32).access r0 : View sig .tc _ _ _).write (Elt F) f w Finset.univ = w :=
  Memref.write_access_unit_zero_univ (Elt F) cc0_stg1_0 hz _ f w

omit [FloatOps F] in
/-- The twelve (direction, step) pairs one by one. -/
theorem bigSep_pairs (Φ : Fin 2 × Fin 6 → sProp 𝕄) :
    bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5)) := by
  rw [bigSep_univ_eq_bigSepL [((0 : Fin 2), (0 : Fin 6)), ((0 : Fin 2), (1 : Fin 6)), ((0 : Fin 2), (2 : Fin 6)), ((0 : Fin 2), (3 : Fin 6)), ((0 : Fin 2), (4 : Fin 6)), ((0 : Fin 2), (5 : Fin 6)), ((1 : Fin 2), (0 : Fin 6)), ((1 : Fin 2), (1 : Fin 6)), ((1 : Fin 2), (2 : Fin 6)), ((1 : Fin 2), (3 : Fin 6)), ((1 : Fin 2), (4 : Fin 6)), ((1 : Fin 2), (5 : Fin 6))] (by decide) (by decide)]
  simp only [bigSepL_cons_cons, bigSepL_singleton]
  rfl

/-- Owing nothing, whatever waits are on record, is what the point must end with. -/
theorem owesAt_last (c : Dev nD) (W' : Waits sig Unit) :
    (owes (c : Thread nD τ) (owedFrom c 0) W' : sProp 𝕄) ⊢ (dats m ρ 0 c).owesAt () t0_0.succ := by
  unfold Dat.owesAt Pipeline.owesWithin
  rw [show (dats m ρ 0 c).owed t0_0.succ = 0 from rfl]
  iintro H
  iexists W'
  isplitr; · ipureintro; exact fun _ _ => Or.inl trivial
  iexact H

/-- The halves as the block's first store leaves them are the recursion's start. -/
theorem chunkV_out0 (c : Dev nD) (d : Fin 2) : chunkV (out0 m c) d = st m d 0 c := rfl

/-- `out_split` at the block as the first store leaves it, spelt through the store's own view. -/
theorem out_split_stored (c : Dev nD) :
    ((((oM : Memref sig .tc .vmem S1024x512 .f32).access r0).loc (c : Thread nD τ) ↦{fullShare} (k0_pay2 (xstg m c) : (cc0_stg1_0 : Ref sig .tc).ty.Contents (Elt F))) : sProp 𝕄)
      ⊢ iprop(chunks c 0 (st m 0 0 c) ∗ chunks c 1 (st m 1 0 c)) :=
  out_split c (out0 m c)

/-- Hands a five-part premise `R ∗ A ∗ B ∗ C ∗ D` over from the named hypotheses, `R` persistent. -/
macro "iframe_send" r:ident a:ident b:ident c:ident d:ident : tactic =>
  `(tactic| (isplitr; iexact $r; isplitl [$a]; iexact $a; isplitl [$b]; iexact $b; isplitl [$c]; iexact $c; iexact $d))
/-- The same with the first two parts persistent. -/
macro "iframe_fin" r:ident l:ident a:ident b:ident c:ident : tactic =>
  `(tactic| (isplitr; iexact $r; isplitr; iexact $l; isplitl [$a]; iexact $a; isplitl [$b]; iexact $b; iexact $c))

set_option maxRecDepth 65536 in
set_option maxHeartbeats 8000000 in
/-- The body, from `bodyPre` to `bodyPost`. -/
theorem sound_body (K : Dev nD × Fin 25 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre ghost
  iintro ⟨⟨⟨⟨#HR, Hbar, Hxf⟩, #Hlev, Hscr⟩, Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  -- the receive buffer as its slots; the copies' resources one by one
  ihave Hsl := (slots_split c) $$ Hscr
  icases Hsl with ⟨Hs0, Hs1⟩
  ihave Hxf' := (Entails.of_eq (bigSep_pairs fun ds : Fin 2 × Fin 6 => xferRes c ds.1 ds.2)) $$ Hxf
  icases Hxf' with ⟨X00, X01, X02, X03, X04, X05, X10, X11, X12, X13, X14, X15⟩
  -- the entry handshake
  iapply (wp_entry m K c _ _ (dev1_eq c) (dev2_eq c) rfl rfl rfl) $$ [HO Hbar Hs0 Hs1]
  · isplitr; · iexact HR
    isplitr; · iexact Hlev
    isplitl [Hbar]; · iexact Hbar
    isplitl [Hs0]; · iexact Hs0
    isplitl [Hs1]; · iexact Hs1
    iexact HO
  iintro ⟨HO, HsR, HsL⟩
  ihave HsR' := (Entails.of_eq (slotsAny_six (rgt c) 0)) $$ HsR
  icases HsR' with ⟨D00, D01, D02, D03, D04, D05⟩
  ihave HsL' := (Entails.of_eq (slotsAny_six (lft c) 1)) $$ HsL
  icases HsL' with ⟨D10, D11, D12, D13, D14, D15⟩
  -- the input block copied into the result block
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  ihave Hch := (out_split_stored m c) $$ Hout
  icases Hch with ⟨C0, C1⟩
  -- step 0: chunks z (up) and z (down) leave; chunks z − 1 and z + 1 are summed with what lands
  iapply (wp_send_step m K c 0 0 _ (dev3_eq c) 11 rfl rfl (off1_eq c 0) rfl rfl rfl) $$ [C0 D00 HO X00]
  · iframe_send HR C0 D00 HO X00
  iintro ⟨B0, HO, M0⟩
  iapply (wp_send_step m K c 1 0 _ (dev4_eq c) 10 rfl rfl (off1_eq c 1) rfl rfl rfl) $$ [C1 D10 HO X10]
  · iframe_send HR C1 D10 HO X10
  iintro ⟨B1, HO, M1⟩
  iapply (wp_finish_acc m K c 0 0 (by decide) 10 (by decide) rfl rfl (by rfl) (by rfl) (off2_eq c 0) (off2_eq c 0) (off2_eq c 0) rfl k0_pay3 pay3_eq) $$ [B0 HO M0]
  · iframe_fin HR Hlev B0 HO M0
  iintro ⟨C0, R00, HO, ZS00, ZR00⟩
  iapply (wp_finish_acc m K c 1 0 (by decide) 10 (by decide) rfl rfl (by rfl) (by rfl) (off2_eq c 1) (off2_eq c 1) (off2_eq c 1) rfl k0_pay4 pay4_eq) $$ [B1 HO M1]
  · iframe_fin HR Hlev B1 HO M1
  iintro ⟨C1, R10, HO, ZS10, ZR10⟩
  -- step 1
  iapply (wp_send_step m K c 0 1 _ (dev5_eq c) 9 rfl rfl (off1_eq c 2) rfl rfl rfl) $$ [C0 D01 HO X01]
  · iframe_send HR C0 D01 HO X01
  iintro ⟨B0, HO, M0⟩
  iapply (wp_send_step m K c 1 1 _ (dev6_eq c) 8 rfl rfl (off1_eq c 3) rfl rfl rfl) $$ [C1 D11 HO X11]
  · iframe_send HR C1 D11 HO X11
  iintro ⟨B1, HO, M1⟩
  iapply (wp_finish_acc m K c 0 1 (by decide) 8 (by decide) rfl rfl (by rfl) (by rfl) (off2_eq c 2) (off2_eq c 2) (off2_eq c 2) rfl k0_pay5 pay5_eq) $$ [B0 HO M0]
  · iframe_fin HR Hlev B0 HO M0
  iintro ⟨C0, R01, HO, ZS01, ZR01⟩
  iapply (wp_finish_acc m K c 1 1 (by decide) 8 (by decide) rfl rfl (by rfl) (by rfl) (off2_eq c 3) (off2_eq c 3) (off2_eq c 3) rfl k0_pay6 pay6_eq) $$ [B1 HO M1]
  · iframe_fin HR Hlev B1 HO M1
  iintro ⟨C1, R11, HO, ZS11, ZR11⟩
  -- step 2: after it one chunk of each half holds the sum over the ring
  iapply (wp_send_step m K c 0 2 _ (dev7_eq c) 7 rfl rfl (off1_eq c 4) rfl rfl rfl) $$ [C0 D02 HO X02]
  · iframe_send HR C0 D02 HO X02
  iintro ⟨B0, HO, M0⟩
  iapply (wp_send_step m K c 1 2 _ (dev8_eq c) 6 rfl rfl (off1_eq c 5) rfl rfl rfl) $$ [C1 D12 HO X12]
  · iframe_send HR C1 D12 HO X12
  iintro ⟨B1, HO, M1⟩
  iapply (wp_finish_acc m K c 0 2 (by decide) 6 (by decide) rfl rfl (by rfl) (by rfl) (off2_eq c 4) (off2_eq c 4) (off2_eq c 4) rfl k0_pay7 pay7_eq) $$ [B0 HO M0]
  · iframe_fin HR Hlev B0 HO M0
  iintro ⟨C0, R02, HO, ZS02, ZR02⟩
  iapply (wp_finish_acc m K c 1 2 (by decide) 6 (by decide) rfl rfl (by rfl) (by rfl) (off2_eq c 5) (off2_eq c 5) (off2_eq c 5) rfl (fun x w => k0_pay9 (k0_pay8 x) w) (fun _ _ => rfl)) $$ [B1 HO M1]
  · iframe_fin HR Hlev B1 HO M1
  iintro ⟨C1, R12, HO, ZS12, ZR12⟩
  -- step 3: from here on what lands replaces the chunk it lands at
  iapply (wp_send_step m K c 0 3 _ (dev9_eq c) 5 rfl rfl (off1_eq c 6) rfl rfl rfl) $$ [C0 D03 HO X03]
  · iframe_send HR C0 D03 HO X03
  iintro ⟨B0, HO, M0⟩
  iapply (wp_send_step m K c 1 3 _ (dev10_eq c) 4 rfl rfl (off1_eq c 7) rfl rfl rfl) $$ [C1 D13 HO X13]
  · iframe_send HR C1 D13 HO X13
  iintro ⟨B1, HO, M1⟩
  iapply (wp_finish_rep m K c 0 3 (by decide) 4 (by decide) rfl rfl (by rfl) (by rfl) (off2_eq c 6) (off2_eq c 6) rfl k0_pay10 (fun _ => rfl)) $$ [B0 HO M0]
  · iframe_fin HR Hlev B0 HO M0
  iintro ⟨C0, R03, HO, ZS03, ZR03⟩
  iapply (wp_finish_rep m K c 1 3 (by decide) 4 (by decide) rfl rfl (by rfl) (by rfl) (off2_eq c 7) (off2_eq c 7) rfl k0_pay11 (fun _ => rfl)) $$ [B1 HO M1]
  · iframe_fin HR Hlev B1 HO M1
  iintro ⟨C1, R13, HO, ZS13, ZR13⟩
  -- step 4
  iapply (wp_send_step m K c 0 4 _ (dev11_eq c) 3 rfl rfl (off1_eq c 8) rfl rfl rfl) $$ [C0 D04 HO X04]
  · iframe_send HR C0 D04 HO X04
  iintro ⟨B0, HO, M0⟩
  iapply (wp_send_step m K c 1 4 _ (dev12_eq c) 2 rfl rfl (off1_eq c 9) rfl rfl rfl) $$ [C1 D14 HO X14]
  · iframe_send HR C1 D14 HO X14
  iintro ⟨B1, HO, M1⟩
  iapply (wp_finish_rep m K c 0 4 (by decide) 2 (by decide) rfl rfl (by rfl) (by rfl) (off2_eq c 8) (off2_eq c 8) rfl k0_pay12 (fun _ => rfl)) $$ [B0 HO M0]
  · iframe_fin HR Hlev B0 HO M0
  iintro ⟨C0, R04, HO, ZS04, ZR04⟩
  iapply (wp_finish_rep m K c 1 4 (by decide) 2 (by decide) rfl rfl (by rfl) (by rfl) (off2_eq c 9) (off2_eq c 9) rfl k0_pay13 (fun _ => rfl)) $$ [B1 HO M1]
  · iframe_fin HR Hlev B1 HO M1
  iintro ⟨C1, R14, HO, ZS14, ZR14⟩
  -- step 5
  iapply (wp_send_step m K c 0 5 _ (dev13_eq c) 1 rfl rfl (off1_eq c 10) rfl rfl rfl) $$ [C0 D05 HO X05]
  · iframe_send HR C0 D05 HO X05
  iintro ⟨B0, HO, M0⟩
  iapply (wp_send_step m K c 1 5 _ (dev14_eq c) 0 rfl rfl (off1_eq c 11) rfl rfl rfl) $$ [C1 D15 HO X15]
  · iframe_send HR C1 D15 HO X15
  iintro ⟨B1, HO, M1⟩
  iapply (wp_finish_rep m K c 0 5 (by decide) 0 (by decide) rfl rfl (by rfl) (by rfl) (off2_eq c 10) (off2_eq c 10) rfl k0_pay14 (fun _ => rfl)) $$ [B0 HO M0]
  · iframe_fin HR Hlev B0 HO M0
  iintro ⟨C0, R05, HO, ZS05, ZR05⟩
  iapply (wp_finish_rep m K c 1 5 (by decide) 0 (by decide) rfl rfl (by rfl) (by rfl) (off2_eq c 11) (off2_eq c 11) rfl k0_pay1 (fun _ => rfl)) $$ [B1 HO M1]
  · iframe_fin HR Hlev B1 HO M1
  iintro ⟨C1, R15, HO, ZS15, ZR15⟩
  -- the receive buffer whole again: every slot has landed and been read
  ihave A00 := (slotAt_any c 0 0 _) $$ R00
  ihave A01 := (slotAt_any c 0 1 _) $$ R01
  ihave A02 := (slotAt_any c 0 2 _) $$ R02
  ihave A03 := (slotAt_any c 0 3 _) $$ R03
  ihave A04 := (slotAt_any c 0 4 _) $$ R04
  ihave A05 := (slotAt_any c 0 5 _) $$ R05
  ihave A10 := (slotAt_any c 1 0 _) $$ R10
  ihave A11 := (slotAt_any c 1 1 _) $$ R11
  ihave A12 := (slotAt_any c 1 2 _) $$ R12
  ihave A13 := (slotAt_any c 1 3 _) $$ R13
  ihave A14 := (slotAt_any c 1 4 _) $$ R14
  ihave A15 := (slotAt_any c 1 5 _) $$ R15
  ihave Hs0 := (Entails.of_eq (slotsAny_six c 0).symm) $$ [A00 A01 A02 A03 A04 A05]
  · isplitl [A00]; · iexact A00
    isplitl [A01]; · iexact A01
    isplitl [A02]; · iexact A02
    isplitl [A03]; · iexact A03
    isplitl [A04]; · iexact A04
    iexact A05
  ihave Hs1 := (Entails.of_eq (slotsAny_six c 1).symm) $$ [A10 A11 A12 A13 A14 A15]
  · isplitl [A10]; · iexact A10
    isplitl [A11]; · iexact A11
    isplitl [A12]; · iexact A12
    isplitl [A13]; · iexact A13
    isplitl [A14]; · iexact A14
    iexact A15
  ihave Hscr := (slots_join c) $$ [Hs0 Hs1]
  · isplitl [Hs0] <;> iassumption
  -- the 24 DMA semaphores closed at zero
  ihave Hz := (Entails.of_eq (bigSep_pairs fun ds : Fin 2 × Fin 6 => iprop(semVal (sendCell ds.1 ds.2 c) 0 ∗ semVal (recvCell ds.1 ds.2 c) 0)).symm)
    $$ [ZS00 ZR00 ZS01 ZR01 ZS02 ZR02 ZS03 ZR03 ZS04 ZR04 ZS05 ZR05 ZS10 ZR10 ZS11 ZR11 ZS12 ZR12 ZS13 ZR13 ZS14 ZR14 ZS15 ZR15]
  · isplitl [ZS00 ZR00]; · (isplitl [ZS00] <;> iassumption)
    isplitl [ZS01 ZR01]; · (isplitl [ZS01] <;> iassumption)
    isplitl [ZS02 ZR02]; · (isplitl [ZS02] <;> iassumption)
    isplitl [ZS03 ZR03]; · (isplitl [ZS03] <;> iassumption)
    isplitl [ZS04 ZR04]; · (isplitl [ZS04] <;> iassumption)
    isplitl [ZS05 ZR05]; · (isplitl [ZS05] <;> iassumption)
    isplitl [ZS10 ZR10]; · (isplitl [ZS10] <;> iassumption)
    isplitl [ZS11 ZR11]; · (isplitl [ZS11] <;> iassumption)
    isplitl [ZS12 ZR12]; · (isplitl [ZS12] <;> iassumption)
    isplitl [ZS13 ZR13]; · (isplitl [ZS13] <;> iassumption)
    isplitl [ZS14 ZR14]; · (isplitl [ZS14] <;> iassumption)
    isplitl [ZS15] <;> iassumption
  -- the result block whole: its chunks are the recursion's end
  ihave Hout := (out_join c (outAt m c) (st m 0 6 c) (st m 1 6 c) (fun j => chunkV_outAt m c 0 j) (fun j => chunkV_outAt m c 1 j)) $$ [C0 C1]
  · isplitl [C0]; · iexact C0
    iexact C1
  rw [wp_ret]; imodintro
  iapply Hk
  unfold bodyPost Φ₁ closedSems
  isplitl [Hscr Hz]
  · isplitl [Hscr]; · iexact Hscr
    iexact Hz
  isplitl [HO]
  · iapply (owesAt_last m ρ c _); iexact HO
  isplitl [Hx]
  · iexists _; isplitr; · (ipureintro; rfl)
    iexact Hx
  iexists _; isplitr; · (ipureintro; rfl)
  iexact Hout

set_option maxRecDepth 8000 in
/-- What the point is entered with, as the pipeline library states it. -/
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 8000 in
/-- The pipeline library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hlev⟩, Hscr⟩, Ho, Hx, Hout⟩
  iapply (sound_body m ρ K c fun _ => bodyPost m ρ c)
  unfold bodyPre
  isplitr []
  · isplitl [Hg Hlev Hscr]
    · isplitl [Hg]; · iexact Hg
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.LaunchCred.lean ====
/-
  The credit each device is dealt at launch, and the levels of the pipeline's own staging waits. Summed over the
  ring, the units owed to a device's barrier cell are two (one from each neighbour) and the credit owed to its
  receive cell of (direction, step) is one chunk's (from the neighbour upstream in that direction).
-/
import proofs.«900732_g7700000000000733_dist_ar_v7x_xyz2x4x4_z_m1024_n512_f32_1_alg».proof.Proof.Inv

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

namespace LC

/-! ## Which cell is which -/

theorem dma_ne_reg (q : DmaSem sig) (r : Sem sig) : (SemLoc.dma q : SemLoc sig) ≠ .reg r := fun h => by cases h

/-- Distinct (direction, step) pairs have distinct receive semaphores. -/
theorem recvSem_inj : Function.Injective (fun ds : Fin 2 × Fin 6 => (SemLoc.dma (recvS ds.1 ds.2) : SemLoc sig)) := by
  rintro ⟨d, s⟩ ⟨d', s'⟩ h
  have h' : (recvS d s).val = (recvS d' s').val := congrArg (fun q : DmaSem sig => q.val) (SemLoc.dma.inj h)
  rw [recvS_val, recvS_val] at h'
  have h1 := s.isLt; have h2 := s'.isLt; have h3 := d.isLt; have h4 := d'.isLt
  exact Prod.ext (Fin.ext (show d.val = d'.val by omega)) (Fin.ext (show s.val = s'.val by omega))

theorem bar_eq_iff {a b : Dev nD} : Iff (barCell a = barCell b) (a = b) :=
  ⟨fun h => Fin.ext (congrArg (fun g : GSem nD τ sig => g.1.1.val) h), fun h => h ▸ rfl⟩

theorem recvCell_eq_iff {d d' : Fin 2} {s s' : Fin 6} {c c' : Dev nD} :
    Iff (recvCell d s c = recvCell d' s' c') (d = d' ∧ s = s' ∧ c = c') := by
  constructor
  · intro h
    have h1 : c = c' := Fin.ext (congrArg (fun g : GSem nD τ sig => g.1.1.val) h)
    have h2 : ((d, s) : Fin 2 × Fin 6) = (d', s') := recvSem_inj (congrArg Prod.snd h)
    exact ⟨congrArg Prod.fst h2, congrArg Prod.snd h2, h1⟩
  · rintro ⟨rfl, rfl, rfl⟩; rfl

/-! ## What one device owes one cell -/

/-- Nothing of the twelve copies is owed to a barrier cell. -/
theorem owedFrom_bar (d' c : Dev nD) : owedFrom d' 12 (barCell c) () = 0 :=
  Nat.eq_zero_of_not_pos fun h => by
    obtain ⟨i, _, _, hg⟩ := owedFrom_pos (le_refl 12) h
    exact dma_ne_reg _ _ (congrArg Prod.snd hg).symm

/-- Copy i of device d' owes the receive cell of (d, s) on c exactly when it is the copy of (d, s) and c is downstream. -/
theorem copyOwes_recv (d' : Dev nD) (i : ℕ) (d : Fin 2) (s : Fin 6) (c : Dev nD) :
    copyOwes d' i (recvCell d s c) () = if (dOf i = d ∧ sOf i = s ∧ d' = up d c) then Ncr else 0 := by
  unfold copyOwes
  rw [tallyAt_apply]
  refine if_congr ⟨?_, ?_⟩ rfl rfl
  · rintro ⟨h, -⟩
    obtain ⟨h1, h2, h3⟩ := recvCell_eq_iff.mp h
    refine ⟨h1.symm, h2.symm, ?_⟩
    rw [h3, h1]; exact (up_dn _ _).symm
  · rintro ⟨rfl, rfl, rfl⟩
    exact ⟨by rw [dn_up], rfl⟩

/-- Of its last n copies, device d' owes the receive cell of (d, s) on c one chunk's credit when copy 2 s + d is among
    them and d' is upstream of c in direction d, and nothing otherwise. -/
theorem owedFrom_recv (d' : Dev nD) (d : Fin 2) (s : Fin 6) (c : Dev nD) : ∀ n, n ≤ 12 →
    owedFrom d' n (recvCell d s c) () = if (12 - n ≤ 2 * s.val + d.val ∧ d' = up d c) then Ncr else 0 := by
  have hs := s.isLt
  have hd := d.isLt
  intro n
  induction n with
  | zero =>
    intro _
    rw [if_neg (fun h => by have := h.1; omega)]
    rfl
  | succ n ih =>
    intro hn
    rw [owedFrom_succ, Pi.add_apply, Finsupp.add_apply, ih (by omega), copyOwes_recv]
    have hi : (dOf (12 - (n + 1)) = d ∧ sOf (12 - (n + 1)) = s) ↔ 12 - (n + 1) = 2 * s.val + d.val := by
      rw [Fin.ext_iff, Fin.ext_iff]
      show ((12 - (n + 1)) % 2 = d.val ∧ (12 - (n + 1)) / 2 % 6 = s.val) ↔ _
      omega
    by_cases hP : d' = up d c
    · by_cases h1 : 12 - n ≤ 2 * s.val + d.val
      · rw [if_pos ⟨h1, hP⟩, if_neg (fun h => by have := hi.mp ⟨h.1, h.2.1⟩; omega), if_pos ⟨by omega, hP⟩, Nat.add_zero]
      · by_cases h2 : 12 - (n + 1) = 2 * s.val + d.val
        · rw [if_neg (fun h => h1 h.1), if_pos ⟨(hi.mpr h2).1, (hi.mpr h2).2, hP⟩, if_pos ⟨by omega, hP⟩, Nat.zero_add]
        · rw [if_neg (fun h => h1 h.1), if_neg (fun h => h2 (hi.mp ⟨h.1, h.2.1⟩)), if_neg (fun h => by have := h.1; omega)]
    · rw [if_neg (fun h => hP h.2), if_neg (fun h => hP h.2.2), if_neg (fun h => hP h.2)]

/-- What device d' owes device c's barrier cell: a unit if it is the neighbour below, a unit if the neighbour above. -/
theorem owed_bar (d' c : Dev nD) :
    O₀ d' (barCell c) () = (if d' = lft c then 1 else 0) + (if d' = rgt c then 1 else 0) := by
  unfold O₀ O₁
  rw [Pi.add_apply, Finsupp.add_apply, Pi.add_apply, Finsupp.add_apply, owedFrom_bar, Nat.zero_add, tallyAt_apply, tallyAt_apply]
  congr 1
  · refine if_congr ⟨fun h => ?_, fun h => ⟨?_, rfl⟩⟩ rfl rfl
    · rw [bar_eq_iff.mp h.1, lft_rgt]
    · rw [h, rgt_lft]
  · refine if_congr ⟨fun h => ?_, fun h => ⟨?_, rfl⟩⟩ rfl rfl
    · rw [bar_eq_iff.mp h.1, rgt_lft]
    · rw [h, lft_rgt]

/-- What device d' owes device c's receive cell of (d, s): one chunk's credit if it is upstream of c in direction d. -/
theorem owed_recv (d' : Dev nD) (d : Fin 2) (s : Fin 6) (c : Dev nD) :
    O₀ d' (recvCell d s c) () = if d' = up d c then Ncr else 0 := by
  have hs := s.isLt
  unfold O₀ O₁
  rw [Pi.add_apply, Finsupp.add_apply, Pi.add_apply, Finsupp.add_apply,
    tallyAt_ne_cell (fun h => dma_ne_reg _ _ (congrArg Prod.snd h)), tallyAt_ne_cell (fun h => dma_ne_reg _ _ (congrArg Prod.snd h)),
    Finsupp.zero_apply, Nat.add_zero, Nat.add_zero, owedFrom_recv d' d s c 12 le_rfl]
  exact if_congr ⟨fun h => h.2, fun h => ⟨by omega, h⟩⟩ rfl rfl

/-! ## The launch credit of a cell: what all devices owe it -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d' _ => owed_bar d' c, Finset.sum_add_distrib,
    Finset.sum_ite_eq' Finset.univ (lft c) fun _ => 1, Finset.sum_ite_eq' Finset.univ (rgt c) fun _ => 1, if_pos (Finset.mem_univ _), if_pos (Finset.mem_univ _)]

theorem launch_recv (d : Fin 2) (s : Fin 6) (c : Dev nD) :
    tallyOn (recvCell d s c) (launchCredit (Pipeline.owing O₀) 0 (recvCell d s c)) = (tallyAt (recvCell d s c) () Ncr : CellTallies nD τ sig Unit) := by
  unfold tallyAt; refine congrArg _ (Finsupp.ext fun u => ?_); cases u
  rw [Pipeline.launchCredit_owing, Finsupp.single_eq_same, Finset.sum_congr rfl fun d' _ => owed_recv d' d s c,
    Finset.sum_ite_eq' Finset.univ (up d c) fun _ => Ncr, if_pos (Finset.mem_univ _)]

omit [FloatOps F] in
/-- The launch credit of a receive cell, as the credit to wait with. -/
theorem cred_recv (d : Fin 2) (s : Fin 6) (c : Dev nD) :
    (cred (tallyOn (recvCell d s c) (launchCredit (Pipeline.owing O₀) 0 (recvCell d s c))) : sProp 𝕄)
      ⊢ cred (tallyAt (recvCell d s c) () Ncr) := by
  rw [launch_recv] <;> exact .refl _

end LC

omit [FloatOps F] in
/-- What the launch deals device `c` to wait with: two units on its barrier cell, one chunk's credit on each receive cell. -/
theorem creds (c : Dev nD) :
    (Pipeline.launchCred O₀ c : sProp 𝕄)
      ⊢ iprop(cred (tallyAt (barCell c) () 2) ∗ bigSep Finset.univ fun ds : Fin 2 × Fin 6 => cred (tallyAt (recvCell ds.1 ds.2 c) () Ncr)) := by
  unfold Pipeline.launchCred
  rw [bigSep_univ_at _ (SemLoc.reg barS), LC.launch_bar]
  refine sep_mono_right ?_
  have hsub : (Finset.univ.map ⟨_, LC.recvSem_inj⟩ : Finset (SemLoc sig)) ⊆ Finset.univ.erase (SemLoc.reg barS) := fun sm h => by
    obtain ⟨ds, -, rfl⟩ := Finset.mem_map.mp h
    exact Finset.mem_erase.mpr ⟨LC.dma_ne_reg _ _, Finset.mem_univ _⟩
  refine (bigSep_subset hsub).trans ?_
  rw [bigSep_map]
  exact bigSep_mono fun ds _ => LC.cred_recv ds.1 ds.2 c

/-- The pipeline's staging waits (at the point's start owing `O₀ c`, at its end owing nothing) lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr ⟨0, by decide, rfl⟩)

/-- info: 'Cert.KernelIdealProof.creds' depends on axioms: [propext, Classical.choice, Quot.sound] -/
#guard_msgs in #print axioms creds
/-- info: 'Cert.KernelIdealProof.waits' depends on axioms: [propext, Classical.choice, Quot.sound] -/
#guard_msgs in #print axioms waits

end Cert.KernelIdealProof

end
-- ==== Proof.Launch.lean ====
/-
  The launch: every cell's invariant allocated for all devices in one step (the barrier semaphore is the runtime's, shared
  by a device and its two neighbours), the tokens dealt to the devices that pay with them, the credit to the devices
  that wait with it, and the run of @main from the body's proof at every device.
-/
import proofs.«900732_g7700000000000733_dist_ar_v7x_xyz2x4x4_z_m1024_n512_f32_1_alg».proof.Proof.LaunchCred

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-! ## The index sets -/

/-- The kernel's own (scoped) semaphores, as the launch indexes them: \`(false, d, s)\` the send semaphore of
    (direction, step), \`(true, d, s)\` the receive semaphore. -/
abbrev OK : Type := Bool × Fin 2 × Fin 6
abbrev osem (k : OK) : SemLoc sig := .dma (bif k.1 then recvS k.2.1 k.2.2 else sendS k.2.1 k.2.2)

theorem ownSemFacts : Pipeline.OwnSemFacts cfg0.spec osem := by decide

theorem share_eq (c : Dev nD) (w : Fin cfg0.W) : (dats m ρ 0 c).share w = fullShare := by unfold Dat.share; split <;> rfl

/-- A device's 25 cells by kind: the barrier, then the kernel's own 24. -/
def ix25 : Unit ⊕ OK → Fin 25
  | .inl _ => 0
  | .inr k => bif k.1 then recvIx k.2.1 k.2.2 else sendIx k.2.1 k.2.2
theorem ix25_bijective : Function.Bijective ix25 := by decide
def e25 : Unit ⊕ OK ≃ Fin 25 := Equiv.ofBijective ix25 ix25_bijective

omit [FloatOps F] in
/-- Anything indexed by a device's 25 cells, sorted into the barrier's, the send cells' and the receive cells'. -/
theorem bigSep_fin25 (Φ : Fin 25 → sProp 𝕄) :
    bigSep Finset.univ Φ = iprop(Φ 0 ∗ (bigSep Finset.univ fun ds : Fin 2 × Fin 6 => Φ (sendIx ds.1 ds.2))
      ∗ bigSep Finset.univ fun ds : Fin 2 × Fin 6 => Φ (recvIx ds.1 ds.2)) := by
  rw [bigSep_univ_equiv e25, bigSep_univ_sum, bigSep_univ_of_subsingleton (), bigSep_univ_prod,
    bigSep_univ_eq_bigSepL [false, true] (by decide) (by decide)]
  rfl

theorem csem_injective : Function.Injective csem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens minted for a device's own cells: its barrier's two, and duty 0 of each of its 24 DMA cells. -/
def tokOf (cx : Dev nD × (Fin 2 ⊕ OK)) : GSem nD τ sig × ℕ × Fin 2 := match cx.2 with
  | .inl dd => (barCell cx.1, 0, dd)
  | .inr k => (((cx.1 : Thread nD τ), osem k), 0, 0)
theorem osem_injective : Function.Injective osem := by decide
theorem tokOf_injective : Function.Injective tokOf := by
  rintro ⟨c, x⟩ ⟨c', x'⟩ h
  have h1 : c = c' := by
    have := congrArg (fun y : GSem nD τ sig × ℕ × Fin 2 => y.1.1.1) h
    rcases x with dd | k <;> rcases x' with dd' | k' <;> exact this
  subst h1
  rcases x with dd | k <;> rcases x' with dd' | k'
  · have := congrArg (fun y : GSem nD τ sig × ℕ × Fin 2 => y.2.2) h
    exact congrArg _ (congrArg Sum.inl this)
  · exact absurd (congrArg (fun y : GSem nD τ sig × ℕ × Fin 2 => y.1.2) h) (fun h' => by cases h')
  · exact absurd (congrArg (fun y : GSem nD τ sig × ℕ × Fin 2 => y.1.2) h) (fun h' => by cases h')
  · have := osem_injective (congrArg (fun y : GSem nD τ sig × ℕ × Fin 2 => y.1.2) h)
    exact congrArg _ (congrArg Sum.inr this)
def ringToks : Finset (GSem nD τ sig × ℕ × Fin 2) := Finset.univ.map ⟨tokOf, tokOf_injective⟩

def u₀ : UU :=
  (initOf (Pipeline.cells cfgs cellOf_inj) (Pipeline.launchToks cfgs cellOf_inj), initOf ringCells ringToks)

/-! ## What the launch element deals each device -/

/-- The duty tokens of device \`c\`'s own cells. -/
def toks (c : Dev nD) : sProp 𝕄 :=
  iprop((bigSep Finset.univ fun dd : Fin 2 => dutyTok ER (barCell c) 0 dd)
    ∗ (bigSep Finset.univ fun ds : Fin 2 × Fin 6 => dutyTok ER (sendCell ds.1 ds.2 c) 0 0)
    ∗ bigSep Finset.univ fun ds : Fin 2 × Fin 6 => dutyTok ER (recvCell ds.1 ds.2 c) 0 0)

/-- What the launch element deals device \`c\`: its cells' round states, its positions on them, that each has reached
    round 0, and its own cells' tokens. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod, bigSep_univ_eq_bigSepL [false, true] (by decide) (by decide)]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round -/

omit [FloatOps F] in
/-- The kernel's own semaphores are its twelve send and twelve receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun ds : Fin 2 × Fin 6 => semVal (sendCell ds.1 ds.2 c) 0)
        ∗ bigSep Finset.univ fun ds : Fin 2 × Fin 6 => semVal (recvCell ds.1 ds.2 c) 0) := by
  unfold Pipeline.ownSems0
  rw [bigSep_univ_prod, bigSep_univ_eq_bigSepL [false, true] (by decide) (by decide)]
  rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_fin25]
  simp only [kcell, csem_bar, csem_send, csem_recv]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The handshake's share of a device's start, and one copy's, before the credit to wait with is added. -/
def barRes₀ (c : Dev nD) : sProp 𝕄 :=
  iprop(atPos ER (barCell c) 0 ∅ 0 ∗ dutyTok ER (barCell (lft c)) 0 0 ∗ dutyTok ER (barCell (rgt c)) 0 1)
def xferRes₀ (c : Dev nD) (d : Fin 2) (s : Fin 6) : sProp 𝕄 :=
  iprop(atPos ER (sendCell d s c) 0 ∅ 0 ∗ atPos ER (recvCell d s c) 0 ∅ 0 ∗ dutyTok ER (sendCell d s c) 0 0
    ∗ dutyTok ER (recvCell d s (dn d c)) 0 0)
def ghost₀ (K : Dev nD × Fin 25 → ℕ) (c : Dev nD) : sProp 𝕄 :=
  iprop(records m K ∗ barRes₀ c ∗ bigSep Finset.univ fun ds : Fin 2 × Fin 6 => xferRes₀ c ds.1 ds.2)

/-- What the global step makes of it. -/
def G' (c : Dev nD) : sProp 𝕄 := iprop(∃ K, ghost₀ m K c)

/-- The tokens of the duties device \`c\` pays: a unit to each neighbour's barrier, its own send duties, the receive
    duties downstream. -/
def payToks (c : Dev nD) : sProp 𝕄 :=
  iprop(dutyTok ER (barCell (lft c)) 0 0 ∗ dutyTok ER (barCell (rgt c)) 0 1
    ∗ (bigSep Finset.univ fun ds : Fin 2 × Fin 6 => dutyTok ER (sendCell ds.1 ds.2 c) 0 0)
    ∗ bigSep Finset.univ fun ds : Fin 2 × Fin 6 => dutyTok ER (recvCell ds.1 ds.2 (dn ds.1 c)) 0 0)
def linear (c : Dev nD) : sProp 𝕄 :=
  iprop((bigSep Finset.univ fun k : Fin 25 => atPos ER (kcell (c, k)) 0 ∅ 0) ∗ payToks c)

theorem ghost_intro (K : Dev nD × Fin 25 → ℕ) (c : Dev nD) : iprop(records m K ∗ linear c) ⊢ G' m c := by
  unfold linear payToks G' ghost₀ barRes₀ xferRes₀
  rw [bigSep_fin25, bigSep_sep', bigSep_sep', bigSep_sep']
  simp only [kcell, csem_bar, csem_send, csem_recv]
  iintro ⟨#HR, ⟨HaB, HaS, HaV⟩, Ht0, Ht1, HtS, HtV⟩
  iexists K
  isplitr; · iexact HR
  isplitl [HaB Ht0 Ht1]
  · isplitl [HaB]; · iexact HaB
    isplitl [Ht0] <;> iassumption
  isplitl [HaS]; · iexact HaS
  isplitl [HaV]; · iexact HaV
  isplitl [HtS] <;> iassumption

def lftE : Dev nD ≃ Dev nD := ⟨lft, rgt, rgt_lft, lft_rgt⟩
/-- Each receive token moved one device upstream in its direction. -/
def dnE : Dev nD × (Fin 2 × Fin 6) ≃ Dev nD × (Fin 2 × Fin 6) :=
  ⟨fun x => (dn x.2.1 x.1, x.2), fun x => (up x.2.1 x.1, x.2),
    fun x => Prod.ext (up_dn x.2.1 x.1) rfl, fun x => Prod.ext (dn_up x.2.1 x.1) rfl⟩

omit [FloatOps F] in
/-- The tokens dealt round the ring: a barrier's duty 0 token to the device above it, its duty 1 token to the device below,
    each receive token to the device upstream in its direction. -/
theorem toks_around : (bigSep Finset.univ fun c : Dev nD => (toks c : sProp 𝕄)) ⊢ bigSep Finset.univ fun c : Dev nD => payToks c := by
  have hV : (bigSep Finset.univ fun c : Dev nD => bigSep Finset.univ fun ds : Fin 2 × Fin 6 => (dutyTok ER (recvCell ds.1 ds.2 c) 0 0 : sProp 𝕄))
      = bigSep Finset.univ fun c : Dev nD => bigSep Finset.univ fun ds : Fin 2 × Fin 6 => (dutyTok ER (recvCell ds.1 ds.2 (dn ds.1 c)) 0 0 : sProp 𝕄) :=
    (bigSep_univ_prod (fun x : Dev nD × (Fin 2 × Fin 6) => (dutyTok ER (recvCell x.2.1 x.2.2 x.1) 0 0 : sProp 𝕄))).symm.trans
      ((bigSep_univ_equiv dnE _).trans (bigSep_univ_prod _))
  unfold toks payToks
  simp only [bigSep_univ_two]
  rw [bigSep_sep', bigSep_sep', bigSep_sep', bigSep_sep', bigSep_sep', bigSep_sep', hV,
    bigSep_univ_equiv lftE (fun c : Dev nD => (dutyTok ER (barCell c) 0 0 : sProp 𝕄)),
    bigSep_univ_equiv lftE.symm (fun c : Dev nD => (dutyTok ER (barCell c) 0 1 : sProp 𝕄))]
  iintro ⟨⟨H0, H1⟩, HS, HV⟩
  isplitl [H0]; · iexact H0
  isplitl [H1]; · iexact H1
  isplitl [HS] <;> iassumption

theorem regroup :
    (bigSep Finset.univ fun c : Dev nD => iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 25 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
theorem xfer_add (c : Dev nD) (d : Fin 2) (s : Fin 6) :
    iprop(xferRes₀ c d s ∗ cred (tallyAt (recvCell d s c) () Ncr)) ⊢ (xferRes c d s : sProp 𝕄) := by
  unfold xferRes₀ xferRes
  iintro ⟨⟨H1, H2, H3, H4⟩, H5⟩
  isplitl [H1]; · iexact H1
  isplitl [H2]; · iexact H2
  isplitl [H3]; · iexact H3
  isplitl [H4] <;> iassumption

theorem ghost_add (K : Dev nD × Fin 25 → ℕ) (c : Dev nD) :
    iprop(ghost₀ m K c ∗ cred (tallyAt (barCell c) () 2) ∗ bigSep Finset.univ fun ds : Fin 2 × Fin 6 => cred (tallyAt (recvCell ds.1 ds.2 c) () Ncr))
      ⊢ ghost m K c := by
  unfold ghost₀ ghost barRes₀ barRes
  iintro ⟨⟨HR, ⟨Ha, Ht0, Ht1⟩, HX⟩, Hc2, HcN⟩
  isplitl [HR]; · iexact HR
  isplitl [Ha Ht0 Ht1 Hc2]
  · isplitl [Ha]; · iexact Ha
    isplitl [Ht0]; · iexact Ht0
    isplitl [Ht1] <;> iassumption
  iapply ((Entails.of_eq (bigSep_sep' Finset.univ (fun ds : Fin 2 × Fin 6 => xferRes₀ c ds.1 ds.2)
      (fun ds : Fin 2 × Fin 6 => (cred (tallyAt (recvCell ds.1 ds.2 c) () Ncr) : sProp 𝕄))).symm).trans
    (bigSep_mono fun ds _ => xfer_add c ds.1 ds.2))
  isplitl [HX] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  icases HG with ⟨%K, HG⟩
  isplitl
  · isplitl [HG H1 HN]
    · iexists K
      iapply (ghost_add m K c)
      isplitl [HG]; · iexact HG
      isplitl [H1] <;> iassumption
    · iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ closedSems
  rw [bigSep_sep']
  iintro ⟨Hr, HzS, HzV⟩
  isplitr; · iempintro
  isplitl [HzS HzV]
  · isplitl [HzS] <;> iassumption
  iexact Hr

/-- The windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of 32 devices, from any memory with zero counters: given the body's proof at every device, every
    weakly fair execution of @main terminates and every final state has each window's array at `finalA`. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run is what the body left in its staging buffer (the window's one block is the whole array). -/
theorem finalA_o (c : Dev nD) : finalA m ρ c (1 : Fin 2) = outAt m c := by
  -- the one block, at offset zero and of the array's size, reads the array as it is
  have hz : (fun a => (win0_1.index t0_0) a * main_v1.ty.shape.size a) = fun _ => 0 := funext fun a => by fin_cases a <;> decide
  have hwhole := fun f => Memref.read_access_unit_zero (Elt F) main_v1 hz (fun a => by fin_cases a <;> decide) f
  refine (hwhole _).symm.trans ?_
  -- and the write-back at the one point wrote what the body left there over all of it
  unfold finalA
  rw [show cfg0.N = (t0_0 : Fin cfg0.N).val + 1 from rfl, (dats m ρ 0 c).arrAt_succ (1 : Fin 2) t0_0, flush0_1 t0_0, if_pos rfl]
  exact View.read_write_univ _ _

/-- info: 'Cert.KernelIdealProof.run_main' depends on axioms: [propext, Classical.choice, Quot.sound] -/
#guard_msgs in #print axioms run_main

/-- info: 'Cert.KernelIdealProof.finalA_o' depends on axioms: [propext, Classical.choice, Quot.sound] -/
#guard_msgs in #print axioms finalA_o

end Cert.KernelIdealProof

end
-- ==== Proof.Ref.lean ====
/-
  The reference: the one-device sum of the four row blocks of the whole array.
-/
import proofs.«900732_g7700000000000733_dist_ar_v7x_xyz2x4x4_z_m1024_n512_f32_1_alg».proof.Proof.Gen.ReferenceIdeal.Run
import proofs.«900732_g7700000000000733_dist_ar_v7x_xyz2x4x4_z_m1024_n512_f32_1_alg».proof.Proof.Gen.ReferenceIdeal.Read
-- ==== Proof.Final.lean ====
/-
  The value of the ring all-reduce. With the recursion of the data module unfolded, every 128-row chunk of a device's
  result block ends as a sum, taken once round the ring, of that chunk over the four devices that share the device's
  first two mesh coordinates. A device holds the row block of the whole array that its third coordinate names, so at
  each element the chunk is the sum over the four row blocks of the whole array: the reference's element. Over the
  extended reals the order and the bracketing of the four summands do not matter.
-/
import proofs.«900732_g7700000000000733_dist_ar_v7x_xyz2x4x4_z_m1024_n512_f32_1_alg».proof.Proof.Values
import proofs.«900732_g7700000000000733_dist_ar_v7x_xyz2x4x4_z_m1024_n512_f32_1_alg».proof.Proof.Ref
import Idealize.ShloMosaic.Lib.Layout
import Idealize.ShloMosaic.Lib.Pipeline.Value
import Idealize.ShloMosaic.Lib.ValueIdx
import Idealize.ShloMosaic.PureOps.Ideal.Laws
import Mathlib.Algebra.BigOperators.Fin
import Mathlib.Logic.Function.Basic

noncomputable section

namespace Cert.KernelIdealProof

namespace Final

open Cert.KernelIdeal Cert.KernelIdeal.Gen
open Idealize.ShloMosaic
open Idealize.ShloMosaic.TcCoe
open Idealize.ShloMosaic.ValueIdx
open Idealize.SL.Sem

/-! ## The ring, for any float instance -/

section Ring

variable {F : FTy → Type} [FloatOps F]

/-- Two steps name the same chunk exactly when they agree modulo four. -/
theorem sidx_eq_iff (d : Fin 2) (s t : ℕ) (c : Dev nD) : sidx d s c = sidx d t c ↔ s % 4 = t % 4 := by
  fin_cases d
  · rw [Fin.ext_iff]
    show (c.val + 3 * s) % 4 = (c.val + 3 * t) % 4 ↔ _
    omega
  · rw [Fin.ext_iff]
    show (c.val + s) % 4 = (c.val + t) % 4 ↔ _
    omega

theorem sidx_ne (d : Fin 2) (s t : ℕ) (c : Dev nD) (h : s % 4 ≠ t % 4) : sidx d s c ≠ sidx d t c :=
  fun e => h ((sidx_eq_iff d s t c).mp e)

/-- Steps 3, 4, 5, 6 between them name every chunk. -/
theorem sidx_cover (d : Fin 2) (c : Dev nD) (j : Fin 4) :
    j = sidx d 3 c ∨ j = sidx d 4 c ∨ j = sidx d 5 c ∨ j = sidx d 6 c := by
  have hj : j.val < 4 := j.isLt
  fin_cases d
  · have h : j.val = (c.val + 3 * 3) % 4 ∨ j.val = (c.val + 3 * 4) % 4 ∨ j.val = (c.val + 3 * 5) % 4
        ∨ j.val = (c.val + 3 * 6) % 4 := by omega
    rcases h with h | h | h | h
    · exact .inl (Fin.ext h)
    · exact .inr (.inl (Fin.ext h))
    · exact .inr (.inr (.inl (Fin.ext h)))
    · exact .inr (.inr (.inr (Fin.ext h)))
  · have h : j.val = (c.val + 3) % 4 ∨ j.val = (c.val + 4) % 4 ∨ j.val = (c.val + 5) % 4
        ∨ j.val = (c.val + 6) % 4 := by omega
    rcases h with h | h | h | h
    · exact .inl (Fin.ext h)
    · exact .inr (.inl (Fin.ext h))
    · exact .inr (.inr (.inl (Fin.ext h)))
    · exact .inr (.inr (.inr (Fin.ext h)))

/-- A step leaves every chunk but the one it receives into as it was. -/
theorem st_succ_ne (m : Mem F) (d : Fin 2) (s : ℕ) (c : Dev nD) (j : Fin 4) (h : j ≠ sidx d (s + 1) c) :
    st m d (s + 1) c j = st m d s c j := by
  rw [st_succ, Function.update_of_ne h]

/-- From step 3 on, the chunk received into holds what the upstream neighbour sent. -/
theorem st_succ_late (m : Mem F) (d : Fin 2) (s : ℕ) (hs : 3 ≤ s) (c : Dev nD) :
    st m d (s + 1) c (sidx d (s + 1) c) = snt m d s (up d c) := by
  rw [st_succ, Function.update_self, if_neg (by omega)]

theorem snt_late (m : Mem F) (d : Fin 2) (s : ℕ) (hs : 3 ≤ s) (c : Dev nD) :
    snt m d (s + 1) c = snt m d s (up d c) := by
  rw [snt_succ, if_neg (by omega)]

/-- During the first three steps a chunk not yet received into still holds the input's. -/
theorem st_untouched (m : Mem F) (d : Fin 2) (s : ℕ) : s ≤ 3 → ∀ (c : Dev nD) (j : Fin 4),
    (∀ t, 1 ≤ t → t ≤ s → j ≠ sidx d t c) → st m d s c j = chunkV (out0 m c) d j := by
  induction s with
  | zero => intro _ c j _; rfl
  | succ s ih =>
    intro hs c j h
    rw [st_succ_ne m d s c j (h (s + 1) (by omega) le_rfl)]
    exact ih (by omega) c j fun t h1 h2 => h t h1 (by omega)

/-- During the first three steps a device sends its own input chunk plus what it was sent. -/
theorem snt_acc (m : Mem F) (d : Fin 2) (s : ℕ) (hs : s < 3) (c : Dev nD) :
    snt m d (s + 1) c = acc (chunkV (out0 m c) d (sidx d (s + 1) c)) (snt m d s (up d c)) := by
  rw [snt_succ, if_pos hs,
    st_untouched m d s (by omega) c (sidx d (s + 1) c) fun t h1 h2 => sidx_ne d (s + 1) t c (by omega)]

/-- Chunk j summed once round the ring, starting at c and going upstream, bracketed as the kernel adds. -/
def ringAcc (m : Mem F) (d : Fin 2) (c : Dev nD) (j : Fin 4) : Vec F S128x512 .f32 :=
  acc (chunkV (out0 m c) d j)
    (acc (chunkV (out0 m (up d c)) d j)
      (acc (chunkV (out0 m (up d (up d c))) d j) (chunkV (out0 m (up d (up d (up d c)))) d j)))

/-- What a device sends at step 3 is a chunk summed round the ring. -/
theorem snt3 (m : Mem F) (d : Fin 2) (c : Dev nD) : snt m d 3 c = ringAcc m d c (sidx d 3 c) := by
  have e1 : sidx d 2 (up d c) = sidx d 3 c := sidx_up d 2 c
  have e2 : sidx d 1 (up d (up d c)) = sidx d 3 c := (sidx_up d 1 (up d c)).trans e1
  have e3 : sidx d 0 (up d (up d (up d c))) = sidx d 3 c := (sidx_up d 0 (up d (up d c))).trans e2
  have h3 : snt m d 3 c = acc (chunkV (out0 m c) d (sidx d 3 c)) (snt m d 2 (up d c)) :=
    snt_acc m d 2 (by decide) c
  have h2 : snt m d 2 (up d c)
      = acc (chunkV (out0 m (up d c)) d (sidx d 2 (up d c))) (snt m d 1 (up d (up d c))) :=
    snt_acc m d 1 (by decide) (up d c)
  have h1 : snt m d 1 (up d (up d c))
      = acc (chunkV (out0 m (up d (up d c))) d (sidx d 1 (up d (up d c)))) (snt m d 0 (up d (up d (up d c)))) :=
    snt_acc m d 0 (by decide) (up d (up d c))
  have h0 : snt m d 0 (up d (up d (up d c)))
      = chunkV (out0 m (up d (up d (up d c)))) d (sidx d 0 (up d (up d (up d c)))) := rfl
  rw [h3, h2, h1, h0, e1, e2, e3, ringAcc]

/-- When the kernel ends every chunk is a sum round the ring, from some device of the ring on. -/
theorem st6_ring (m : Mem F) (d : Fin 2) (c : Dev nD) (j : Fin 4) :
    ∃ c' : Dev nD, st m d 6 c j = ringAcc m d c' j := by
  rcases sidx_cover d c j with h | h | h | h
  · subst h
    exact ⟨c,
      calc st m d 6 c (sidx d 3 c) = st m d 5 c (sidx d 3 c) := st_succ_ne m d 5 c _ (sidx_ne d 3 6 c (by decide))
        _ = st m d 4 c (sidx d 3 c) := st_succ_ne m d 4 c _ (sidx_ne d 3 5 c (by decide))
        _ = st m d 3 c (sidx d 3 c) := st_succ_ne m d 3 c _ (sidx_ne d 3 4 c (by decide))
        _ = ringAcc m d c (sidx d 3 c) := snt3 m d c⟩
  · subst h
    exact ⟨up d c,
      calc st m d 6 c (sidx d 4 c) = st m d 5 c (sidx d 4 c) := st_succ_ne m d 5 c _ (sidx_ne d 4 6 c (by decide))
        _ = st m d 4 c (sidx d 4 c) := st_succ_ne m d 4 c _ (sidx_ne d 4 5 c (by decide))
        _ = snt m d 3 (up d c) := st_succ_late m d 3 le_rfl c
        _ = ringAcc m d (up d c) (sidx d 3 (up d c)) := snt3 m d (up d c)
        _ = ringAcc m d (up d c) (sidx d 4 c) := congrArg (ringAcc m d (up d c)) (sidx_up d 3 c)⟩
  · subst h
    exact ⟨up d (up d c),
      calc st m d 6 c (sidx d 5 c) = st m d 5 c (sidx d 5 c) := st_succ_ne m d 5 c _ (sidx_ne d 5 6 c (by decide))
        _ = snt m d 4 (up d c) := st_succ_late m d 4 (by decide) c
        _ = snt m d 3 (up d (up d c)) := snt_late m d 3 le_rfl (up d c)
        _ = ringAcc m d (up d (up d c)) (sidx d 3 (up d (up d c))) := snt3 m d (up d (up d c))
        _ = ringAcc m d (up d (up d c)) (sidx d 5 c) :=
          congrArg (ringAcc m d (up d (up d c))) ((sidx_up d 3 (up d c)).trans (sidx_up d 4 c))⟩
  · subst h
    exact ⟨up d (up d (up d c)),
      calc st m d 6 c (sidx d 6 c) = snt m d 5 (up d c) := st_succ_late m d 5 (by decide) c
        _ = snt m d 4 (up d (up d c)) := snt_late m d 4 (by decide) (up d c)
        _ = snt m d 3 (up d (up d (up d c))) := snt_late m d 3 le_rfl (up d (up d c))
        _ = ringAcc m d (up d (up d (up d c))) (sidx d 3 (up d (up d (up d c)))) := snt3 m d (up d (up d (up d c)))
        _ = ringAcc m d (up d (up d (up d c))) (sidx d 6 c) :=
          congrArg (ringAcc m d (up d (up d (up d c))))
            (((sidx_up d 3 (up d (up d c))).trans (sidx_up d 4 (up d c))).trans (sidx_up d 5 c))⟩

/-! ## The block and its chunks -/

/-- A chunk read at a local index is the block at the chunk's offset plus the index. -/
theorem chunkV_apply (X : (cc0_stg1_0 : Ref sig .tc).ty.Contents (Elt F)) (d : Fin 2) (j : Fin 4) (x : S128x512.Idx) :
    chunkV X d j x = X ((chunkR d j).emb x) := rfl

/-- The eight chunks cover the block: row r lies in chunk (r / 512, r % 512 / 128) at local row r % 128. -/
theorem cover (i : S1024x512.Idx) :
    ∃ (d : Fin 2) (j : Fin 4) (x : S128x512.Idx), (chunkR d j).emb x = i := by
  have h0 : (i 0).val < 1024 := idx2_lt0 i
  have h1 : (i 1).val < 512 := idx2_lt1 i
  refine ⟨⟨(i 0).val / 512, by omega⟩, ⟨(i 0).val % 512 / 128, by omega⟩,
    ix2 (n0 := 128) (n1 := 512) ⟨(i 0).val % 128, by omega⟩ ⟨(i 1).val, h1⟩, ?_⟩
  funext a
  refine Fin.ext ?_
  match a with
  | ⟨0, _⟩ =>
    show 512 * ((i 0).val / 512) + 128 * ((i 0).val % 512 / 128) + 1 * ((i 0).val % 128) = (i 0).val
    omega
  | ⟨1, _⟩ =>
    show 0 + 1 * (i 1).val = (i 1).val
    omega

/-- What is staged of a device's input is its whole block, -/
theorem xstg_eq (m : Mem F) (c : Dev nD) : xstg m c = m ((c : Thread nD τ).loc main_arg0) := by
  have hz : (fun a => (win0_0.index t0_0) a * main_arg0.ty.shape.size a) = fun _ => 0 :=
    funext fun a => by fin_cases a <;> rfl
  exact Memref.read_access_unit_zero (Elt F) main_arg0 hz (fun a => by fin_cases a <;> decide) _

/-- and the first store puts it into the result block unchanged. -/
theorem out0_eq (m : Mem F) (c : Dev nD) : out0 m c = xstg m c := by
  unfold out0 k0_pay2
  exact shapeCast_self _ _

end Ring

/-! ## At the extended reals -/

/-- The reference's whole array. -/
abbrev RefArr : Type :=
  Buf (Elt Ideal) (((0 : Dev Cert.ReferenceIdeal.nD).tc : Thread Cert.ReferenceIdeal.nD Cert.ReferenceIdeal.τ).loc
    Cert.ReferenceIdeal.main_arg0)

/-- Local row x 0 of chunk (d, j) of row block k is this row of the whole array. -/
abbrev arow (k : Fin 4) (d : Fin 2) (j : Fin 4) (x : S128x512.Idx) : Fin 4096 :=
  ⟨k.val * 1024 + (512 * d.val + 128 * j.val + (x 0).val), by
    have := idx2_lt0 x; have := k.isLt; have := d.isLt; have := j.isLt; omega⟩

/-- The whole array's element under local index x of chunk (d, j) of row block k. -/
def gA (A : RefArr) (d : Fin 2) (j : Fin 4) (x : S128x512.Idx) (k : Fin 4) : EReal :=
  (show (⟨2, ![4096, 512]⟩ : Shape).Idx → EReal from A) (ix2 (arow k d j x) ⟨(x 1).val, idx2_lt1 x⟩)

/-- A device's position on the ring: its third mesh coordinate. -/
def zc (c : Dev nD) : Fin 4 := ⟨c.val % 4, Nat.mod_lt _ (by decide)⟩

/-- Going upstream moves the third coordinate by 3 in direction 0 and by 1 in direction 1, modulo four. -/
def stp (d : Fin 2) : Fin 4 := if d = 0 then 3 else 1

theorem stp_cases : ∀ d : Fin 2, stp d = 3 ∨ stp d = 1 := by decide

theorem zc_up (d : Fin 2) (c : Dev nD) : zc (up d c) = zc c + stp d := by
  have hc : c.val < 32 := c.isLt
  fin_cases d
  · refine Fin.ext ?_
    show (c.val / 4 * 4 + (c.val + 3) % 4) % 4 = (c.val % 4 + 3) % 4
    omega
  · refine Fin.ext ?_
    show (c.val / 4 * 4 + (c.val + 1) % 4) % 4 = (c.val % 4 + 1) % 4
    omega

/-- Four summands taken round the ring from any position, in either direction, are the four summands. -/
theorem ring_sum (g : Fin 4 → EReal) (s z : Fin 4) (hs : s = 3 ∨ s = 1) :
    g z + (g (z + s) + (g (z + s + s) + g (z + s + s + s))) = 0 + ∑ k : Fin 4, g k := by
  rw [Fin.sum_univ_four, zero_add]
  rcases hs with rfl | rfl <;> fin_cases z
  · show g 0 + (g 3 + (g 2 + g 1)) = g 0 + g 1 + g 2 + g 3; ac_rfl
  · show g 1 + (g 0 + (g 3 + g 2)) = g 0 + g 1 + g 2 + g 3; ac_rfl
  · show g 2 + (g 1 + (g 0 + g 3)) = g 0 + g 1 + g 2 + g 3; ac_rfl
  · show g 3 + (g 2 + (g 1 + g 0)) = g 0 + g 1 + g 2 + g 3; ac_rfl
  · show g 0 + (g 1 + (g 2 + g 3)) = g 0 + g 1 + g 2 + g 3; ac_rfl
  · show g 1 + (g 2 + (g 3 + g 0)) = g 0 + g 1 + g 2 + g 3; ac_rfl
  · show g 2 + (g 3 + (g 0 + g 1)) = g 0 + g 1 + g 2 + g 3; ac_rfl
  · show g 3 + (g 0 + (g 1 + g 2)) = g 0 + g 1 + g 2 + g 3; ac_rfl

/-- The body's accumulate at an element is the sum of the two elements. -/
theorem acc_apply (a b : S128x512.Idx → EReal) (x : S128x512.Idx) : acc (F := Ideal) a b x = a x + b x := by
  unfold acc
  rw [shapeCast_self]
  rfl

section Agree

variable (m : Mem Ideal) (A : RefArr)
  (hagree : ∀ c : Dev nD, m ((c.tc : Thread nD τ).loc main_arg0)
    = Layout.blockN ⟨2, ![1024, 512]⟩ ⟨2, ![4096, 512]⟩ (Layout.meshBlock [2, 4, 4] ![[2], []] c) A)

include hagree

/-- A device's input chunk at an element is the whole array's element in the row block its third coordinate names. -/
theorem V_apply (d : Fin 2) (c : Dev nD) (j : Fin 4) (x : S128x512.Idx) :
    chunkV (out0 m c) d j x = gA A d j x (zc c) := by
  rw [chunkV_apply, out0_eq, xstg_eq, hagree c, Layout.blockN_apply]
  unfold gA
  refine congrArg (show (⟨2, ![4096, 512]⟩ : Shape).Idx → EReal from A) (funext fun a => Fin.ext ?_)
  match a with
  | ⟨0, _⟩ =>
    show (c.val / 1 % 4 * 1 + 0) * 1024 + (512 * d.val + 128 * j.val + 1 * (x 0).val)
      = c.val % 4 * 1024 + (512 * d.val + 128 * j.val + (x 0).val)
    omega
  | ⟨1, _⟩ =>
    show 0 * 512 + (0 + 1 * (x 1).val) = (x 1).val
    omega

/-- A sum round the ring, from any device on, is at each element the sum over the four row blocks. -/
theorem ringAcc_apply (d : Fin 2) (c : Dev nD) (j : Fin 4) (x : S128x512.Idx) :
    ringAcc m d c j x = 0 + ∑ k : Fin 4, gA A d j x k := by
  unfold ringAcc
  rw [acc_apply, acc_apply, acc_apply, V_apply m A hagree, V_apply m A hagree, V_apply m A hagree,
    V_apply m A hagree]
  simp only [zc_up]
  exact ring_sum (gA A d j x) (stp d) (zc c) (stp_cases d)

omit hagree in
/-- The reference's element under a chunk's local index: zero plus the sum over the four row blocks. -/
theorem ref_apply (d : Fin 2) (j : Fin 4) (x : S128x512.Idx) :
    Cert.ReferenceIdeal.Read.val_main_v1 (F := Ideal) A ((chunkR d j).emb x) = 0 + ∑ k : Fin 4, gA A d j x k := by
  have hx0 : (x 0).val < 128 := idx2_lt0 x
  have hx1 : (x 1).val < 512 := idx2_lt1 x
  have hd : d.val < 2 := d.isLt
  have hj : j.val < 4 := j.isLt
  rw [Cert.ReferenceIdeal.Read.val_main_v1_apply, Cert.ReferenceIdeal.Read.val_main_cst_apply]
  simp only [Ideal.ofBits_def, Ideal.ofBits_zero_f32]
  refine congrArg (fun t : EReal => 0 + t) (Finset.sum_congr rfl fun k _ => ?_)
  have hk : k.val < 4 := k.isLt
  rw [Cert.ReferenceIdeal.Read.val_main_v0_apply]
  unfold gA
  refine congrArg (show (⟨2, ![4096, 512]⟩ : Shape).Idx → EReal from A) (funext fun a => Fin.ext ?_)
  match a with
  | ⟨0, _⟩ =>
    show ((k.val * 1024 + (512 * d.val + 128 * j.val + 1 * (x 0).val)) * 512 + (0 + 1 * (x 1).val)) / 512
      = k.val * 1024 + (512 * d.val + 128 * j.val + (x 0).val)
    omega
  | ⟨1, _⟩ =>
    show ((k.val * 1024 + (512 * d.val + 128 * j.val + 1 * (x 0).val)) * 512 + (0 + 1 * (x 1).val)) % 512
      = (x 1).val
    omega

/-- A result block whose eight chunks are what the ring's recursion leaves when the kernel ends is the reference's
    result: the sum of the four row blocks of the whole array. -/
theorem final_eq (c : Dev nD) (X : (cc0_stg1_0 : Ref sig .tc).ty.Contents (Elt Ideal))
    (hX : ∀ (d : Fin 2) (j : Fin 4), chunkV X d j = st m d 6 c j) :
    X = Cert.ReferenceIdeal.Read.val_main_v1 (F := Ideal) A := by
  funext i
  obtain ⟨d, j, x, rfl⟩ := cover i
  obtain ⟨c', hc'⟩ := st6_ring m d c j
  rw [← chunkV_apply (F := Ideal) X d j x, hX d j, hc', ringAcc_apply m A hagree, ref_apply A]

end Agree

/-- info: 'Cert.KernelIdealProof.Final.final_eq' depends on axioms: [propext, Classical.choice, Quot.sound] -/
#guard_msgs in #print axioms final_eq

end Final

end Cert.KernelIdealProof

end
-- ==== Proof.Bits.Ring.lean ====
/-
  The ring along the mesh's third axis. A device's logical id is 16·x + 4·y + z; its ring neighbours keep x and y and
  move z by one, modulo four. Direction 0 sends to the neighbour above (z + 1), direction 1 to the one below (z − 1).
  At step s a device sends, in direction 0, the 128-row chunk numbered z − s (mod 4) of the first half of its rows
  and receives into chunk z − (s + 1); in direction 1 it sends chunk z + s of the second half and receives into z + s + 1.
  Proved here by evaluation over the 32 devices: which device each printed device-id chain names, and which rows each
  printed offset chain names.
-/
import proofs.«900732_g7700000000000733_dist_ar_v7x_xyz2x4x4_z_m1024_n512_f32_1_alg».proof.Proof.Gen.Kernel
import Idealize.ShloMosaic.Lib.Decide

set_option Elab.async false

namespace Cert.KernelProof

open Cert.Kernel Cert.Kernel.Gen
open Idealize.ShloMosaic

/-- The neighbour one step up the ring (z + 1). -/
def rgt (c : Dev nD) : Dev nD := ⟨c.val / 4 * 4 + (c.val + 1) % 4, by have h : c.val < 32 := c.isLt; show _ < 32; omega⟩
/-- The neighbour one step down the ring (z − 1). -/
def lft (c : Dev nD) : Dev nD := ⟨c.val / 4 * 4 + (c.val + 3) % 4, by have h : c.val < 32 := c.isLt; show _ < 32; omega⟩

theorem lft_rgt (c : Dev nD) : lft (rgt c) = c := by revert c; decide
theorem rgt_lft (c : Dev nD) : rgt (lft c) = c := by revert c; decide
theorem rgt_ne_lft (c : Dev nD) : rgt c ≠ lft c := by revert c; decide
theorem rgt_ne (c : Dev nD) : rgt c ≠ c := by revert c; decide
theorem lft_ne (c : Dev nD) : lft c ≠ c := by revert c; decide

/-- Where direction `d`'s copies go. -/
def dn (d : Fin 2) (c : Dev nD) : Dev nD := if d = 0 then rgt c else lft c
/-- Where direction `d`'s copies come from. -/
def up (d : Fin 2) (c : Dev nD) : Dev nD := if d = 0 then lft c else rgt c

theorem up_dn (d : Fin 2) (c : Dev nD) : up d (dn d c) = c := by revert d c; decide
theorem dn_up (d : Fin 2) (c : Dev nD) : dn d (up d c) = c := by revert d c; decide

/-- The chunk (of four, within half `d` of the rows) that device `c` sends at step `s` in direction `d`; it receives
    into chunk `sidx d (s + 1) c`. -/
def sidx (d : Fin 2) (s : ℕ) (c : Dev nD) : Fin 4 :=
  if d = 0 then ⟨(c.val + 3 * s) % 4, Nat.mod_lt _ (by decide)⟩ else ⟨(c.val + s) % 4, Nat.mod_lt _ (by decide)⟩

/-- What the neighbour upstream sends at step `s` is the chunk this device receives into. -/
theorem sidx_up (d : Fin 2) (s : ℕ) (c : Dev nD) : sidx d s (up d c) = sidx d (s + 1) c := by
  have hc : c.val < 32 := c.isLt
  fin_cases d
  · refine Fin.ext ?_
    show (c.val / 4 * 4 + (c.val + 3) % 4 + 3 * s) % 4 = (c.val + 3 * (s + 1)) % 4
    omega
  · refine Fin.ext ?_
    show (c.val / 4 * 4 + (c.val + 1) % 4 + s) % 4 = (c.val + (s + 1)) % 4
    omega

/-- Row offset of chunk `j` of half `d` in the 1024-row block. -/
abbrev chunkOff (d : Fin 2) (j : Fin 4) : Fin 2 → Nat := ![512 * d.val + 128 * j.val, 0]

theorem chunk_inb : ∀ (d : Fin 2) (j : Fin 4) a, chunkOff d j a + S128x512.size a ≤ S1024x512.size a := by decide

/-! ## The printed device-id chains -/

theorem dev1_eq (c : Dev nD) : (⟨k0_dev1 c, k0_dev1_lt c⟩ : Dev nD) = lft c := Fin.ext ((by decide +kernel : ∀ c : Dev nD, k0_dev1 c = (lft c).val) c)
theorem dev2_eq (c : Dev nD) : (⟨k0_dev2 c, k0_dev2_lt c⟩ : Dev nD) = rgt c := Fin.ext ((by decide +kernel : ∀ c : Dev nD, k0_dev2 c = (rgt c).val) c)
theorem dev3_eq (c : Dev nD) : (⟨k0_dev3 c, k0_dev3_lt c⟩ : Dev nD) = dn 0 c := Fin.ext ((by decide +kernel : ∀ c : Dev nD, k0_dev3 c = (dn 0 c).val) c)
theorem dev4_eq (c : Dev nD) : (⟨k0_dev4 c, k0_dev4_lt c⟩ : Dev nD) = dn 1 c := Fin.ext ((by decide +kernel : ∀ c : Dev nD, k0_dev4 c = (dn 1 c).val) c)
theorem dev5_eq (c : Dev nD) : (⟨k0_dev5 c, k0_dev5_lt c⟩ : Dev nD) = dn 0 c := Fin.ext ((by decide +kernel : ∀ c : Dev nD, k0_dev5 c = (dn 0 c).val) c)
theorem dev6_eq (c : Dev nD) : (⟨k0_dev6 c, k0_dev6_lt c⟩ : Dev nD) = dn 1 c := Fin.ext ((by decide +kernel : ∀ c : Dev nD, k0_dev6 c = (dn 1 c).val) c)
theorem dev7_eq (c : Dev nD) : (⟨k0_dev7 c, k0_dev7_lt c⟩ : Dev nD) = dn 0 c := Fin.ext ((by decide +kernel : ∀ c : Dev nD, k0_dev7 c = (dn 0 c).val) c)
theorem dev8_eq (c : Dev nD) : (⟨k0_dev8 c, k0_dev8_lt c⟩ : Dev nD) = dn 1 c := Fin.ext ((by decide +kernel : ∀ c : Dev nD, k0_dev8 c = (dn 1 c).val) c)
theorem dev9_eq (c : Dev nD) : (⟨k0_dev9 c, k0_dev9_lt c⟩ : Dev nD) = dn 0 c := Fin.ext ((by decide +kernel : ∀ c : Dev nD, k0_dev9 c = (dn 0 c).val) c)
theorem dev10_eq (c : Dev nD) : (⟨k0_dev10 c, k0_dev10_lt c⟩ : Dev nD) = dn 1 c := Fin.ext ((by decide +kernel : ∀ c : Dev nD, k0_dev10 c = (dn 1 c).val) c)
theorem dev11_eq (c : Dev nD) : (⟨k0_dev11 c, k0_dev11_lt c⟩ : Dev nD) = dn 0 c := Fin.ext ((by decide +kernel : ∀ c : Dev nD, k0_dev11 c = (dn 0 c).val) c)
theorem dev12_eq (c : Dev nD) : (⟨k0_dev12 c, k0_dev12_lt c⟩ : Dev nD) = dn 1 c := Fin.ext ((by decide +kernel : ∀ c : Dev nD, k0_dev12 c = (dn 1 c).val) c)
theorem dev13_eq (c : Dev nD) : (⟨k0_dev13 c, k0_dev13_lt c⟩ : Dev nD) = dn 0 c := Fin.ext ((by decide +kernel : ∀ c : Dev nD, k0_dev13 c = (dn 0 c).val) c)
theorem dev14_eq (c : Dev nD) : (⟨k0_dev14 c, k0_dev14_lt c⟩ : Dev nD) = dn 1 c := Fin.ext ((by decide +kernel : ∀ c : Dev nD, k0_dev14 c = (dn 1 c).val) c)

/-! ## The printed row offsets: row `r` of each table serves direction `r % 2` at step `r / 2` -/

theorem off1_eq : ∀ (c : Dev nD) (r : Fin 12), k0_off1 c (k0_off1_at r).1 (k0_off1_at r).2 = chunkOff ⟨r.val % 2, Nat.mod_lt _ (by decide)⟩ (sidx ⟨r.val % 2, Nat.mod_lt _ (by decide)⟩ (r.val / 2) c) := by
  decide +kernel
theorem off2_eq : ∀ (c : Dev nD) (r : Fin 12), k0_off2 c (k0_off2_at r).1 (k0_off2_at r).2 = chunkOff ⟨r.val % 2, Nat.mod_lt _ (by decide)⟩ (sidx ⟨r.val % 2, Nat.mod_lt _ (by decide)⟩ (r.val / 2 + 1) c) := by
  decide +kernel

end Cert.KernelProof
-- ==== Proof.Bits.Values.lean ====
/-
  The data of the ring all-reduce, with no logic in it. Each device's 1024 rows are two halves of four 128-row chunks.
  Half 0 travels up the ring (to z + 1), half 1 down it (to z − 1). In each direction, at step s a device sends one
  chunk and receives one from the other side; during the first three steps what arrives is ADDED to the chunk it
  arrives at (so after three steps one chunk of each half holds the sum over the four devices of the ring), during
  the last three it REPLACES it (the finished sums go round). `st m d s c j` is what chunk `j` of half `d` holds on
  device `c` when step `s` begins (`s = 6`: when the kernel ends); `snt m d s c` is what `c` sends at step `s`.
-/
import proofs.«900732_g7700000000000733_dist_ar_v7x_xyz2x4x4_z_m1024_n512_f32_1_alg».proof.Proof.Bits.Ring
import proofs.«900732_g7700000000000733_dist_ar_v7x_xyz2x4x4_z_m1024_n512_f32_1_alg».proof.Proof.Gen.Kernel.Skeleton
import proofs.«900732_g7700000000000733_dist_ar_v7x_xyz2x4x4_z_m1024_n512_f32_1_alg».proof.Proof.Gen.Kernel.Launch

noncomputable section

namespace Cert.KernelProof

open Cert.Kernel Cert.Kernel.Gen
open Idealize.ShloMosaic
open Idealize.ShloMosaic.TcCoe
open Idealize.SL.Sem

variable {F : FTy → Type} [FloatOps F]

/-- A memory of the 32 devices. -/
abbrev Mem (F : FTy → Type) : Type := (ℓ : Loc nD τ sig) → Buf (Elt F) ℓ

/-! ## The buffers the body sees, and their pieces -/

/-- The staged input block, the staged result block, the receive buffer (2 directions × 6 steps × [128, 512]). -/
abbrev xM : Memref sig .tc .vmem S1024x512 .f32 := Memref.whole cc0_stg0_0
abbrev oM : Memref sig .tc .vmem S1024x512 .f32 := Memref.whole cc0_stg1_0
abbrev rM : Memref sig .tc .vmem S2x6x128x512 .f32 := Memref.whole cc0_scratch0

/-- Chunk `j` of half `d` of the result block, as the rectangle and as the memref a copy names it by. -/
abbrev chunkR (d : Fin 2) (j : Fin 4) : Rect S1024x512 := Rect.unit (s := S1024x512) (chunkOff d j) S128x512.size (chunk_inb d j)
abbrev chunkM (d : Fin 2) (j : Fin 4) : Memref sig .tc .vmem S128x512 .f32 := oM.slice (chunkR d j) (fun _ => rfl)

/-- Receive slot (direction `d`, step `s`). -/
abbrev slotOff (d : Fin 2) (s : Fin 6) : Fin 4 → Nat := ![d.val, s.val, 0, 0]
theorem slot_inb : ∀ (d : Fin 2) (s : Fin 6) a, slotOff d s a + S1x1x128x512.size a ≤ S2x6x128x512.size a := by decide
abbrev slotR (d : Fin 2) (s : Fin 6) : Rect S2x6x128x512 := Rect.unit (s := S2x6x128x512) (slotOff d s) S1x1x128x512.size (slot_inb d s)
abbrev slotM (d : Fin 2) (s : Fin 6) : Memref sig .tc .vmem S128x512 .f32 :=
  (rM.slice (slotR d s) (fun _ => rfl)).squeeze S128x512 squeezes_S1x1x128x512_S128x512

/-! ## The semaphores -/

abbrev semOff (d : Fin 2) (s : Fin 6) : Fin 2 → Nat := ![d.val, s.val]
theorem sem_inb : ∀ (d : Fin 2) (s : Fin 6) a, semOff d s a + S1x1.size a ≤ S2x6.size a := by decide
/-- The send and the receive semaphore of (direction, step). -/
abbrev sendS (d : Fin 2) (s : Fin 6) : DmaSem sig :=
  ((cc0_scratch1.slice (Rect.unit (s := S2x6) (semOff d s) S1x1.size (sem_inb d s))).squeeze S_ squeezes_S1x1_S_).sem
abbrev recvS (d : Fin 2) (s : Fin 6) : DmaSem sig :=
  ((cc0_scratch2.slice (Rect.unit (s := S2x6) (semOff d s) S1x1.size (sem_inb d s))).squeeze S_ squeezes_S1x1_S_).sem
/-- The runtime's barrier semaphore. -/
abbrev barS : Sem sig := (SemArray.scalar (sig.barrier 0 rfl) : Sems sig S_).sem

theorem sendS_val : ∀ (d : Fin 2) (s : Fin 6), (sendS d s).val = 2 + 6 * d.val + s.val := by decide
theorem recvS_val : ∀ (d : Fin 2) (s : Fin 6), (recvS d s).val = 14 + 6 * d.val + s.val := by decide

abbrev barCell (c : Dev nD) : GSem nD τ sig := ((c : Thread nD τ), .reg barS)
abbrev sendCell (d : Fin 2) (s : Fin 6) (c : Dev nD) : GSem nD τ sig := ((c : Thread nD τ), .dma (sendS d s))
abbrev recvCell (d : Fin 2) (s : Fin 6) (c : Dev nD) : GSem nD τ sig := ((c : Thread nD τ), .dma (recvS d s))

/-- What a copy of one chunk credits. -/
abbrev Ncr : ℕ := (slotM 0 0).view.dmaCredit
theorem Ncr_pos : 0 < Ncr := View.dmaCredit_pos _ (by decide)

/-! ## The values -/

/-- What the pipeline stages of device `c`'s input: its whole [1024, 512] block. -/
def xstg (m : Mem F) (c : Dev nD) : (cc0_stg0_0 : Ref sig .tc).ty.Contents (Elt F) :=
  (win0_0.blk t0_0).view.read (Elt F) (m ((c : Thread nD τ).loc main_arg0))

/-- The result block after the body's first store: the input block. -/
def out0 (m : Mem F) (c : Dev nD) : (cc0_stg1_0 : Ref sig .tc).ty.Contents (Elt F) := k0_pay2 (xstg m c)

/-- Chunk `j` of half `d` of a result block's contents. -/
def chunkV (X : (cc0_stg1_0 : Ref sig .tc).ty.Contents (Elt F)) (d : Fin 2) (j : Fin 4) : Vec F S128x512 .f32 :=
  (chunkM d j).view.read (Elt F) (show Buf (Elt F) ((chunkM d j).view.loc ((0 : Dev nD) : Thread nD τ)) from X)

/-- The body's accumulate: the chunk as it stands plus what arrived. -/
def acc (a b : Vec F S128x512 .f32) : Vec F S128x512 .f32 :=
  addf (shapeCast S128x512 a shapeCasts_S128x512_S128x512) b

/-- Chunk `j` of half `d` on device `c` when step `s` begins. Step `s` rewrites chunk `sidx d (s + 1) c`: with its sum with
    what the upstream neighbour sent at step `s` while `s < 3`, with what that neighbour sent from then on. -/
def st (m : Mem F) (d : Fin 2) : ℕ → Dev nD → Fin 4 → Vec F S128x512 .f32
  | 0, c, j => chunkV (out0 m c) d j
  | s + 1, c, j =>
    Function.update (st m d s c) (sidx d (s + 1) c)
      (if s < 3 then acc (st m d s c (sidx d (s + 1) c)) (st m d s (up d c) (sidx d s (up d c)))
       else st m d s (up d c) (sidx d s (up d c))) j

/-- What device `c` sends at step `s` in direction `d`. -/
def snt (m : Mem F) (d : Fin 2) (s : ℕ) (c : Dev nD) : Vec F S128x512 .f32 := st m d s c (sidx d s c)

theorem st_zero (m : Mem F) (d : Fin 2) (c : Dev nD) (j : Fin 4) : st m d 0 c j = chunkV (out0 m c) d j := rfl

theorem st_succ (m : Mem F) (d : Fin 2) (s : ℕ) (c : Dev nD) :
    st m d (s + 1) c = Function.update (st m d s c) (sidx d (s + 1) c)
      (if s < 3 then acc (st m d s c (sidx d (s + 1) c)) (snt m d s (up d c)) else snt m d s (up d c)) := by
  funext j; rfl

/-- What a device has just received and stored is what it sends next. -/
theorem snt_succ (m : Mem F) (d : Fin 2) (s : ℕ) (c : Dev nD) :
    snt m d (s + 1) c = if s < 3 then acc (st m d s c (sidx d (s + 1) c)) (snt m d s (up d c)) else snt m d s (up d c) := by
  show st m d (s + 1) c (sidx d (s + 1) c) = _
  rw [st_succ, Function.update_self]

/-- The skeleton's accumulate payloads are `acc` of the chunk and the slot recast; its copy payloads the slot recast. -/
theorem pay3_eq (a : Vec F S128x512 .f32) (w : Vec F S1x1x128x512 .f32) :
    k0_pay3 a w = acc a (shapeCast S128x512 w shapeCasts_S1x1x128x512_S128x512) := rfl
theorem pay4_eq (a : Vec F S128x512 .f32) (w : Vec F S1x1x128x512 .f32) :
    k0_pay4 a w = acc a (shapeCast S128x512 w shapeCasts_S1x1x128x512_S128x512) := rfl
theorem pay5_eq (a : Vec F S128x512 .f32) (w : Vec F S1x1x128x512 .f32) :
    k0_pay5 a w = acc a (shapeCast S128x512 w shapeCasts_S1x1x128x512_S128x512) := rfl
theorem pay6_eq (a : Vec F S128x512 .f32) (w : Vec F S1x1x128x512 .f32) :
    k0_pay6 a w = acc a (shapeCast S128x512 w shapeCasts_S1x1x128x512_S128x512) := rfl
theorem pay7_eq (a : Vec F S128x512 .f32) (w : Vec F S1x1x128x512 .f32) :
    k0_pay7 a w = acc a (shapeCast S128x512 w shapeCasts_S1x1x128x512_S128x512) := rfl

end Cert.KernelProof

end
-- ==== Proof.Bits.Common.lean ====
/-
  What the protocol's modules share: the resource algebra, the pieces of the result block and of the receive buffer
  as assertions, and the schedule. A device's barrier cell is paid one unit by each ring neighbour, and each unit brings
  with it that neighbour's six receive slots for the direction in which this device sends to it: after its barrier
  wait a device owns every slot it will write. The send cell of (direction, step) is paid by the device's own copy
  once its source chunk has been read, and gives the chunk back; the receive cell of (direction, step) is paid by the
  upstream neighbour's copy once it has landed, and gives the slot holding what that neighbour sent at that step.
-/
import proofs.«900732_g7700000000000733_dist_ar_v7x_xyz2x4x4_z_m1024_n512_f32_1_alg».proof.Proof.Bits.Values
import proofs.«900732_g7700000000000733_dist_ar_v7x_xyz2x4x4_z_m1024_n512_f32_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's (duties named by the direction) -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The memory at launch: arbitrary contents, every semaphore counter zero, arbitrary generator registers. -/
def s₀ (m : Mem F) (ρ : Dev nD → PrngReg) : MemSt nD τ sig (Elt F) := ⟨m, fun _ => 0, ρ⟩

abbrev 𝒱₀ : Variants := Variants.none

/-! ## Pieces as assertions -/

/-- Chunk `(d, j)` of device `c`'s result block, held by its own elements at contents `f`. -/
def chunkPts (c : Dev nD) (d : Fin 2) (j : Fin 4) (f : Buf (Elt F) ((chunkM d j).view.loc (c : Thread nD τ))) : sProp 𝕄 :=
  (chunkM d j).view.loc (c : Thread nD τ) ↦[(chunkM d j).view.set]{fullShare} f
/-- The same, known by what the chunk reads as. -/
def chunkAt (c : Dev nD) (d : Fin 2) (j : Fin 4) (v : Vec F S128x512 .f32) : sProp 𝕄 :=
  iprop(∃ f, ⌜(chunkM d j).view.read (Elt F) f = v⌝ ∗ chunkPts c d j f)

/-- Receive slot `(d, s)` of device `c`, held by its own elements at contents `f`. -/
def slotPts (c : Dev nD) (d : Fin 2) (s : Fin 6) (f : Buf (Elt F) ((slotM d s).view.loc (c : Thread nD τ))) : sProp 𝕄 :=
  (slotM d s).view.loc (c : Thread nD τ) ↦[(slotM d s).view.set]{fullShare} f
def slotAt (c : Dev nD) (d : Fin 2) (s : Fin 6) (v : Vec F S128x512 .f32) : sProp 𝕄 :=
  iprop(∃ f, ⌜(slotM d s).view.read (Elt F) f = v⌝ ∗ slotPts c d s f)
def slotAny (c : Dev nD) (d : Fin 2) (s : Fin 6) : sProp 𝕄 := iprop(∃ f, slotPts c d s f)
/-- The six slots of direction `d` on device `c`, at any contents. -/
def slotsAny (c : Dev nD) (d : Fin 2) : sProp 𝕄 := bigSep Finset.univ fun s : Fin 6 => slotAny c d s

omit [FloatOps F] in
instance chunkPts_storable (c : Dev nD) (d : Fin 2) (j : Fin 4) (f) : BI.Storable (upEmb : UEmb _ 𝕄) (chunkPts (F := F) c d j f) := by
  unfold chunkPts; infer_instance
omit [FloatOps F] in
instance chunkAt_storable (c : Dev nD) (d : Fin 2) (j : Fin 4) (v) : BI.Storable (upEmb : UEmb _ 𝕄) (chunkAt (F := F) c d j v) := by
  unfold chunkAt; infer_instance
omit [FloatOps F] in
instance slotPts_storable (c : Dev nD) (d : Fin 2) (s : Fin 6) (f) : BI.Storable (upEmb : UEmb _ 𝕄) (slotPts (F := F) c d s f) := by
  unfold slotPts; infer_instance
omit [FloatOps F] in
instance slotAt_storable (c : Dev nD) (d : Fin 2) (s : Fin 6) (v) : BI.Storable (upEmb : UEmb _ 𝕄) (slotAt (F := F) c d s v) := by
  unfold slotAt; infer_instance
omit [FloatOps F] in
instance slotAny_storable (c : Dev nD) (d : Fin 2) (s : Fin 6) : BI.Storable (upEmb : UEmb _ 𝕄) (slotAny (F := F) c d s) := by
  unfold slotAny; infer_instance
omit [FloatOps F] in
instance slotsAny_storable (c : Dev nD) (d : Fin 2) : BI.Storable (upEmb : UEmb _ 𝕄) (slotsAny (F := F) c d) := by
  unfold slotsAny; infer_instance

/-! ## The schedule -/

/-- Which copy a DMA semaphore belongs to: `(false, d, s)` the send semaphore of (direction, step), `(true, d, s)` the
    receive semaphore; the pipeline's own two staging semaphores belong to none. -/
def xferOf (q : DmaSem sig) : Option (Bool × Fin 2 × Fin 6) :=
  if h : 2 ≤ q.val ∧ q.val < 14 then some (false, ⟨(q.val - 2) / 6, by omega⟩, ⟨(q.val - 2) % 6, Nat.mod_lt _ (by decide)⟩)
  else if h : 14 ≤ q.val ∧ q.val < 26 then some (true, ⟨(q.val - 14) / 6, by omega⟩, ⟨(q.val - 14) % 6, Nat.mod_lt _ (by decide)⟩)
  else none

theorem xferOf_send : ∀ (d : Fin 2) (s : Fin 6), xferOf (sendS d s) = some (false, d, s) := by decide
theorem xferOf_recv : ∀ (d : Fin 2) (s : Fin 6), xferOf (recvS d s) = some (true, d, s) := by decide

/-- A cell's payload by its semaphore: a barrier unit of direction `dd` brings the payer's slots of that direction;
    a send cell gives the source chunk back as sent; a receive cell the slot holding what upstream sent. -/
def payOf (m : Mem F) (c : Dev nD) (sm : SemLoc sig) (dd : Fin 2) : sProp 𝕄 :=
  match sm with
  | .reg _ => slotsAny (dn dd c) dd
  | .dma q =>
    match xferOf q with
    | some (false, d, s) => chunkAt c d (sidx d s.val c) (snt m d s.val c)
    | some (true, d, s) => slotAt c d s (snt m d s.val (up d c))
    | none => iprop(emp)

instance payOf_storable (m : Mem F) (c : Dev nD) (sm : SemLoc sig) (dd : Fin 2) : BI.Storable (upEmb : UEmb _ 𝕄) (payOf m c sm dd) := by
  unfold payOf
  split
  · infer_instance
  · split <;> infer_instance

/-- One round. A TensorCore's barrier cell has the two duties 0 and 1 of one unit each; each of its send and receive
    cells the duty 0 of one chunk's credit. -/
def ringRd (m : Mem F) : Rounds.Schedule (GSem nD τ sig) (Fin 2) 𝕄 where
  duties g r :=
    if r = 0 ∧ g.1.2 = .tc then
      (match g.2 with
       | .reg q => if q = barS then Finset.univ else ∅
       | .dma q => if (xferOf q).isSome then {0} else ∅)
    else ∅
  unitless _ := False
  amount g _ _ := match g.2 with | .reg _ => 1 | .dma _ => Ncr
  payload g _ dd := payOf m g.1.1 g.2 dd
  amount_pos g _ _ _ := by
    cases g.2 with
    | reg _ => exact Nat.one_pos
    | dma _ => exact Ncr_pos

instance ringRd_payload_storable (m : Mem F) (g : GSem nD τ sig) (r : ℕ) (dd : Fin 2) :
    BI.Storable (upEmb : UEmb _ 𝕄) ((ringRd m).payload g r dd) := payOf_storable m g.1.1 g.2 dd

end Cert.KernelProof

end
-- ==== Proof.Bits.Schedule.lean ====
/-
  The schedule's tables, cell by cell, what each device owes from launch, and the levels that order the waits.
  A device owes one barrier unit to each ring neighbour and, for each of its twelve copies, one chunk's credit to the
  receive cell of (direction, step) on the neighbour the copy goes to. It waits on its barrier owing all twelve
  credits, on the receive cell of step s owing only the credits of later steps, and on send and staging cells owing
  anything: so barrier cells lie below every receive cell, the receive cells of step s below those of step s + 1, and
  send and staging cells lowest.
-/
import proofs.«900732_g7700000000000733_dist_ar_v7x_xyz2x4x4_z_m1024_n512_f32_1_alg».proof.Proof.Bits.Common

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

section Tables
variable (c : Dev nD) (d : Fin 2) (s : Fin 6)

theorem duties_bar : (ringRd m).duties (barCell c) 0 = Finset.univ := by
  dsimp only [ringRd]; rw [if_pos ⟨rfl, rfl⟩]; exact if_pos rfl
theorem duties_send : (ringRd m).duties (sendCell d s c) 0 = {0} := by
  dsimp only [ringRd]; rw [if_pos ⟨rfl, rfl⟩, xferOf_send]; rfl
theorem duties_recv : (ringRd m).duties (recvCell d s c) 0 = {0} := by
  dsimp only [ringRd]; rw [if_pos ⟨rfl, rfl⟩, xferOf_recv]; rfl
theorem duties_later (g : GSem nD τ sig) : ∀ r, 1 ≤ r → (ringRd m).duties g r = ∅ :=
  fun r hr => by dsimp only [ringRd]; rw [if_neg fun h => by omega]

theorem amount_bar (dd : Fin 2) : (ringRd m).amount (barCell c) 0 dd = 1 := rfl
theorem amount_send (dd : Fin 2) : (ringRd m).amount (sendCell d s c) 0 dd = Ncr := rfl
theorem amount_recv (dd : Fin 2) : (ringRd m).amount (recvCell d s c) 0 dd = Ncr := rfl

theorem expect_bar : (ringRd m).expect (barCell c) 0 = 2 := by
  unfold Schedule.expect Schedule.amountOf
  rw [duties_bar, Finset.sum_congr rfl fun dd _ => amount_bar m c dd, Finset.sum_const, Finset.card_univ, Fintype.card_fin, smul_eq_mul]
theorem expect_send : (ringRd m).expect (sendCell d s c) 0 = Ncr := by
  unfold Schedule.expect Schedule.amountOf; rw [duties_send, Finset.sum_singleton, amount_send]
theorem expect_recv : (ringRd m).expect (recvCell d s c) 0 = Ncr := by
  unfold Schedule.expect Schedule.amountOf; rw [duties_recv, Finset.sum_singleton, amount_recv]

theorem payload_bar (dd : Fin 2) : (ringRd m).payload (barCell c) 0 dd = slotsAny (dn dd c) dd := rfl
theorem payload_send (dd : Fin 2) : (ringRd m).payload (sendCell d s c) 0 dd = chunkAt c d (sidx d s.val c) (snt m d s.val c) := by
  show payOf m c (.dma (sendS d s)) dd = _
  unfold payOf; simp only [xferOf_send]
theorem payload_recv (dd : Fin 2) : (ringRd m).payload (recvCell d s c) 0 dd = slotAt c d s (snt m d s.val (up d c)) := by
  show payOf m c (.dma (recvS d s)) dd = _
  unfold payOf; simp only [xferOf_recv]

/-- The whole of a barrier cell's round: both neighbours' slots. -/
theorem rest_bar : bigSep ((ringRd m).duties (barCell c) 0 \ ∅) (fun dd => (ringRd m).payload (barCell c) 0 dd)
    = iprop(slotsAny (dn 0 c) 0 ∗ slotsAny (dn 1 c) 1) := by
  rw [Finset.sdiff_empty, duties_bar, bigSep_univ_eq_bigSepL [0, 1] (by decide) (by decide), bigSepL_cons_cons, bigSepL_singleton]
  rfl
theorem rest_send : bigSep ((ringRd m).duties (sendCell d s c) 0 \ ∅) (fun dd => (ringRd m).payload (sendCell d s c) 0 dd)
    = chunkAt c d (sidx d s.val c) (snt m d s.val c) := by
  rw [Finset.sdiff_empty, duties_send, bigSep_singleton, payload_send]
theorem rest_recv : bigSep ((ringRd m).duties (recvCell d s c) 0 \ ∅) (fun dd => (ringRd m).payload (recvCell d s c) 0 dd)
    = slotAt c d s (snt m d s.val (up d c)) := by
  rw [Finset.sdiff_empty, duties_recv, bigSep_singleton, payload_recv]

end Tables

/-! ## What each device owes at launch -/

/-- The copies in program order: copy `i` is direction `i % 2` of step `i / 2`. -/
def dOf (i : ℕ) : Fin 2 := ⟨i % 2, Nat.mod_lt _ (by decide)⟩
def sOf (i : ℕ) : Fin 6 := ⟨i / 2 % 6, Nat.mod_lt _ (by decide)⟩

/-- The credit copy `i` of device `c` owes: one chunk's, to the receive cell of its (direction, step) downstream. -/
def copyOwes (c : Dev nD) (i : ℕ) : CellTallies nD τ sig Unit := tallyAt (recvCell (dOf i) (sOf i) (dn (dOf i) c)) () Ncr

/-- What device `c` owes for its last `n` copies (copies `12 − n … 11`), the earliest of them the last summand. -/
def owedFrom (c : Dev nD) : ℕ → CellTallies nD τ sig Unit
  | 0 => 0
  | n + 1 => owedFrom c n + copyOwes c (12 - (n + 1))

/-- After the first signal (to the neighbour below): the twelve copies and the unit for the neighbour above. -/
def O₁ (c : Dev nD) : CellTallies nD τ sig Unit := owedFrom c 12 + tallyAt (barCell (rgt c)) () 1
/-- At launch. -/
def O₀ (c : Dev nD) : CellTallies nD τ sig Unit := O₁ c + tallyAt (barCell (lft c)) () 1

theorem owedFrom_succ (c : Dev nD) (n : ℕ) : owedFrom c (n + 1) = owedFrom c n + copyOwes c (12 - (n + 1)) := rfl

/-- Whatever is owed for the last `n` copies is owed to the receive cell of one of them. -/
theorem owedFrom_pos {c : Dev nD} {n : ℕ} (hn : n ≤ 12) {g : GSem nD τ sig} {u : Unit} (h : 0 < owedFrom c n g u) :
    ∃ i, 12 - n ≤ i ∧ i < 12 ∧ g = recvCell (dOf i) (sOf i) (dn (dOf i) c) := by
  induction n with
  | zero => exact absurd h (Nat.lt_irrefl 0)
  | succ n ih =>
    rw [owedFrom_succ, Pi.add_apply, Finsupp.add_apply] at h
    by_cases h1 : 0 < owedFrom c n g u
    · obtain ⟨i, hi, hi', hg⟩ := ih (by omega) h1
      exact ⟨i, by omega, hi', hg⟩
    · have h2 : 0 < copyOwes c (12 - (n + 1)) g u := by omega
      unfold copyOwes at h2
      rw [tallyAt_apply] at h2
      by_cases hg : g = recvCell (dOf (12 - (n + 1))) (sOf (12 - (n + 1))) (dn (dOf (12 - (n + 1))) c) ∧ u = ()
      · exact ⟨12 - (n + 1), le_refl _, by omega, hg.1⟩
      · rw [if_neg hg] at h2; exact absurd h2 (Nat.lt_irrefl 0)

theorem O₀_pos {c : Dev nD} {g : GSem nD τ sig} {u : Unit} (h : 0 < O₀ c g u) :
    g = barCell (lft c) ∨ g = barCell (rgt c) ∨ ∃ i, i < 12 ∧ g = recvCell (dOf i) (sOf i) (dn (dOf i) c) := by
  unfold O₀ O₁ at h
  rw [Pi.add_apply, Finsupp.add_apply, Pi.add_apply, Finsupp.add_apply, tallyAt_apply, tallyAt_apply] at h
  by_cases h1 : 0 < owedFrom c 12 g u
  · obtain ⟨i, _, hi, hg⟩ := owedFrom_pos (le_refl 12) h1
    exact .inr (.inr ⟨i, hi, hg⟩)
  · by_contra hn
    rw [not_or, not_or] at hn
    rw [if_neg (fun h' => hn.2.1 h'.1), if_neg (fun h' => hn.1 h'.1)] at h
    omega

/-! ## The levels -/

def L (g : GSem nD τ sig) : Finset Unit := if g.1.2 = .tc then {()} else ∅
/-- Barrier cells at 1, the receive cells of step `s` at `2 + s`, every other cell at 0. -/
def lv (g : GSem nD τ sig) (_ : Unit) : ℕ :=
  match g.2 with
  | .reg _ => 1
  | .dma q => match xferOf q with
    | some (true, _, s) => 2 + s.val
    | _ => 0

theorem L_of_ne (g : GSem nD τ sig) (h : g.1.2 ≠ .tc) : L g = ∅ := if_neg h
theorem L_tc (c : Dev nD) (sm : SemLoc sig) : L ((c : Thread nD τ), sm) = {()} := if_pos rfl

private theorem lv_reg (c : Dev nD) (q : Sem sig) (u : Unit) : lv ((c : Thread nD τ), .reg q) u = 1 := rfl
private theorem lv_recv (d : Fin 2) (s : Fin 6) (c : Dev nD) (u : Unit) : lv (recvCell d s c) u = 2 + s.val := by
  unfold lv; simp only [xferOf_recv]
private theorem lv_low (c : Dev nD) (q : DmaSem sig) (hq : ∀ d s, xferOf q ≠ some (true, d, s)) (u : Unit) :
    lv ((c : Thread nD τ), .dma q) u = 0 := by
  show (match xferOf q with | some (true, _, s) => 2 + s.val | _ => 0) = 0
  split
  · next d s h => exact absurd h (hq d s)
  · rfl

omit [FloatOps F] in
/-- The cut: a device may wait on its cell `sm` when that cell's level is at most `b` and everything it owes is owed to a
    TensorCore's cell of level above `b`. -/
private theorem mayWait_of_cut (c : Dev nD) (sm : SemLoc sig) (b : ℕ) (O : CellTallies nD τ sig Unit)
    (hb : lv ((c : Thread nD τ), sm) () ≤ b)
    (hO : ∀ g u, 0 < O g u → (∃ c' : Dev nD, g.1 = (c' : Thread nD τ)) ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by
      obtain ⟨⟨c', hc'⟩, _⟩ := hO g u hg
      obtain ⟨t, sm'⟩ := g
      dsimp only at hc'; subst hc'
      rw [L_tc]; exact Finset.mem_singleton_self _)
    (fun p hp => by rw [Finset.mem_singleton.mp hp]; exact hb)
    (fun g u hg => (hO g u hg).2)

omit [FloatOps F] in
/-- A wait on a cell that is no receive cell and no regular semaphore (a send cell, a staging cell), owing anything of the launch's. -/
theorem mayWait_low (c : Dev nD) (q : DmaSem sig) (hq : ∀ d s, xferOf q ≠ some (true, d, s)) (O : CellTallies nD τ sig Unit)
    (hO : O = O₀ c ∨ ∃ n, n ≤ 12 ∧ O = owedFrom c n) :
    (levAts L lv : sProp 𝕄) ⊢ MayWait (c : Thread nD τ) (.dma q) () O := by
  refine mayWait_of_cut c (.dma q) 0 O (le_of_eq (lv_low c q hq ())) fun g u hg => ?_
  rcases hO with rfl | ⟨n, hn, rfl⟩
  · rcases O₀_pos hg with rfl | rfl | ⟨i, _, rfl⟩
    · exact ⟨⟨_, rfl⟩, by rw [lv_reg]; exact Nat.one_pos⟩
    · exact ⟨⟨_, rfl⟩, by rw [lv_reg]; exact Nat.one_pos⟩
    · exact ⟨⟨_, rfl⟩, by rw [lv_recv]; omega⟩
  · obtain ⟨i, _, _, rfl⟩ := owedFrom_pos hn hg
    exact ⟨⟨_, rfl⟩, by rw [lv_recv]; omega⟩

omit [FloatOps F] in
/-- The barrier wait, owing the twelve copies. -/
theorem mayWait_bar (c : Dev nD) : (levAts L lv : sProp 𝕄) ⊢ MayWait (c : Thread nD τ) (.reg barS) () (owedFrom c 12) := by
  refine mayWait_of_cut c (.reg barS) 1 _ (le_of_eq (lv_reg c barS ())) fun g u hg => ?_
  obtain ⟨i, _, _, rfl⟩ := owedFrom_pos (le_refl 12) hg
  exact ⟨⟨_, rfl⟩, by rw [lv_recv]; omega⟩

omit [FloatOps F] in
/-- The wait on the receive cell of (direction, step `s`), owing only copies of later steps. -/
theorem mayWait_recv (c : Dev nD) (d : Fin 2) (s : Fin 6) (n : ℕ) (hn : n + 2 * (s.val + 1) ≤ 12) :
    (levAts L lv : sProp 𝕄) ⊢ MayWait (c : Thread nD τ) (.dma (recvS d s)) () (owedFrom c n) := by
  refine mayWait_of_cut c (.dma (recvS d s)) (2 + s.val) _ (le_of_eq (lv_recv d s c ())) fun g u hg => ?_
  obtain ⟨i, hi, hi', rfl⟩ := owedFrom_pos (by omega) hg
  refine ⟨⟨_, rfl⟩, ?_⟩
  rw [lv_recv]
  show 2 + s.val < 2 + i / 2 % 6
  omega

end Cert.KernelProof

end
-- ==== Proof.Bits.Pieces.lean ====
/-
  The result block as its eight chunks and the receive buffer as its twelve slots: cutting a whole buffer into the
  pieces' assertions and putting them back, taking one chunk out of a half and returning it rewritten, and the
  body's loads and stores on a chunk or a slot read through the piece's own view.
-/
import proofs.«900732_g7700000000000733_dist_ar_v7x_xyz2x4x4_z_m1024_n512_f32_1_alg».proof.Proof.Bits.Common

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A block from its chunks -/

/-- The [1024, 512] contents whose chunk `(d, j)` is `g d j`: row `r` lies in chunk `(r / 512, r % 512 / 128)` at row `r % 128`. -/
def assemble (g : Fin 2 → Fin 4 → Vec F S128x512 .f32) : (cc0_stg1_0 : Ref sig .tc).ty.Contents (Elt F) :=
  fun (i : S1024x512.Idx) =>
    g ⟨(i 0).val / 512, by have h : (i 0).val < 1024 := (i 0).isLt; omega⟩
      ⟨(i 0).val % 512 / 128, by omega⟩
      (fun a => match a with
        | ⟨0, _⟩ => ⟨(i 0).val % 128, Nat.mod_lt _ (by decide)⟩
        | ⟨1, _⟩ => ⟨(i 1).val, (i 1).isLt⟩)

omit [FloatOps F] in
/-- Where a chunk's own index sits in the block: row `512 d + 128 j + y 0`, column `y 1`. -/
private theorem chunk_emb_row (d : Fin 2) (j : Fin 4) (y : S128x512.Idx) :
    ((chunkR d j).emb y 0).val = 512 * d.val + 128 * j.val + (y 0).val := by
  simp [Rect.emb_apply, chunkOff]
omit [FloatOps F] in
private theorem chunk_emb_col (d : Fin 2) (j : Fin 4) (y : S128x512.Idx) :
    ((chunkR d j).emb y 1).val = (y 1).val := by
  simp [Rect.emb_apply, chunkOff]

omit [FloatOps F] in
private theorem chunkV_apply (X : (cc0_stg1_0 : Ref sig .tc).ty.Contents (Elt F)) (d : Fin 2) (j : Fin 4) (y : S128x512.Idx) :
    chunkV X d j y = X ((chunkR d j).emb y) := rfl

omit [FloatOps F] in
theorem chunkV_assemble (g : Fin 2 → Fin 4 → Vec F S128x512 .f32) (d : Fin 2) (j : Fin 4) : chunkV (assemble g) d j = g d j := by
  funext y
  rw [chunkV_apply]
  have hr := chunk_emb_row d j y
  have hc := chunk_emb_col d j y
  have hy : (y 0).val < 128 := (y 0).isLt
  have hd : d.val < 2 := d.isLt
  have hj : j.val < 4 := j.isLt
  unfold assemble
  have e1 : (⟨((chunkR d j).emb y 0).val / 512, by have h : ((chunkR d j).emb y 0).val < 1024 := ((chunkR d j).emb y 0).isLt; omega⟩ : Fin 2) = d :=
    Fin.ext (by show ((chunkR d j).emb y 0).val / 512 = d.val; omega)
  have e2 : (⟨((chunkR d j).emb y 0).val % 512 / 128, by omega⟩ : Fin 4) = j :=
    Fin.ext (by show ((chunkR d j).emb y 0).val % 512 / 128 = j.val; omega)
  rw [e1, e2]
  congr 1
  funext a
  match a with
  | ⟨0, _⟩ => exact Fin.ext (by show ((chunkR d j).emb y 0).val % 128 = (y 0).val; omega)
  | ⟨1, _⟩ => exact Fin.ext hc

/-! ## The pieces' element sets -/

omit [FloatOps F] in
/-- A chunk's elements are its rectangle's; a slot's likewise (the squeeze renames indices only). -/
theorem chunk_set (d : Fin 2) (j : Fin 4) : (chunkM d j).view.set = (chunkR d j).set :=
  View.set_slice_whole cc0_stg1_0 (chunkR d j)
omit [FloatOps F] in
theorem slot_set (d : Fin 2) (s : Fin 6) : (slotM d s).view.set = (slotR d s).set :=
  (View.set_reshape (v := rM.view.slice (slotR d s)) squeezes_S1x1x128x512_S128x512.numel_eq).trans (View.set_slice_whole cc0_scratch0 (slotR d s))

omit [FloatOps F] in
/-- A slot read through the copies' view is the [1, 1, 128, 512] vector the body's loads read there, recast. -/
theorem slot_read (d : Fin 2) (s : Fin 6) (f : Buf (Elt F) ((slotM d s).view.loc ((0 : Dev nD) : Thread nD τ))) :
    (slotM d s).view.read (Elt F) f
      = shapeCast S128x512 (rM.view.readAt (Elt F) (slotR d s).toLoadRect f) shapeCasts_S1x1x128x512_S128x512 :=
  Memref.read_squeeze_slice rM (slotR d s) (fun _ => rfl) squeezes_S1x1x128x512_S128x512 shapeCasts_S1x1x128x512_S128x512 f

omit [FloatOps F] in
/-- Chunk `(d, j)` is the rows `512 d + 128 j … + 127`, every column. -/
private theorem mem_chunk {d : Fin 2} {j : Fin 4} {i : S1024x512.Idx} :
    i ∈ (chunkR d j).set ↔ 512 * d.val + 128 * j.val ≤ (i 0).val ∧ (i 0).val < 512 * d.val + 128 * j.val + 128 := by
  rw [Rect.mem_set_unit]
  constructor
  · intro h
    have h0 := h 0
    simpa [chunkOff] using h0
  · rintro ⟨h1, h2⟩ a
    match a with
    | ⟨0, _⟩ => simpa [chunkOff] using And.intro h1 h2
    | ⟨1, _⟩ =>
      have h512 : (i 1).val < 512 := (i 1).isLt
      simpa [chunkOff] using h512

omit [FloatOps F] in
/-- Slot `(d, s)` is the elements whose first two coordinates are `d` and `s`. -/
private theorem mem_slot {d : Fin 2} {s : Fin 6} {i : S2x6x128x512.Idx} :
    i ∈ (slotR d s).set ↔ (i 0).val = d.val ∧ (i 1).val = s.val := by
  rw [Rect.mem_set_unit]
  constructor
  · intro h
    have h0 := h 0
    have h1 := h 1
    simp [slotOff] at h0 h1
    omega
  · rintro ⟨h0, h1⟩ a
    match a with
    | ⟨0, _⟩ => simp [slotOff]; omega
    | ⟨1, _⟩ => simp [slotOff]; omega
    | ⟨2, _⟩ =>
      have h128 : (i 2).val < 128 := (i 2).isLt
      simpa [slotOff] using h128
    | ⟨3, _⟩ =>
      have h512 : (i 3).val < 512 := (i 3).isLt
      simpa [slotOff] using h512

omit [FloatOps F] in
private theorem chunk_disjoint (a b : Fin 2 × Fin 4) (h : a ≠ b) : Disjoint (chunkR a.1 a.2).set (chunkR b.1 b.2).set := by
  rw [Finset.disjoint_left]
  intro i hi hi'
  obtain ⟨l, u⟩ := mem_chunk.mp hi
  obtain ⟨l', u'⟩ := mem_chunk.mp hi'
  have ha := a.2.isLt
  have hb := b.2.isLt
  exact h (Prod.ext (Fin.ext (by omega)) (Fin.ext (by omega)))

omit [FloatOps F] in
private theorem chunk_cover : (Finset.univ : Finset (Fin 2 × Fin 4)).biUnion (fun a => (chunkR a.1 a.2).set) = Finset.univ := by
  ext i
  simp only [Finset.mem_biUnion, Finset.mem_univ, true_and, iff_true]
  have hi : (i 0).val < 1024 := (i 0).isLt
  refine ⟨(⟨(i 0).val / 512, by omega⟩, ⟨(i 0).val % 512 / 128, by omega⟩), mem_chunk.mpr ?_⟩
  show 512 * ((i 0).val / 512) + 128 * ((i 0).val % 512 / 128) ≤ (i 0).val ∧ (i 0).val < 512 * ((i 0).val / 512) + 128 * ((i 0).val % 512 / 128) + 128
  omega

omit [FloatOps F] in
private theorem slot_disjoint (a b : Fin 2 × Fin 6) (h : a ≠ b) : Disjoint (slotR a.1 a.2).set (slotR b.1 b.2).set := by
  rw [Finset.disjoint_left]
  intro i hi hi'
  obtain ⟨h0, h1⟩ := mem_slot.mp hi
  obtain ⟨h0', h1'⟩ := mem_slot.mp hi'
  exact h (Prod.ext (Fin.ext (h0.symm.trans h0')) (Fin.ext (h1.symm.trans h1')))

omit [FloatOps F] in
private theorem slot_cover : (Finset.univ : Finset (Fin 2 × Fin 6)).biUnion (fun a => (slotR a.1 a.2).set) = Finset.univ := by
  ext i
  simp only [Finset.mem_biUnion, Finset.mem_univ, true_and, iff_true]
  exact ⟨(⟨(i 0).val, (i 0).isLt⟩, ⟨(i 1).val, (i 1).isLt⟩), mem_slot.mpr ⟨rfl, rfl⟩⟩

/-! ## A half as its four chunks -/

/-- The four chunks of half `d` on device `c`, chunk `j` reading as `g j`. -/
def chunks (c : Dev nD) (d : Fin 2) (g : Fin 4 → Vec F S128x512 .f32) : sProp 𝕄 :=
  bigSep Finset.univ fun j : Fin 4 => chunkAt c d j (g j)
/-- All but chunk `j`. -/
def chunksBut (c : Dev nD) (d : Fin 2) (g : Fin 4 → Vec F S128x512 .f32) (j : Fin 4) : sProp 𝕄 :=
  bigSep (Finset.univ.erase j) fun j' : Fin 4 => chunkAt c d j' (g j')

omit [FloatOps F] in
theorem chunks_take (c : Dev nD) (d : Fin 2) (g : Fin 4 → Vec F S128x512 .f32) (j : Fin 4) :
    chunks c d g ⊢ iprop(chunkAt c d j (g j) ∗ chunksBut c d g j) := by
  unfold chunks chunksBut
  rw [bigSep_univ_at _ j]
omit [FloatOps F] in
theorem chunks_put (c : Dev nD) (d : Fin 2) (g : Fin 4 → Vec F S128x512 .f32) (j : Fin 4) (v : Vec F S128x512 .f32) :
    iprop(chunkAt c d j v ∗ chunksBut c d g j) ⊢ chunks c d (Function.update g j v) := by
  unfold chunks chunksBut
  rw [bigSep_univ_at (fun j' => chunkAt c d j' (Function.update g j v j')) j, Function.update_self,
    bigSep_congr (s := Finset.univ.erase j) (Φ := fun j' => chunkAt c d j' (Function.update g j v j')) (Ψ := fun j' => chunkAt c d j' (g j'))
      (fun j' hj' => by rw [Function.update_of_ne (Finset.ne_of_mem_erase hj')])]

/-! ## The whole buffers and their pieces -/

omit [FloatOps F] in
/-- The block held whole is the eight chunk rectangles held at the same contents. -/
private theorem out_eq (c : Dev nD) (X : (cc0_stg1_0 : Ref sig .tc).ty.Contents (Elt F)) :
    ((((c : Thread nD τ).loc cc0_stg1_0) ↦{fullShare} X) : sProp 𝕄)
      = bigSep Finset.univ fun a : Fin 2 × Fin 4 => (((c : Thread nD τ).loc cc0_stg1_0) ↦[(chunkR a.1 a.2).set]{fullShare} X : sProp 𝕄) := by
  have e := pointsTo_biUnion (nD := nD) (τ := τ) (sig := sig) (Ix := Unit) (Val := Elt F) (Name := ℕ) (U := UU) (Lvl := ℕ)
    (ℓ := (c : Thread nD τ).loc cc0_stg1_0) (q := fullShare) (f := X) Finset.univ (fun a : Fin 2 × Fin 4 => (chunkR a.1 a.2).set)
    (fun a _ b _ h => chunk_disjoint a b h)
  rw [chunk_cover] at e
  exact e

omit [FloatOps F] in
/-- Contents whose read through a chunk is the chunk of `X` agree with `X` on the chunk's elements. -/
private theorem chunkPts_eq (c : Dev nD) (d : Fin 2) (j : Fin 4) (f : Buf (Elt F) ((chunkM d j).view.loc (c : Thread nD τ)))
    (X : (cc0_stg1_0 : Ref sig .tc).ty.Contents (Elt F)) (h : (chunkM d j).view.read (Elt F) f = chunkV X d j) :
    chunkPts c d j f = ((((c : Thread nD τ).loc cc0_stg1_0) ↦[(chunkR d j).set]{fullShare} X) : sProp 𝕄) := by
  unfold chunkPts
  rw [chunk_set]
  refine pointsTo_congr fun i hi => ?_
  obtain ⟨y, rfl⟩ := (chunkR d j).exists_idx_of_mem hi
  exact congrFun h y

omit [FloatOps F] in
private theorem chunkAt_intro (c : Dev nD) (d : Fin 2) (j : Fin 4) (X : (cc0_stg1_0 : Ref sig .tc).ty.Contents (Elt F)) :
    ((((c : Thread nD τ).loc cc0_stg1_0) ↦[(chunkR d j).set]{fullShare} X) : sProp 𝕄) ⊢ chunkAt c d j (chunkV X d j) := by
  unfold chunkAt
  iintro H
  iexists X
  isplitr
  · ipureintro; rfl
  · iapply (Entails.of_eq (chunkPts_eq c d j X X rfl).symm) $$ H

omit [FloatOps F] in
private theorem chunkAt_elim (c : Dev nD) (d : Fin 2) (j : Fin 4) (X : (cc0_stg1_0 : Ref sig .tc).ty.Contents (Elt F)) :
    chunkAt c d j (chunkV X d j) ⊢ ((((c : Thread nD τ).loc cc0_stg1_0) ↦[(chunkR d j).set]{fullShare} X) : sProp 𝕄) := by
  unfold chunkAt
  iintro ⟨%f, %hf, H⟩
  iapply (Entails.of_eq (chunkPts_eq c d j f X hf)) $$ H

omit [FloatOps F] in
/-- The result block held whole is its eight chunks, each reading as its part. -/
theorem out_split (c : Dev nD) (X : (cc0_stg1_0 : Ref sig .tc).ty.Contents (Elt F)) :
    ((((c : Thread nD τ).loc cc0_stg1_0) ↦{fullShare} X) : sProp 𝕄) ⊢ iprop(chunks c 0 (chunkV X 0) ∗ chunks c 1 (chunkV X 1)) := by
  unfold chunks
  rw [out_eq, bigSep_univ_prod, bigSep_univ_two]
  exact BIClass.sep_mono (bigSep_mono fun j _ => chunkAt_intro c 0 j X) (bigSep_mono fun j _ => chunkAt_intro c 1 j X)
omit [FloatOps F] in
/-- Eight chunks reading as the parts of `X` are the block held whole at `X`. -/
theorem out_join (c : Dev nD) (X : (cc0_stg1_0 : Ref sig .tc).ty.Contents (Elt F)) (g₀ g₁ : Fin 4 → Vec F S128x512 .f32)
    (h₀ : ∀ j, chunkV X 0 j = g₀ j) (h₁ : ∀ j, chunkV X 1 j = g₁ j) :
    iprop(chunks c 0 g₀ ∗ chunks c 1 g₁) ⊢ ((((c : Thread nD τ).loc cc0_stg1_0) ↦{fullShare} X) : sProp 𝕄) := by
  obtain rfl : chunkV X 0 = g₀ := funext h₀
  obtain rfl : chunkV X 1 = g₁ := funext h₁
  unfold chunks
  rw [out_eq, bigSep_univ_prod, bigSep_univ_two]
  exact BIClass.sep_mono (bigSep_mono fun j _ => chunkAt_elim c 0 j X) (bigSep_mono fun j _ => chunkAt_elim c 1 j X)

omit [FloatOps F] in
theorem slotAt_any (c : Dev nD) (d : Fin 2) (s : Fin 6) (v : Vec F S128x512 .f32) : slotAt c d s v ⊢ slotAny c d s := by
  unfold slotAt slotAny
  iintro ⟨%f, %hf, H⟩
  iexists f
  iexact H
omit [FloatOps F] in
/-- The six slots of a direction one by one. -/
theorem slotsAny_six (c : Dev nD) (d : Fin 2) :
    slotsAny (F := F) c d = iprop(slotAny c d 0 ∗ slotAny c d 1 ∗ slotAny c d 2 ∗ slotAny c d 3 ∗ slotAny c d 4 ∗ slotAny c d 5) := by
  unfold slotsAny
  rw [bigSep_univ_eq_bigSepL [0, 1, 2, 3, 4, 5] (by decide) (by decide)]
  rfl
omit [FloatOps F] in
/-- The receive buffer held whole is the twelve slot rectangles held at the same contents. -/
private theorem scr_eq (c : Dev nD) (f : Buf (Elt F) ((c : Thread nD τ).loc cc0_scratch0)) :
    ((((c : Thread nD τ).loc cc0_scratch0) ↦{fullShare} f) : sProp 𝕄)
      = bigSep Finset.univ fun a : Fin 2 × Fin 6 => (((c : Thread nD τ).loc cc0_scratch0) ↦[(slotR a.1 a.2).set]{fullShare} f : sProp 𝕄) := by
  have e := pointsTo_biUnion (nD := nD) (τ := τ) (sig := sig) (Ix := Unit) (Val := Elt F) (Name := ℕ) (U := UU) (Lvl := ℕ)
    (ℓ := (c : Thread nD τ).loc cc0_scratch0) (q := fullShare) (f := f) Finset.univ (fun a : Fin 2 × Fin 6 => (slotR a.1 a.2).set)
    (fun a _ b _ h => slot_disjoint a b h)
  rw [slot_cover] at e
  exact e

omit [FloatOps F] in
private theorem slotPts_eq (c : Dev nD) (d : Fin 2) (s : Fin 6) (f : Buf (Elt F) ((slotM d s).view.loc (c : Thread nD τ))) :
    slotPts c d s f = ((((c : Thread nD τ).loc cc0_scratch0) ↦[(slotR d s).set]{fullShare} f) : sProp 𝕄) := by
  unfold slotPts
  rw [slot_set]

omit [FloatOps F] in
private theorem slotAny_intro (c : Dev nD) (d : Fin 2) (s : Fin 6) (f : Buf (Elt F) ((c : Thread nD τ).loc cc0_scratch0)) :
    ((((c : Thread nD τ).loc cc0_scratch0) ↦[(slotR d s).set]{fullShare} f) : sProp 𝕄) ⊢ slotAny c d s := by
  unfold slotAny slotPts
  iintro H
  iexists f
  rw [slot_set]
  iexact H

omit [FloatOps F] in
/-- The receive buffer held whole at some contents is its twelve slots at some contents, and back. -/
theorem slots_split (c : Dev nD) :
    (iprop(∃ f : Buf (Elt F) ((c : Thread nD τ).loc cc0_scratch0), ((c : Thread nD τ).loc cc0_scratch0) ↦{fullShare} f) : sProp 𝕄)
      ⊢ iprop(slotsAny c 0 ∗ slotsAny c 1) := by
  iintro ⟨%f, H⟩
  iapply (show ((((c : Thread nD τ).loc cc0_scratch0) ↦{fullShare} f) : sProp 𝕄) ⊢ iprop(slotsAny c 0 ∗ slotsAny c 1) from by
    unfold slotsAny
    rw [scr_eq, bigSep_univ_prod, bigSep_univ_two]
    exact BIClass.sep_mono (bigSep_mono fun s _ => slotAny_intro c 0 s f) (bigSep_mono fun s _ => slotAny_intro c 1 s f)) $$ H
omit [FloatOps F] in
/-- Twelve slots at given contents are the buffer held whole at some contents. -/
private theorem slots_join_at (c : Dev nD) (fs : Fin 2 × Fin 6 → Buf (Elt F) ((c : Thread nD τ).loc cc0_scratch0)) :
    (bigSep Finset.univ fun a : Fin 2 × Fin 6 => (((c : Thread nD τ).loc cc0_scratch0) ↦[(slotR a.1 a.2).set]{fullShare} fs a : sProp 𝕄))
      ⊢ (iprop(∃ f : Buf (Elt F) ((c : Thread nD τ).loc cc0_scratch0), ((c : Thread nD τ).loc cc0_scratch0) ↦{fullShare} f) : sProp 𝕄) := by
  have e := pointsTo_biUnion_join (nD := nD) (τ := τ) (sig := sig) (Ix := Unit) (Val := Elt F) (Name := ℕ) (U := UU) (Lvl := ℕ)
    (ℓ := (c : Thread nD τ).loc cc0_scratch0) (q := fullShare) Finset.univ (fun a : Fin 2 × Fin 6 => (slotR a.1 a.2).set) fs (fs (0, 0))
    (fun a _ b _ h => slot_disjoint a b h)
  rw [slot_cover] at e
  iintro H
  ihave H' := e $$ H
  icases H' with ⟨%g, -, Hg⟩
  iexists g
  iexact Hg

omit [FloatOps F] in
/-- Twelve slots at any contents, given that there are contents at all. -/
private theorem slots_join_of (c : Dev nD) (f0 : Buf (Elt F) ((c : Thread nD τ).loc cc0_scratch0)) :
    (bigSep Finset.univ fun a : Fin 2 × Fin 6 => slotAny (F := F) c a.1 a.2)
      ⊢ (iprop(∃ f : Buf (Elt F) ((c : Thread nD τ).loc cc0_scratch0), ((c : Thread nD τ).loc cc0_scratch0) ↦{fullShare} f) : sProp 𝕄) := by
  haveI : ∀ a : Fin 2 × Fin 6, Nonempty (Buf (Elt F) ((slotM a.1 a.2).view.loc (c : Thread nD τ))) := fun _ => ⟨f0⟩
  unfold slotAny
  refine (bigSep_exists_pi Finset.univ (fun (a : Fin 2 × Fin 6) (f : Buf (Elt F) ((slotM a.1 a.2).view.loc (c : Thread nD τ))) => slotPts c a.1 a.2 f)).trans ?_
  iintro ⟨%fs, H⟩
  iapply (slots_join_at c fs)
  iapply (Entails.of_eq (bigSep_congr (s := Finset.univ) fun (a : Fin 2 × Fin 6) _ => slotPts_eq c a.1 a.2 (fs a))) $$ H

omit [FloatOps F] in
theorem slots_join (c : Dev nD) :
    iprop(slotsAny (F := F) c 0 ∗ slotsAny c 1)
      ⊢ (iprop(∃ f : Buf (Elt F) ((c : Thread nD τ).loc cc0_scratch0), ((c : Thread nD τ).loc cc0_scratch0) ↦{fullShare} f) : sProp 𝕄) := by
  unfold slotsAny
  rw [← bigSep_univ_two (fun d : Fin 2 => bigSep Finset.univ fun s : Fin 6 => slotAny (F := F) c d s),
    ← bigSep_univ_prod (fun a : Fin 2 × Fin 6 => slotAny (F := F) c a.1 a.2)]
  iintro H
  -- one slot's contents witness that there are contents at all
  ihave H' := (Entails.of_eq (bigSep_univ_at (fun a : Fin 2 × Fin 6 => slotAny (F := F) c a.1 a.2) (0, 0))) $$ H
  icases H' with ⟨H0, Hr⟩
  unfold slotAny
  icases H0 with ⟨%f0, H0⟩
  iapply (slots_join_of c f0)
  iapply (Entails.of_eq (bigSep_univ_at (fun a : Fin 2 × Fin 6 => slotAny (F := F) c a.1 a.2) (0, 0)).symm)
  isplitl [H0]
  · unfold slotAny; iexists f0; iexact H0
  · unfold slotAny; iexact Hr

/-! ## The body's loads and stores on the pieces -/

section Access

variable {α : Type} {Q : α → sProp (MT nD τ sig Unit (Elt F) ℕ UU ℕ)} (c : Dev nD)

omit [FloatOps F] in
/-- The elements a load through the whole receive buffer at a slot's rectangle reads are the slot's. -/
private theorem slot_setOn (d : Fin 2) (s : Fin 6) : rM.view.setOn (slotR d s).toLoadRect.set = (slotM d s).view.set := by
  rw [slot_set]
  exact Finset.map_refl

/-- The accumulate of one step: the chunk loaded, the slot loaded, the chunk loaded again (the store's own read), and
    the chunk stored at `pay` of the first two, which is the chunk plus the slot. -/
theorem wp_accum (d : Fin 2) (j : Fin 4) (s : Fin 6) (a v : Vec F S128x512 .f32)
    {off₁ off₃ off₄ : Fin 2 → Nat} (h₁ : off₁ = chunkOff d j) (h₃ : off₃ = chunkOff d j) (h₄ : off₄ = chunkOff d j)
    {inb₁ : ∀ x, off₁ x + S128x512.size x ≤ S1024x512.size x} {inb₃ : ∀ x, off₃ x + S128x512.size x ≤ S1024x512.size x}
    {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₁ : oM.view.LoadsAt (Rect.unit (s := S1024x512) off₁ S128x512.size inb₁).toLoadRect}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S128x512 .f32 → Vec F S1x1x128x512 .f32 → FVec F S128x512 .f32)
    (hpay : ∀ x w, pay x w = acc x (shapeCast S128x512 w shapeCasts_S1x1x128x512_S128x512))
    {k : PUnit → Prog (TpuEff nD τ sig (Elt F) Λ₀ .tc) α} :
    iprop(chunkAt c d j a ∗ slotAt c d s v)
      ⊢ iprop(((chunkAt c d j (acc a v) ∗ slotAt c d s v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x512) off₁ S128x512.size inb₁).toLoadRect hl₁) fun x =>
                .op (.load rM (Rect.unit (s := S2x6x128x512) off₂ S1x1x128x512.size inb₂).toLoadRect hl₂) fun w =>
                  .op (.load oM (Rect.unit (s := S1024x512) off₃ S128x512.size inb₃).toLoadRect hl₃) fun _ =>
                    .op (.store oM (Rect.unit (s := S1024x512) off₄ S128x512.size inb₄) (pay x w) Finset.univ hx hm) k) Q) := by
  subst h₁ h₂ h₃ h₄
  unfold chunkAt slotAt chunkPts slotPts
  iintro ⟨⟨%f, %hf, Hc⟩, ⟨%g, %hg, Hs⟩⟩ Hk
  -- the chunk read, then the slot, then the chunk again
  iapply (wp_load_rect 𝒱₀ (c : Thread nD τ) none Set.univ (m := oM) (r := chunkR d j) (S := (chunkM d j).view.set) (q := fullShare) (f := f)
    (Finset.Subset.refl _)) $$ Hc
  iintro Hc
  iapply (wp_load 𝒱₀ (c : Thread nD τ) none Set.univ (m := rM) (r := (slotR d s).toLoadRect) (S := (slotM d s).view.set) (q := fullShare) (f := g)
    (slot_setOn d s).subset) $$ Hs
  iintro Hs
  iapply (wp_load_rect 𝒱₀ (c : Thread nD τ) none Set.univ (m := oM) (r := chunkR d j) (S := (chunkM d j).view.set) (q := fullShare) (f := f)
    (Finset.Subset.refl _)) $$ Hc
  iintro Hc
  -- the store of the sum over the whole chunk
  iapply (wp_store 𝒱₀ (c : Thread nD τ) none Set.univ (m := oM) (r := chunkR d j) (Mk := Finset.univ) (S := (chunkM d j).view.set) (f := f)
    (Finset.Subset.refl _)) $$ Hc
  iintro Hc
  iapply Hk
  isplitl [Hc]
  · iexists ((oM.access (chunkR d j)).write (Elt F) f (pay ((oM.access (chunkR d j)).read (Elt F) f) (rM.view.readAt (Elt F) (slotR d s).toLoadRect g)) Finset.univ)
    isplitr
    · ipureintro
      show (oM.access (chunkR d j)).read (Elt F) ((oM.access (chunkR d j)).write (Elt F) f (pay ((oM.access (chunkR d j)).read (Elt F) f) (rM.view.readAt (Elt F) (slotR d s).toLoadRect g)) Finset.univ) = acc a v
      rw [View.read_write_univ, hpay, ← slot_read d s g, hg]
      exact congrArg (fun x => acc x v) hf
    · iexact Hc
  · iexists g
    isplitr
    · ipureintro; exact hg
    · iexact Hs

/-- The replacement of one step: the slot loaded, the chunk loaded (the store's own read), the chunk stored at `pay` of
    the slot, which is the slot recast. -/
theorem wp_replace (d : Fin 2) (j : Fin 4) (s : Fin 6) (a v : Vec F S128x512 .f32)
    {off₃ off₄ : Fin 2 → Nat} (h₃ : off₃ = chunkOff d j) (h₄ : off₄ = chunkOff d j)
    {inb₃ : ∀ x, off₃ x + S128x512.size x ≤ S1024x512.size x} {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S1x1x128x512 .f32 → FVec F S128x512 .f32)
    (hpay : ∀ w, pay w = shapeCast S128x512 w shapeCasts_S1x1x128x512_S128x512)
    {k : PUnit → Prog (TpuEff nD τ sig (Elt F) Λ₀ .tc) α} :
    iprop(chunkAt c d j a ∗ slotAt c d s v)
      ⊢ iprop(((chunkAt c d j v ∗ slotAt c d s v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load rM (Rect.unit (s := S2x6x128x512) off₂ S1x1x128x512.size inb₂).toLoadRect hl₂) fun w =>
                .op (.load oM (Rect.unit (s := S1024x512) off₃ S128x512.size inb₃).toLoadRect hl₃) fun _ =>
                  .op (.store oM (Rect.unit (s := S1024x512) off₄ S128x512.size inb₄) (pay w) Finset.univ hx hm) k) Q) := by
  subst h₂ h₃ h₄
  unfold chunkAt slotAt chunkPts slotPts
  iintro ⟨⟨%f, %hf, Hc⟩, ⟨%g, %hg, Hs⟩⟩ Hk
  iapply (wp_load 𝒱₀ (c : Thread nD τ) none Set.univ (m := rM) (r := (slotR d s).toLoadRect) (S := (slotM d s).view.set) (q := fullShare) (f := g)
    (slot_setOn d s).subset) $$ Hs
  iintro Hs
  iapply (wp_load_rect 𝒱₀ (c : Thread nD τ) none Set.univ (m := oM) (r := chunkR d j) (S := (chunkM d j).view.set) (q := fullShare) (f := f)
    (Finset.Subset.refl _)) $$ Hc
  iintro Hc
  iapply (wp_store 𝒱₀ (c : Thread nD τ) none Set.univ (m := oM) (r := chunkR d j) (Mk := Finset.univ) (S := (chunkM d j).view.set) (f := f)
    (Finset.Subset.refl _)) $$ Hc
  iintro Hc
  iapply Hk
  isplitl [Hc]
  · iexists ((oM.access (chunkR d j)).write (Elt F) f (pay (rM.view.readAt (Elt F) (slotR d s).toLoadRect g)) Finset.univ)
    isplitr
    · ipureintro
      show (oM.access (chunkR d j)).read (Elt F) ((oM.access (chunkR d j)).write (Elt F) f (pay (rM.view.readAt (Elt F) (slotR d s).toLoadRect g)) Finset.univ) = v
      rw [View.read_write_univ, hpay, ← slot_read d s g, hg]
    · iexact Hc
  · iexists g
    isplitr
    · ipureintro; exact hg
    · iexact Hs

end Access

end Cert.KernelProof

end
-- ==== Proof.Bits.Inv.lean ====
/-
  What a device's body starts from and ends with. Every device holds, persistently, the invariant of every cell of
  every device and that each has reached its one round. Linearly it holds its own position on each of its 25 cells,
  the tokens of the duties it pays (a barrier unit to each neighbour; for each of its twelve copies its own send duty
  and the receive duty downstream), and the credit to wait with on the cells other devices pay (its barrier, its
  twelve receive cells). It ends with the receive buffer whole again and its 24 DMA semaphores closed at zero.
-/
import proofs.«900732_g7700000000000733_dist_ar_v7x_xyz2x4x4_z_m1024_n512_f32_1_alg».proof.Proof.Bits.Schedule
import proofs.«900732_g7700000000000733_dist_ar_v7x_xyz2x4x4_z_m1024_n512_f32_1_alg».proof.Proof.Bits.Pieces

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-! ## The cells of one device, numbered: the barrier, the twelve send cells, the twelve receive cells -/

abbrev csem (k : Fin 25) : SemLoc sig :=
  if k.val = 0 then .reg barS else .dma ⟨k.val + 1, by have h : k.val < 25 := k.isLt; show k.val + 1 < 26; omega⟩
abbrev kcell (ck : Dev nD × Fin 25) : GSem nD τ sig := ((ck.1 : Thread nD τ), csem ck.2)
def sendIx (d : Fin 2) (s : Fin 6) : Fin 25 := ⟨1 + 6 * d.val + s.val, by omega⟩
def recvIx (d : Fin 2) (s : Fin 6) : Fin 25 := ⟨13 + 6 * d.val + s.val, by omega⟩

theorem csem_bar : csem 0 = .reg barS := rfl
theorem csem_send : ∀ (d : Fin 2) (s : Fin 6), csem (sendIx d s) = .dma (sendS d s) := by decide
theorem csem_recv : ∀ (d : Fin 2) (s : Fin 6), csem (recvIx d s) = .dma (recvS d s) := by decide

/-! ## What every device holds persistently -/

/-- Every cell's invariant, under the names the launch allocated them at, and that every cell has reached round 0. -/
def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

instance records_persistent (K : Dev nD × Fin 25 → ℕ) : BI.Persistent (records m K) := by unfold records; infer_instance

theorem inv_bar (K : Dev nD × Fin 25 → ℕ) (c : Dev nD) : records m K ⊢ cellInv ER (ringRd m) (K (c, 0)) (barCell c) := by
  unfold records; exact (Idealize.SL.BI.sep_and.trans Idealize.SL.BI.and_elimL).trans (bigSep_elim (Finset.mem_univ (c, (0 : Fin 25))))
theorem inv_send (K : Dev nD × Fin 25 → ℕ) (d : Fin 2) (s : Fin 6) (c : Dev nD) :
    records m K ⊢ cellInv ER (ringRd m) (K (c, sendIx d s)) (sendCell d s c) := by
  rw [show sendCell d s c = kcell (c, sendIx d s) from (congrArg (Prod.mk (c : Thread nD τ)) (csem_send d s)).symm]
  unfold records; exact (Idealize.SL.BI.sep_and.trans Idealize.SL.BI.and_elimL).trans (bigSep_elim (Finset.mem_univ (c, sendIx d s)))
theorem inv_recv (K : Dev nD × Fin 25 → ℕ) (d : Fin 2) (s : Fin 6) (c : Dev nD) :
    records m K ⊢ cellInv ER (ringRd m) (K (c, recvIx d s)) (recvCell d s c) := by
  rw [show recvCell d s c = kcell (c, recvIx d s) from (congrArg (Prod.mk (c : Thread nD τ)) (csem_recv d s)).symm]
  unfold records; exact (Idealize.SL.BI.sep_and.trans Idealize.SL.BI.and_elimL).trans (bigSep_elim (Finset.mem_univ (c, recvIx d s)))
theorem reached_bar (K : Dev nD × Fin 25 → ℕ) (c : Dev nD) : records m K ⊢ reached ER (barCell c) 0 := by
  unfold records; exact (Idealize.SL.BI.sep_and.trans Idealize.SL.BI.and_elimR).trans (bigSep_elim (Finset.mem_univ (c, (0 : Fin 25))))
theorem reached_send (K : Dev nD × Fin 25 → ℕ) (d : Fin 2) (s : Fin 6) (c : Dev nD) : records m K ⊢ reached ER (sendCell d s c) 0 := by
  rw [show sendCell d s c = kcell (c, sendIx d s) from (congrArg (Prod.mk (c : Thread nD τ)) (csem_send d s)).symm]
  unfold records; exact (Idealize.SL.BI.sep_and.trans Idealize.SL.BI.and_elimR).trans (bigSep_elim (Finset.mem_univ (c, sendIx d s)))
theorem reached_recv (K : Dev nD × Fin 25 → ℕ) (d : Fin 2) (s : Fin 6) (c : Dev nD) : records m K ⊢ reached ER (recvCell d s c) 0 := by
  rw [show recvCell d s c = kcell (c, recvIx d s) from (congrArg (Prod.mk (c : Thread nD τ)) (csem_recv d s)).symm]
  unfold records; exact (Idealize.SL.BI.sep_and.trans Idealize.SL.BI.and_elimR).trans (bigSep_elim (Finset.mem_univ (c, recvIx d s)))

/-! ## What a device holds linearly at the start of its body -/

/-- For the entry handshake: the position on its barrier cell, the two tokens it signals with, the credit to wait for 2. -/
def barRes (c : Dev nD) : sProp 𝕄 :=
  iprop(atPos ER (barCell c) 0 ∅ 0 ∗ dutyTok ER (barCell (lft c)) 0 0 ∗ dutyTok ER (barCell (rgt c)) 0 1 ∗ cred (tallyAt (barCell c) () 2))
/-- For the copy of (direction, step): the positions on its send and receive cells, the tokens of its own send duty and
    of the receive duty downstream, the credit to wait on its receive cell. -/
def xferRes (c : Dev nD) (d : Fin 2) (s : Fin 6) : sProp 𝕄 :=
  iprop(atPos ER (sendCell d s c) 0 ∅ 0 ∗ atPos ER (recvCell d s c) 0 ∅ 0 ∗ dutyTok ER (sendCell d s c) 0 0
    ∗ dutyTok ER (recvCell d s (dn d c)) 0 0 ∗ cred (tallyAt (recvCell d s c) () Ncr))

def ghost (K : Dev nD × Fin 25 → ℕ) (c : Dev nD) : sProp 𝕄 :=
  iprop(records m K ∗ barRes c ∗ bigSep Finset.univ fun ds : Fin 2 × Fin 6 => xferRes c ds.1 ds.2)

def start (c : Dev nD) : sProp 𝕄 := iprop((∃ K, ghost m K c) ∗ levAts L lv)

/-- Before the point: the ghost state and the receive buffer at any contents. -/
def Φ₀ (c : Dev nD) : sProp 𝕄 :=
  iprop(start m c ∗ ∃ f : Buf (Elt F) ((c : Thread nD τ).loc cc0_scratch0), ((c : Thread nD τ).loc cc0_scratch0) ↦{fullShare} f)
/-- The 24 DMA semaphores of the device, closed at zero. -/
def closedSems (c : Dev nD) : sProp 𝕄 :=
  bigSep Finset.univ fun ds : Fin 2 × Fin 6 => iprop(semVal (sendCell ds.1 ds.2 c) 0 ∗ semVal (recvCell ds.1 ds.2 c) 0)
/-- After the point: the receive buffer whole at some contents, the DMA semaphores closed. -/
def Φ₁ (c : Dev nD) : sProp 𝕄 :=
  iprop((∃ f : Buf (Elt F) ((c : Thread nD τ).loc cc0_scratch0), ((c : Thread nD τ).loc cc0_scratch0) ↦{fullShare} f) ∗ closedSems c)

/-! ## The pipeline's proof data -/

/-- The result block when the body ends: chunk `(d, j)` is `st m d 6 c j`. -/
def outAt (c : Dev nD) : (cc0_stg1_0 : Ref sig .tc).ty.Contents (Elt F) := assemble fun d j => st m d 6 c j

theorem chunkV_outAt (c : Dev nD) (d : Fin 2) (j : Fin 4) : chunkV (outAt m c) d j = st m d 6 c j := chunkV_assemble _ d j

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with, the names of the cells' invariants fixed. -/
def bodyPre (K : Dev nD × Fin 25 → ℕ) (c : Dev nD) : sProp 𝕄 :=
  iprop((ghost m K c ∗ levAts L lv ∗ ∃ f : Buf (Elt F) ((c : Thread nD τ).loc cc0_scratch0), ((c : Thread nD τ).loc cc0_scratch0) ↦{fullShare} f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m c) ∗ stg c cc0_stg1_0 (outAt m c))

end Cert.KernelProof

end
-- ==== Proof.Bits.Steps.lean ====
/-
  The kernel's statements as rules over the ring's schedule, for any direction `d` and step `s`: the entry handshake
  (a unit to each neighbour with the slots it will write, the wait for both neighbours' units and their slots); the copy
  of a step (the chunk this step sends leaves its half for the send cell, the slot downstream for the receive cell
  there); and the step's completion (the source chunk back, the upstream neighbour's chunk landed, both cells closed,
  and the chunk this step receives into rewritten: summed with what landed, or replaced by it), stated on the half
  as the values' recursion `st` describes it.
-/
import proofs.«900732_g7700000000000733_dist_ar_v7x_xyz2x4x4_z_m1024_n512_f32_1_alg».proof.Proof.Bits.Inv

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Mem F)

section Steps

variable {α : Type} {Q : α → sProp (MT nD τ sig Unit (Elt F) ℕ UU ℕ)} (K : Dev nD × Fin 25 → ℕ) (c : Dev nD)

/-- What is left of a copy's resources between its enqueue and its completion: the two positions, the credit on its
    receive cell (from launch) and on its send cell (from the enqueue). -/
def xferMid (c : Dev nD) (d : Fin 2) (s : Fin 6) : sProp 𝕄 :=
  iprop(atPos ER (sendCell d s c) 0 ∅ 0 ∗ atPos ER (recvCell d s c) 0 ∅ 0 ∗ cred (tallyAt (recvCell d s c) () Ncr)
    ∗ cred (tallyAt (sendCell d s c) () Ncr))

/-- Direction 0 goes up the ring, direction 1 down it. -/
theorem dn_zero (c : Dev nD) : dn 0 c = rgt c := rfl
theorem dn_one (c : Dev nD) : dn 1 c = lft c := rfl

/-- The entry handshake: a unit to the neighbour below with this device's direction-0 slots, a unit to the neighbour
    above with its direction-1 slots, and the wait for both neighbours' units, which bring the slots this device writes. -/
theorem wp_entry (n₁ n₂ : Dev nD) (hn₁ : n₁ = lft c) (hn₂ : n₂ = rgt c) {k₁ k₂ kw : ℕ} (hk₁ : 1 = k₁) (hk₂ : 1 = k₂) (hkw : 2 = kw)
    {k : PUnit → Prog (TpuEff nD τ sig (Elt F) Λ₀ .tc) α} {W : Waits sig Unit} :
    iprop(records m K ∗ levAts L lv ∗ barRes c ∗ slotsAny c 0 ∗ slotsAny c 1 ∗ owes (c : Thread nD τ) (O₀ c) W)
      ⊢ iprop(((owes (c : Thread nD τ) (owedFrom c 12) (insert (SemLoc.reg barS, ()) W) ∗ slotsAny (rgt c) 0 ∗ slotsAny (lft c) 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n₁ : Dev nD) : Thread nD τ) barS k₁) fun _ =>
                .op (.semSignal ((n₂ : Dev nD) : Thread nD τ) barS k₂) fun _ =>
                  .op (.semWait barS kw) k) Q) := by
  subst hn₁ hn₂ hk₁ hk₂ hkw
  unfold barRes
  iintro ⟨#Hrec, #Hlev, ⟨HatB, HtL, HtR, HcB⟩, Hs0, Hs1, HO⟩ Hk
  ihave #HIB := (inv_bar m K c) $$ Hrec
  ihave #HIL := (inv_bar m K (lft c)) $$ Hrec
  ihave #HIR := (inv_bar m K (rgt c)) $$ Hrec
  ihave #HrL := (reached_bar m K (lft c)) $$ Hrec
  ihave #HrR := (reached_bar m K (rgt c)) $$ Hrec
  -- the unit to the neighbour below: duty 0 of its barrier cell, paid with this device's direction-0 slots
  iapply (Rounds.wp_signal 𝒱₀ ER (ringRd m) (c : Thread nD τ) none (dst := ((lft c : Dev nD) : Thread nD τ)) (κ := K (lft c, 0))
      (r := 0) (d := (0 : Fin 2)) (by rw [duties_bar]; exact Finset.mem_univ _) (amount_bar m (lft c) 0) () (O₁ c) rfl)
    $$ [HO HtL Hs0]
  · isplitr; · iexact HIL
    isplitl [HO]; · iexact HO
    isplitl [HtL]; · iexact HtL
    isplitl [Hs0]
    · rw [payload_bar, dn_zero, rgt_lft]; iexact Hs0
    · iexact HrL
  iintro HO
  -- the unit to the neighbour above: duty 1 of its barrier cell, paid with this device's direction-1 slots
  iapply (Rounds.wp_signal 𝒱₀ ER (ringRd m) (c : Thread nD τ) none (dst := ((rgt c : Dev nD) : Thread nD τ)) (κ := K (rgt c, 0))
      (r := 0) (d := (1 : Fin 2)) (by rw [duties_bar]; exact Finset.mem_univ _) (amount_bar m (rgt c) 1) () (owedFrom c 12) rfl)
    $$ [HO HtR Hs1]
  · isplitr; · iexact HIR
    isplitl [HO]; · iexact HO
    isplitl [HtR]; · iexact HtR
    isplitl [Hs1]
    · rw [payload_bar, dn_one, lft_rgt]; iexact Hs1
    · iexact HrR
  iintro HO
  -- the wait for both neighbours' units, owing the twelve copies: their slots come with the units
  iapply (Rounds.wp_wait_rest_token 𝒱₀ ER (ringRd m) (c : Thread nD τ) none (κ := K (c, 0))
      (wpE_semWait_eq 𝒱₀ (c : Thread nD τ) none Set.univ) (Set.mem_univ _) () (O := owedFrom c 12) (W := W) (R := 0) (m := 0) (T := ∅)
      (by rw [expect_bar])) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [dn_zero, dn_one]
  icases Hp with ⟨Hr0, Hl1⟩
  iapply Hk
  isplitl [HO]; · iexact HO
  isplitl [Hr0]; · iexact Hr0
  iexact Hl1

/-- The copy of (direction `d`, step `s`), the `(12 − (rem + 1))`-th of the device's twelve: the chunk it sends leaves the
    half, the slot downstream is handed over. -/
theorem wp_send_step (d : Fin 2) (s : Fin 6) (n : Dev nD) (hn : n = dn d c) (rem : ℕ) (hd : dOf (12 - (rem + 1)) = d) (hs : sOf (12 - (rem + 1)) = s)
    {off : Fin 2 → Nat} (hoff : off = chunkOff d (sidx d s.val c)) {inb : ∀ x, off x + S128x512.size x ≤ S1024x512.size x}
    {offd : Fin 4 → Nat} (hoffd : offd = slotOff d s) {inbd : ∀ x, offd x + S1x1x128x512.size x ≤ S2x6x128x512.size x}
    {qs qr : DmaSem sig} (hqs : qs = sendS d s) (hqr : qr = recvS d s)
    {hsl : ∀ a, (Rect.unit (s := S1024x512) off S128x512.size inb).stride a = 1}
    {hsld : ∀ a, (Rect.unit (s := S2x6x128x512) offd S1x1x128x512.size inbd).stride a = 1}
    {hsc : (((rM.slice (Rect.unit (s := S2x6x128x512) offd S1x1x128x512.size inbd) hsld).squeeze S128x512 squeezes_S1x1x128x512_S128x512 :
        Memref sig (Dev.tc n : Thread nD τ).2.kind .vmem S128x512 .f32)).view.ref.isScScratch = false}
    {hsrc : (oM.slice (Rect.unit (s := S1024x512) off S128x512.size inb) hsl).view.WordExact}
    {hdst : ((rM.slice (Rect.unit (s := S2x6x128x512) offd S1x1x128x512.size inbd) hsld).squeeze S128x512 squeezes_S1x1x128x512_S128x512).view.WordExact}
    {hsem : DmaTarget.Typed .vmem (.dma qr) (.remote (Dev.tc n : Thread nD τ)
        ((rM.slice (Rect.unit (s := S2x6x128x512) offd S1x1x128x512.size inbd) hsld).squeeze S128x512 squeezes_S1x1x128x512_S128x512) (.dma qs) hsc)}
    {k : PUnit → Prog (TpuEff nD τ sig (Elt F) Λ₀ .tc) α} {W : Waits sig Unit} :
    iprop(records m K ∗ chunks c d (st m d s.val c) ∗ slotAny (dn d c) d s ∗ owes (c : Thread nD τ) (owedFrom c (rem + 1)) W ∗ xferRes c d s)
      ⊢ iprop(((chunksBut c d (st m d s.val c) (sidx d s.val c) ∗ owes (c : Thread nD τ) (owedFrom c rem) W ∗ xferMid c d s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S1024x512) off S128x512.size inb) hsl)
                (.remote (Dev.tc n : Thread nD τ)
                  ((rM.slice (Rect.unit (s := S2x6x128x512) offd S1x1x128x512.size inbd) hsld).squeeze S128x512 squeezes_S1x1x128x512_S128x512)
                  (.dma qs) hsc) (.dma qr) hsrc hdst hsem) k) Q) := by
  subst hn hoff hoffd hqs hqr
  unfold xferRes xferMid
  iintro ⟨#Hrec, Hch, Hslot, HO, ⟨HatS, HatR, HtS, HtR, HcR⟩⟩ Hk
  ihave #HIS := (inv_send m K d s c) $$ Hrec
  ihave #HIR := (inv_recv m K d s (dn d c)) $$ Hrec
  ihave #HrS := (reached_send m K d s c) $$ Hrec
  ihave #HrR := (reached_recv m K d s (dn d c)) $$ Hrec
  -- the chunk this step sends leaves the half
  ihave Hch := (chunks_take c d (st m d s.val c) (sidx d s.val c)) $$ Hch
  icases Hch with ⟨Hc, Hbut⟩
  unfold chunkAt slotAny
  icases Hc with ⟨%fs, %hfs, Hc⟩
  icases Hslot with ⟨%fd, Hslot⟩
  unfold chunkPts slotPts
  have hO : owedFrom c (rem + 1) = owedFrom c rem + tallyAt (recvCell d s (dn d c)) () Ncr := by
    rw [owedFrom_succ]; unfold copyOwes; rw [hd, hs]
  iapply (Rounds.wp_send_pointsTo 𝒱₀ ER (ringRd m) (c : Thread nD τ) none (c' := ((dn d c : Dev nD) : Thread nD τ))
      (κ₁ := K (c, sendIx d s)) (κ₂ := K (dn d c, recvIx d s)) (r₁ := 0) (r₂ := 0) (d₁ := (0 : Fin 2)) (d₂ := (0 : Fin 2))
      (q := fullShare) (fs := fs) (fd := fd)
      (by rw [duties_send]; exact Finset.mem_singleton_self _) (by rw [duties_recv]; exact Finset.mem_singleton_self _)
      () () Ncr rfl (amount_send m c d s 0) (amount_recv m (dn d c) d s 0) (owedFrom c rem) hO (W := W)
      (by
        rw [payload_send]; unfold chunkAt chunkPts
        iintro H
        iexists fs
        isplitr; · ipureintro; exact hfs
        iexact H)
      (by
        rw [payload_recv, up_dn]; unfold slotAt slotPts
        iintro H
        iexists ((slotM d s).view.write (Elt F) fd ((chunkM d (sidx d s.val c)).view.read (Elt F) fs) Finset.univ)
        isplitr
        · ipureintro; rw [View.read_write_univ]; exact hfs
        iexact H))
    $$ [Hc Hslot HO HtS HtR]
  · isplitr; · iexact HIS
    isplitr; · iexact HIR
    isplitl [Hc]; · iexact Hc
    isplitl [Hslot]; · iexact Hslot
    isplitl [HO]; · iexact HO
    isplitl [HtS]; · iexact HtS
    isplitr; · iexact HrS
    isplitl [HtR]; · iexact HtR
    iexact HrR
  iintro ⟨HcS, HO⟩
  iapply Hk
  isplitl [Hbut]; · iexact Hbut
  isplitl [HO]; · iexact HO
  isplitl [HatS]; · iexact HatS
  isplitl [HatR]; · iexact HatR
  isplitl [HcR]; · iexact HcR
  iexact HcS

/-- The completion of (direction `d`, step `s`) for `s < 3`: the wait on the send cell (the chunk sent comes back), the wait
    on the receive cell (what upstream sent has landed), both cells closed, and the accumulate into chunk `sidx d (s + 1) c`. -/
theorem wp_finish_acc (d : Fin 2) (s : Fin 6) (hs3 : s.val < 3) (rem : ℕ) (hrem : rem + 2 * (s.val + 1) ≤ 12)
    {q₁ q₂ : DmaSem sig} (hq₁ : q₁ = sendS d s) (hq₂ : q₂ = recvS d s)
    {sp₁ sp₂ : Space} {s₁ s₂ : Shape} {e₁ e₂ : EltTy} {src₁ : Memref sig .tc sp₁ s₁ e₁} {src₂ : Memref sig .tc sp₂ s₂ e₂}
    {κ₁ κ₂ : Idealize.ShloMosaic.Kind} {dst₁ : Memref sig κ₁ .vmem S128x512 .f32} {dst₂ : Memref sig κ₂ .vmem S128x512 .f32}
    (hc₁ : dst₁.view.dmaCredit = Ncr) (hc₂ : dst₂.view.dmaCredit = Ncr)
    {hsrc₁ : src₁.view.WordExact} {hdst₁ : dst₁.view.WordExact} {hsrc₂ : src₂.view.WordExact} {hdst₂ : dst₂.view.WordExact}
    {off₁ off₃ off₄ : Fin 2 → Nat} (h₁ : off₁ = chunkOff d (sidx d (s.val + 1) c)) (h₃ : off₃ = chunkOff d (sidx d (s.val + 1) c))
    (h₄ : off₄ = chunkOff d (sidx d (s.val + 1) c))
    {inb₁ : ∀ x, off₁ x + S128x512.size x ≤ S1024x512.size x} {inb₃ : ∀ x, off₃ x + S128x512.size x ≤ S1024x512.size x}
    {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₁ : oM.view.LoadsAt (Rect.unit (s := S1024x512) off₁ S128x512.size inb₁).toLoadRect}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S128x512 .f32 → Vec F S1x1x128x512 .f32 → FVec F S128x512 .f32)
    (hpay : ∀ x w, pay x w = acc x (shapeCast S128x512 w shapeCasts_S1x1x128x512_S128x512))
    {k : PUnit → Prog (TpuEff nD τ sig (Elt F) Λ₀ .tc) α} {W : Waits sig Unit} :
    iprop(records m K ∗ levAts L lv ∗ chunksBut c d (st m d s.val c) (sidx d s.val c) ∗ owes (c : Thread nD τ) (owedFrom c rem) W ∗ xferMid c d s)
      ⊢ iprop(((chunks c d (st m d (s.val + 1) c) ∗ slotAt c d s (snt m d s.val (up d c))
              ∗ owes (c : Thread nD τ) (owedFrom c rem) (insert (SemLoc.dma (recvS d s), ()) (insert (SemLoc.dma (sendS d s), ()) W))
              ∗ semVal (sendCell d s c) 0 ∗ semVal (recvCell d s c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q₁ src₁ dst₁ hsrc₁ hdst₁) fun _ =>
                .op (.waitDma2 q₂ src₂ dst₂ hsrc₂ hdst₂) fun _ =>
                  .op (.load oM (Rect.unit (s := S1024x512) off₁ S128x512.size inb₁).toLoadRect hl₁) fun x =>
                    .op (.load rM (Rect.unit (s := S2x6x128x512) off₂ S1x1x128x512.size inb₂).toLoadRect hl₂) fun w =>
                      .op (.load oM (Rect.unit (s := S1024x512) off₃ S128x512.size inb₃).toLoadRect hl₃) fun _ =>
                        .op (.store oM (Rect.unit (s := S1024x512) off₄ S128x512.size inb₄) (pay x w) Finset.univ hx hm) k) Q) := by
  subst hq₁ hq₂
  rw [st_succ, if_pos hs3]
  unfold xferMid
  iintro ⟨#Hrec, #Hlev, Hbut, HO, ⟨HatS, HatR, HcR, HcS⟩⟩ Hk
  ihave #HIS := (inv_send m K d s c) $$ Hrec
  ihave #HIR := (inv_recv m K d s c) $$ Hrec
  have hw₁ : ∀ Kk : PUnit → sProp 𝕄, wpE (defs₀ (F := F)) 𝒱₀ (c : Thread nD τ) none Set.univ (.waitDma2 (sendS d s) src₁ dst₁ hsrc₁ hdst₁) Kk
      = waitSpec (c : Thread nD τ) Set.univ (.dma (sendS d s)) Ncr Kk := fun Kk => by
    have h := wpE_waitDma2_eq (defs := defs₀ (F := F)) 𝒱₀ (c : Thread nD τ) none Set.univ (sem := sendS d s) (src := src₁) (dst := dst₁)
      (hsrc := hsrc₁) (hdst := hdst₁) Kk
    rw [hc₁] at h; exact h
  have hw₂ : ∀ Kk : PUnit → sProp 𝕄, wpE (defs₀ (F := F)) 𝒱₀ (c : Thread nD τ) none Set.univ (.waitDma2 (recvS d s) src₂ dst₂ hsrc₂ hdst₂) Kk
      = waitSpec (c : Thread nD τ) Set.univ (.dma (recvS d s)) Ncr Kk := fun Kk => by
    have h := wpE_waitDma2_eq (defs := defs₀ (F := F)) 𝒱₀ (c : Thread nD τ) none Set.univ (sem := recvS d s) (src := src₂) (dst := dst₂)
      (hsrc := hsrc₂) (hdst := hdst₂) Kk
    rw [hc₂] at h; exact h
  have hlow : ∀ d' s', xferOf (sendS d s) ≠ some (true, d', s') := fun d' s' h => by
    rw [xferOf_send] at h; exact Bool.noConfusion (Prod.mk.inj (Option.some.inj h)).1
  have hself : Function.update (st m d s.val c) (sidx d s.val c) (snt m d s.val c) = st m d s.val c := Function.update_eq_self _ _
  -- the wait on the send cell: the chunk sent comes back
  iapply (Rounds.wp_wait_rest_token 𝒱₀ ER (ringRd m) (c : Thread nD τ) none (κ := K (c, sendIx d s))
      hw₁ (Set.mem_univ _) () (O := owedFrom c rem) (W := W) (R := 0) (m := 0) (T := ∅)
      (by rw [Nat.zero_add, expect_send])) $$ [HcS HO HatS]
  · isplitr; · iexact HIS
    isplitl [HcS]; · iexact HcS
    isplitl [HO]; · iexact HO
    isplitr
    · iapply (mayWait_low c (sendS d s) hlow (owedFrom c rem) (Or.inr ⟨rem, by omega, rfl⟩)); iexact Hlev
    iexact HatS
  iintro ⟨HO, HatS, -, Hpay⟩
  ihave Hc := (Entails.of_eq (rest_send m c d s)) $$ Hpay
  imod (Rounds.cell_close ER (ringRd m) (Set.mem_univ (K (c, sendIx d s))) (fun h => h) (R := 0 + 1) (duties_later m (sendCell d s c))) $$ [HatS] with HzS
  · isplitr; · iexact HIS
    iexact HatS
  ihave Hch := (chunks_put c d (st m d s.val c) (sidx d s.val c) (snt m d s.val c)) $$ [Hc Hbut]
  · isplitl [Hc]; · iexact Hc
    iexact Hbut
  rw [hself]
  -- the wait on the receive cell, owing only later steps' copies: what upstream sent has landed
  iapply (Rounds.wp_wait_rest_token 𝒱₀ ER (ringRd m) (c : Thread nD τ) none (κ := K (c, recvIx d s))
      hw₂ (Set.mem_univ _) () (O := owedFrom c rem) (W := insert (SemLoc.dma (sendS d s), ()) W) (R := 0) (m := 0) (T := ∅)
      (by rw [Nat.zero_add, expect_recv])) $$ [HcR HO HatR]
  · isplitr; · iexact HIR
    isplitl [HcR]; · iexact HcR
    isplitl [HO]; · iexact HO
    isplitr
    · iapply (mayWait_recv c d s rem hrem); iexact Hlev
    iexact HatR
  iintro ⟨HO, HatR, -, Hpay⟩
  ihave Hsl := (Entails.of_eq (rest_recv m c d s)) $$ Hpay
  imod (Rounds.cell_close ER (ringRd m) (Set.mem_univ (K (c, recvIx d s))) (fun h => h) (R := 0 + 1) (duties_later m (recvCell d s c))) $$ [HatR] with HzR
  · isplitr; · iexact HIR
    iexact HatR
  -- the chunk this step receives into, summed with what landed
  ihave Hch' := (chunks_take c d (st m d s.val c) (sidx d (s.val + 1) c)) $$ Hch
  icases Hch' with ⟨Hc', Hbut'⟩
  iapply (wp_accum c d (sidx d (s.val + 1) c) s (st m d s.val c (sidx d (s.val + 1) c)) (snt m d s.val (up d c)) h₁ h₃ h₄ h₂ pay hpay) $$ [Hc' Hsl]
  · isplitl [Hc']; · iexact Hc'
    iexact Hsl
  iintro ⟨Hc', Hsl⟩
  ihave Hnew := (chunks_put c d (st m d s.val c) (sidx d (s.val + 1) c) (acc (st m d s.val c (sidx d (s.val + 1) c)) (snt m d s.val (up d c)))) $$ [Hc' Hbut']
  · isplitl [Hc']; · iexact Hc'
    iexact Hbut'
  iapply Hk
  isplitl [Hnew]; · iexact Hnew
  isplitl [Hsl]; · iexact Hsl
  isplitl [HO]; · iexact HO
  isplitl [HzS]; · iexact HzS
  iexact HzR

/-- The completion of (direction `d`, step `s`) for `3 ≤ s`: as above, the chunk received into replaced by what landed. -/
theorem wp_finish_rep (d : Fin 2) (s : Fin 6) (hs3 : 3 ≤ s.val) (rem : ℕ) (hrem : rem + 2 * (s.val + 1) ≤ 12)
    {q₁ q₂ : DmaSem sig} (hq₁ : q₁ = sendS d s) (hq₂ : q₂ = recvS d s)
    {sp₁ sp₂ : Space} {s₁ s₂ : Shape} {e₁ e₂ : EltTy} {src₁ : Memref sig .tc sp₁ s₁ e₁} {src₂ : Memref sig .tc sp₂ s₂ e₂}
    {κ₁ κ₂ : Idealize.ShloMosaic.Kind} {dst₁ : Memref sig κ₁ .vmem S128x512 .f32} {dst₂ : Memref sig κ₂ .vmem S128x512 .f32}
    (hc₁ : dst₁.view.dmaCredit = Ncr) (hc₂ : dst₂.view.dmaCredit = Ncr)
    {hsrc₁ : src₁.view.WordExact} {hdst₁ : dst₁.view.WordExact} {hsrc₂ : src₂.view.WordExact} {hdst₂ : dst₂.view.WordExact}
    {off₃ off₄ : Fin 2 → Nat} (h₃ : off₃ = chunkOff d (sidx d (s.val + 1) c)) (h₄ : off₄ = chunkOff d (sidx d (s.val + 1) c))
    {inb₃ : ∀ x, off₃ x + S128x512.size x ≤ S1024x512.size x} {inb₄ : ∀ x, off₄ x + S128x512.size x ≤ S1024x512.size x}
    {off₂ : Fin 4 → Nat} (h₂ : off₂ = slotOff d s) {inb₂ : ∀ x, off₂ x + S1x1x128x512.size x ≤ S2x6x128x512.size x}
    {hl₂ : rM.view.LoadsAt (Rect.unit (s := S2x6x128x512) off₂ S1x1x128x512.size inb₂).toLoadRect}
    {hl₃ : oM.view.LoadsAt (Rect.unit (s := S1024x512) off₃ S128x512.size inb₃).toLoadRect}
    {hx : (oM.access (Rect.unit (s := S1024x512) off₄ S128x512.size inb₄)).Stores Finset.univ}
    {hm : (Finset.univ : Finset (Rect.unit (s := S1024x512) off₄ S128x512.size inb₄).shape.Idx) = Finset.univ ∨ ∀ x, (Rect.unit (s := S1024x512) off₄ S128x512.size inb₄).stride x = 1}
    (pay : Vec F S1x1x128x512 .f32 → FVec F S128x512 .f32)
    (hpay : ∀ w, pay w = shapeCast S128x512 w shapeCasts_S1x1x128x512_S128x512)
    {k : PUnit → Prog (TpuEff nD τ sig (Elt F) Λ₀ .tc) α} {W : Waits sig Unit} :
    iprop(records m K ∗ levAts L lv ∗ chunksBut c d (st m d s.val c) (sidx d s.val c) ∗ owes (c : Thread nD τ) (owedFrom c rem) W ∗ xferMid c d s)
      ⊢ iprop(((chunks c d (st m d (s.val + 1) c) ∗ slotAt c d s (snt m d s.val (up d c))
              ∗ owes (c : Thread nD τ) (owedFrom c rem) (insert (SemLoc.dma (recvS d s), ()) (insert (SemLoc.dma (sendS d s), ()) W))
              ∗ semVal (sendCell d s c) 0 ∗ semVal (recvCell d s c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q₁ src₁ dst₁ hsrc₁ hdst₁) fun _ =>
                .op (.waitDma2 q₂ src₂ dst₂ hsrc₂ hdst₂) fun _ =>
                  .op (.load rM (Rect.unit (s := S2x6x128x512) off₂ S1x1x128x512.size inb₂).toLoadRect hl₂) fun w =>
                    .op (.load oM (Rect.unit (s := S1024x512) off₃ S128x512.size inb₃).toLoadRect hl₃) fun _ =>
                      .op (.store oM (Rect.unit (s := S1024x512) off₄ S128x512.size inb₄) (pay w) Finset.univ hx hm) k) Q) := by
  subst hq₁ hq₂
  rw [st_succ, if_neg (not_lt.mpr hs3)]
  unfold xferMid
  iintro ⟨#Hrec, #Hlev, Hbut, HO, ⟨HatS, HatR, HcR, HcS⟩⟩ Hk
  ihave #HIS := (inv_send m K d s c) $$ Hrec
  ihave #HIR := (inv_recv m K d s c) $$ Hrec
  have hw₁ : ∀ Kk : PUnit → sProp 𝕄, wpE (defs₀ (F := F)) 𝒱₀ (c : Thread nD τ) none Set.univ (.waitDma2 (sendS d s) src₁ dst₁ hsrc₁ hdst₁) Kk
      = waitSpec (c : Thread nD τ) Set.univ (.dma (sendS d s)) Ncr Kk := fun Kk => by
    have h := wpE_waitDma2_eq (defs := defs₀ (F := F)) 𝒱₀ (c : Thread nD τ) none Set.univ (sem := sendS d s) (src := src₁) (dst := dst₁)
      (hsrc := hsrc₁) (hdst := hdst₁) Kk
    rw [hc₁] at h; exact h
  have hw₂ : ∀ Kk : PUnit → sProp 𝕄, wpE (defs₀ (F := F)) 𝒱₀ (c : Thread nD τ) none Set.univ (.waitDma2 (recvS d s) src₂ dst₂ hsrc₂ hdst₂) Kk
      = waitSpec (c : Thread nD τ) Set.univ (.dma (recvS d s)) Ncr Kk := fun Kk => by
    have h := wpE_waitDma2_eq (defs := defs₀ (F := F)) 𝒱₀ (c : Thread nD τ) none Set.univ (sem := recvS d s) (src := src₂) (dst := dst₂)
      (hsrc := hsrc₂) (hdst := hdst₂) Kk
    rw [hc₂] at h; exact h
  have hlow : ∀ d' s', xferOf (sendS d s) ≠ some (true, d', s') := fun d' s' h => by
    rw [xferOf_send] at h; exact Bool.noConfusion (Prod.mk.inj (Option.some.inj h)).1
  have hself : Function.update (st m d s.val c) (sidx d s.val c) (snt m d s.val c) = st m d s.val c := Function.update_eq_self _ _
  -- the wait on the send cell: the chunk sent comes back
  iapply (Rounds.wp_wait_rest_token 𝒱₀ ER (ringRd m) (c : Thread nD τ) none (κ := K (c, sendIx d s))
      hw₁ (Set.mem_univ _) () (O := owedFrom c rem) (W := W) (R := 0) (m := 0) (T := ∅)
      (by rw [Nat.zero_add, expect_send])) $$ [HcS HO HatS]
  · isplitr; · iexact HIS
    isplitl [HcS]; · iexact HcS
    isplitl [HO]; · iexact HO
    isplitr
    · iapply (mayWait_low c (sendS d s) hlow (owedFrom c rem) (Or.inr ⟨rem, by omega, rfl⟩)); iexact Hlev
    iexact HatS
  iintro ⟨HO, HatS, -, Hpay⟩
  ihave Hc := (Entails.of_eq (rest_send m c d s)) $$ Hpay
  imod (Rounds.cell_close ER (ringRd m) (Set.mem_univ (K (c, sendIx d s))) (fun h => h) (R := 0 + 1) (duties_later m (sendCell d s c))) $$ [HatS] with HzS
  · isplitr; · iexact HIS
    iexact HatS
  ihave Hch := (chunks_put c d (st m d s.val c) (sidx d s.val c) (snt m d s.val c)) $$ [Hc Hbut]
  · isplitl [Hc]; · iexact Hc
    iexact Hbut
  rw [hself]
  -- the wait on the receive cell, owing only later steps' copies: what upstream sent has landed
  iapply (Rounds.wp_wait_rest_token 𝒱₀ ER (ringRd m) (c : Thread nD τ) none (κ := K (c, recvIx d s))
      hw₂ (Set.mem_univ _) () (O := owedFrom c rem) (W := insert (SemLoc.dma (sendS d s), ()) W) (R := 0) (m := 0) (T := ∅)
      (by rw [Nat.zero_add, expect_recv])) $$ [HcR HO HatR]
  · isplitr; · iexact HIR
    isplitl [HcR]; · iexact HcR
    isplitl [HO]; · iexact HO
    isplitr
    · iapply (mayWait_recv c d s rem hrem); iexact Hlev
    iexact HatR
  iintro ⟨HO, HatR, -, Hpay⟩
  ihave Hsl := (Entails.of_eq (rest_recv m c d s)) $$ Hpay
  imod (Rounds.cell_close ER (ringRd m) (Set.mem_univ (K (c, recvIx d s))) (fun h => h) (R := 0 + 1) (duties_later m (recvCell d s c))) $$ [HatR] with HzR
  · isplitr; · iexact HIR
    iexact HatR
  -- the chunk this step receives into, replaced by what landed
  ihave Hch' := (chunks_take c d (st m d s.val c) (sidx d (s.val + 1) c)) $$ Hch
  icases Hch' with ⟨Hc', Hbut'⟩
  iapply (wp_replace c d (sidx d (s.val + 1) c) s (st m d s.val c (sidx d (s.val + 1) c)) (snt m d s.val (up d c)) h₃ h₄ h₂ pay hpay) $$ [Hc' Hsl]
  · isplitl [Hc']; · iexact Hc'
    iexact Hsl
  iintro ⟨Hc', Hsl⟩
  ihave Hnew := (chunks_put c d (st m d s.val c) (sidx d (s.val + 1) c) (snt m d s.val (up d c))) $$ [Hc' Hbut']
  · isplitl [Hc']; · iexact Hc'
    iexact Hbut'
  iapply Hk
  isplitl [Hnew]; · iexact Hnew
  isplitl [Hsl]; · iexact Hsl
  isplitl [HO]; · iexact HO
  isplitl [HzS]; · iexact HzS
  iexact HzR

end Steps

end Cert.KernelProof

end
-- ==== Proof.Bits.Body.lean ====
/-
  One device's body, from what the launch hands it to what the point leaves: the entry handshake; the input block copied
  into the result block; then six steps, each of which starts the two copies (one chunk up the ring, one down) and
  completes them in turn — the chunk sent comes back, the neighbour's chunk lands, and the chunk received into is
  summed with it (steps 0–2) or replaced by it (steps 3–5). The halves are carried as the values' recursion describes
  them, so that after step 5 the result block's chunk (d, j) is `st m d 6 c j`.
-/
import proofs.«900732_g7700000000000733_dist_ar_v7x_xyz2x4x4_z_m1024_n512_f32_1_alg».proof.Proof.Bits.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev r0 : Rect S1024x512 := Rect.unit (s := S1024x512) ![0, 0] S1024x512.size inb_S1024x512_S1024x512_0_0

omit [FloatOps F] in
theorem hz : (![0, 0] : Fin 2 → Nat) = fun _ => 0 := funext fun a => by fin_cases a <;> rfl
omit [FloatOps F] in
/-- The input block read whole is its contents; the result block written whole is what was written. -/
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1024x512 .f32).access r0 : View sig .tc _ _ _).write (Elt F) f w Finset.univ = w :=
  Memref.write_access_unit_zero_univ (Elt F) cc0_stg1_0 hz _ f w

omit [FloatOps F] in
/-- The twelve (direction, step) pairs one by one. -/
theorem bigSep_pairs (Φ : Fin 2 × Fin 6 → sProp 𝕄) :
    bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5)) := by
  rw [bigSep_univ_eq_bigSepL [((0 : Fin 2), (0 : Fin 6)), ((0 : Fin 2), (1 : Fin 6)), ((0 : Fin 2), (2 : Fin 6)), ((0 : Fin 2), (3 : Fin 6)), ((0 : Fin 2), (4 : Fin 6)), ((0 : Fin 2), (5 : Fin 6)), ((1 : Fin 2), (0 : Fin 6)), ((1 : Fin 2), (1 : Fin 6)), ((1 : Fin 2), (2 : Fin 6)), ((1 : Fin 2), (3 : Fin 6)), ((1 : Fin 2), (4 : Fin 6)), ((1 : Fin 2), (5 : Fin 6))] (by decide) (by decide)]
  simp only [bigSepL_cons_cons, bigSepL_singleton]
  rfl

/-- Owing nothing, whatever waits are on record, is what the point must end with. -/
theorem owesAt_last (c : Dev nD) (W' : Waits sig Unit) :
    (owes (c : Thread nD τ) (owedFrom c 0) W' : sProp 𝕄) ⊢ (dats m ρ 0 c).owesAt () t0_0.succ := by
  unfold Dat.owesAt Pipeline.owesWithin
  rw [show (dats m ρ 0 c).owed t0_0.succ = 0 from rfl]
  iintro H
  iexists W'
  isplitr; · ipureintro; exact fun _ _ => Or.inl trivial
  iexact H

/-- The halves as the block's first store leaves them are the recursion's start. -/
theorem chunkV_out0 (c : Dev nD) (d : Fin 2) : chunkV (out0 m c) d = st m d 0 c := rfl

/-- `out_split` at the block as the first store leaves it, spelt through the store's own view. -/
theorem out_split_stored (c : Dev nD) :
    ((((oM : Memref sig .tc .vmem S1024x512 .f32).access r0).loc (c : Thread nD τ) ↦{fullShare} (k0_pay2 (xstg m c) : (cc0_stg1_0 : Ref sig .tc).ty.Contents (Elt F))) : sProp 𝕄)
      ⊢ iprop(chunks c 0 (st m 0 0 c) ∗ chunks c 1 (st m 1 0 c)) :=
  out_split c (out0 m c)

/-- Hands a five-part premise `R ∗ A ∗ B ∗ C ∗ D` over from the named hypotheses, `R` persistent. -/
macro "iframe_send" r:ident a:ident b:ident c:ident d:ident : tactic =>
  `(tactic| (isplitr; iexact $r; isplitl [$a]; iexact $a; isplitl [$b]; iexact $b; isplitl [$c]; iexact $c; iexact $d))
/-- The same with the first two parts persistent. -/
macro "iframe_fin" r:ident l:ident a:ident b:ident c:ident : tactic =>
  `(tactic| (isplitr; iexact $r; isplitr; iexact $l; isplitl [$a]; iexact $a; isplitl [$b]; iexact $b; iexact $c))

set_option maxRecDepth 65536 in
set_option maxHeartbeats 8000000 in
/-- The body, from `bodyPre` to `bodyPost`. -/
theorem sound_body (K : Dev nD × Fin 25 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre ghost
  iintro ⟨⟨⟨⟨#HR, Hbar, Hxf⟩, #Hlev, Hscr⟩, Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  -- the receive buffer as its slots; the copies' resources one by one
  ihave Hsl := (slots_split c) $$ Hscr
  icases Hsl with ⟨Hs0, Hs1⟩
  ihave Hxf' := (Entails.of_eq (bigSep_pairs fun ds : Fin 2 × Fin 6 => xferRes c ds.1 ds.2)) $$ Hxf
  icases Hxf' with ⟨X00, X01, X02, X03, X04, X05, X10, X11, X12, X13, X14, X15⟩
  -- the entry handshake
  iapply (wp_entry m K c _ _ (dev1_eq c) (dev2_eq c) rfl rfl rfl) $$ [HO Hbar Hs0 Hs1]
  · isplitr; · iexact HR
    isplitr; · iexact Hlev
    isplitl [Hbar]; · iexact Hbar
    isplitl [Hs0]; · iexact Hs0
    isplitl [Hs1]; · iexact Hs1
    iexact HO
  iintro ⟨HO, HsR, HsL⟩
  ihave HsR' := (Entails.of_eq (slotsAny_six (rgt c) 0)) $$ HsR
  icases HsR' with ⟨D00, D01, D02, D03, D04, D05⟩
  ihave HsL' := (Entails.of_eq (slotsAny_six (lft c) 1)) $$ HsL
  icases HsL' with ⟨D10, D11, D12, D13, D14, D15⟩
  -- the input block copied into the result block
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  ihave Hch := (out_split_stored m c) $$ Hout
  icases Hch with ⟨C0, C1⟩
  -- step 0: chunks z (up) and z (down) leave; chunks z − 1 and z + 1 are summed with what lands
  iapply (wp_send_step m K c 0 0 _ (dev3_eq c) 11 rfl rfl (off1_eq c 0) rfl rfl rfl) $$ [C0 D00 HO X00]
  · iframe_send HR C0 D00 HO X00
  iintro ⟨B0, HO, M0⟩
  iapply (wp_send_step m K c 1 0 _ (dev4_eq c) 10 rfl rfl (off1_eq c 1) rfl rfl rfl) $$ [C1 D10 HO X10]
  · iframe_send HR C1 D10 HO X10
  iintro ⟨B1, HO, M1⟩
  iapply (wp_finish_acc m K c 0 0 (by decide) 10 (by decide) rfl rfl (by rfl) (by rfl) (off2_eq c 0) (off2_eq c 0) (off2_eq c 0) rfl k0_pay3 pay3_eq) $$ [B0 HO M0]
  · iframe_fin HR Hlev B0 HO M0
  iintro ⟨C0, R00, HO, ZS00, ZR00⟩
  iapply (wp_finish_acc m K c 1 0 (by decide) 10 (by decide) rfl rfl (by rfl) (by rfl) (off2_eq c 1) (off2_eq c 1) (off2_eq c 1) rfl k0_pay4 pay4_eq) $$ [B1 HO M1]
  · iframe_fin HR Hlev B1 HO M1
  iintro ⟨C1, R10, HO, ZS10, ZR10⟩
  -- step 1
  iapply (wp_send_step m K c 0 1 _ (dev5_eq c) 9 rfl rfl (off1_eq c 2) rfl rfl rfl) $$ [C0 D01 HO X01]
  · iframe_send HR C0 D01 HO X01
  iintro ⟨B0, HO, M0⟩
  iapply (wp_send_step m K c 1 1 _ (dev6_eq c) 8 rfl rfl (off1_eq c 3) rfl rfl rfl) $$ [C1 D11 HO X11]
  · iframe_send HR C1 D11 HO X11
  iintro ⟨B1, HO, M1⟩
  iapply (wp_finish_acc m K c 0 1 (by decide) 8 (by decide) rfl rfl (by rfl) (by rfl) (off2_eq c 2) (off2_eq c 2) (off2_eq c 2) rfl k0_pay5 pay5_eq) $$ [B0 HO M0]
  · iframe_fin HR Hlev B0 HO M0
  iintro ⟨C0, R01, HO, ZS01, ZR01⟩
  iapply (wp_finish_acc m K c 1 1 (by decide) 8 (by decide) rfl rfl (by rfl) (by rfl) (off2_eq c 3) (off2_eq c 3) (off2_eq c 3) rfl k0_pay6 pay6_eq) $$ [B1 HO M1]
  · iframe_fin HR Hlev B1 HO M1
  iintro ⟨C1, R11, HO, ZS11, ZR11⟩
  -- step 2: after it one chunk of each half holds the sum over the ring
  iapply (wp_send_step m K c 0 2 _ (dev7_eq c) 7 rfl rfl (off1_eq c 4) rfl rfl rfl) $$ [C0 D02 HO X02]
  · iframe_send HR C0 D02 HO X02
  iintro ⟨B0, HO, M0⟩
  iapply (wp_send_step m K c 1 2 _ (dev8_eq c) 6 rfl rfl (off1_eq c 5) rfl rfl rfl) $$ [C1 D12 HO X12]
  · iframe_send HR C1 D12 HO X12
  iintro ⟨B1, HO, M1⟩
  iapply (wp_finish_acc m K c 0 2 (by decide) 6 (by decide) rfl rfl (by rfl) (by rfl) (off2_eq c 4) (off2_eq c 4) (off2_eq c 4) rfl k0_pay7 pay7_eq) $$ [B0 HO M0]
  · iframe_fin HR Hlev B0 HO M0
  iintro ⟨C0, R02, HO, ZS02, ZR02⟩
  iapply (wp_finish_acc m K c 1 2 (by decide) 6 (by decide) rfl rfl (by rfl) (by rfl) (off2_eq c 5) (off2_eq c 5) (off2_eq c 5) rfl (fun x w => k0_pay9 (k0_pay8 x) w) (fun _ _ => rfl)) $$ [B1 HO M1]
  · iframe_fin HR Hlev B1 HO M1
  iintro ⟨C1, R12, HO, ZS12, ZR12⟩
  -- step 3: from here on what lands replaces the chunk it lands at
  iapply (wp_send_step m K c 0 3 _ (dev9_eq c) 5 rfl rfl (off1_eq c 6) rfl rfl rfl) $$ [C0 D03 HO X03]
  · iframe_send HR C0 D03 HO X03
  iintro ⟨B0, HO, M0⟩
  iapply (wp_send_step m K c 1 3 _ (dev10_eq c) 4 rfl rfl (off1_eq c 7) rfl rfl rfl) $$ [C1 D13 HO X13]
  · iframe_send HR C1 D13 HO X13
  iintro ⟨B1, HO, M1⟩
  iapply (wp_finish_rep m K c 0 3 (by decide) 4 (by decide) rfl rfl (by rfl) (by rfl) (off2_eq c 6) (off2_eq c 6) rfl k0_pay10 (fun _ => rfl)) $$ [B0 HO M0]
  · iframe_fin HR Hlev B0 HO M0
  iintro ⟨C0, R03, HO, ZS03, ZR03⟩
  iapply (wp_finish_rep m K c 1 3 (by decide) 4 (by decide) rfl rfl (by rfl) (by rfl) (off2_eq c 7) (off2_eq c 7) rfl k0_pay11 (fun _ => rfl)) $$ [B1 HO M1]
  · iframe_fin HR Hlev B1 HO M1
  iintro ⟨C1, R13, HO, ZS13, ZR13⟩
  -- step 4
  iapply (wp_send_step m K c 0 4 _ (dev11_eq c) 3 rfl rfl (off1_eq c 8) rfl rfl rfl) $$ [C0 D04 HO X04]
  · iframe_send HR C0 D04 HO X04
  iintro ⟨B0, HO, M0⟩
  iapply (wp_send_step m K c 1 4 _ (dev12_eq c) 2 rfl rfl (off1_eq c 9) rfl rfl rfl) $$ [C1 D14 HO X14]
  · iframe_send HR C1 D14 HO X14
  iintro ⟨B1, HO, M1⟩
  iapply (wp_finish_rep m K c 0 4 (by decide) 2 (by decide) rfl rfl (by rfl) (by rfl) (off2_eq c 8) (off2_eq c 8) rfl k0_pay12 (fun _ => rfl)) $$ [B0 HO M0]
  · iframe_fin HR Hlev B0 HO M0
  iintro ⟨C0, R04, HO, ZS04, ZR04⟩
  iapply (wp_finish_rep m K c 1 4 (by decide) 2 (by decide) rfl rfl (by rfl) (by rfl) (off2_eq c 9) (off2_eq c 9) rfl k0_pay13 (fun _ => rfl)) $$ [B1 HO M1]
  · iframe_fin HR Hlev B1 HO M1
  iintro ⟨C1, R14, HO, ZS14, ZR14⟩
  -- step 5
  iapply (wp_send_step m K c 0 5 _ (dev13_eq c) 1 rfl rfl (off1_eq c 10) rfl rfl rfl) $$ [C0 D05 HO X05]
  · iframe_send HR C0 D05 HO X05
  iintro ⟨B0, HO, M0⟩
  iapply (wp_send_step m K c 1 5 _ (dev14_eq c) 0 rfl rfl (off1_eq c 11) rfl rfl rfl) $$ [C1 D15 HO X15]
  · iframe_send HR C1 D15 HO X15
  iintro ⟨B1, HO, M1⟩
  iapply (wp_finish_rep m K c 0 5 (by decide) 0 (by decide) rfl rfl (by rfl) (by rfl) (off2_eq c 10) (off2_eq c 10) rfl k0_pay14 (fun _ => rfl)) $$ [B0 HO M0]
  · iframe_fin HR Hlev B0 HO M0
  iintro ⟨C0, R05, HO, ZS05, ZR05⟩
  iapply (wp_finish_rep m K c 1 5 (by decide) 0 (by decide) rfl rfl (by rfl) (by rfl) (off2_eq c 11) (off2_eq c 11) rfl k0_pay1 (fun _ => rfl)) $$ [B1 HO M1]
  · iframe_fin HR Hlev B1 HO M1
  iintro ⟨C1, R15, HO, ZS15, ZR15⟩
  -- the receive buffer whole again: every slot has landed and been read
  ihave A00 := (slotAt_any c 0 0 _) $$ R00
  ihave A01 := (slotAt_any c 0 1 _) $$ R01
  ihave A02 := (slotAt_any c 0 2 _) $$ R02
  ihave A03 := (slotAt_any c 0 3 _) $$ R03
  ihave A04 := (slotAt_any c 0 4 _) $$ R04
  ihave A05 := (slotAt_any c 0 5 _) $$ R05
  ihave A10 := (slotAt_any c 1 0 _) $$ R10
  ihave A11 := (slotAt_any c 1 1 _) $$ R11
  ihave A12 := (slotAt_any c 1 2 _) $$ R12
  ihave A13 := (slotAt_any c 1 3 _) $$ R13
  ihave A14 := (slotAt_any c 1 4 _) $$ R14
  ihave A15 := (slotAt_any c 1 5 _) $$ R15
  ihave Hs0 := (Entails.of_eq (slotsAny_six c 0).symm) $$ [A00 A01 A02 A03 A04 A05]
  · isplitl [A00]; · iexact A00
    isplitl [A01]; · iexact A01
    isplitl [A02]; · iexact A02
    isplitl [A03]; · iexact A03
    isplitl [A04]; · iexact A04
    iexact A05
  ihave Hs1 := (Entails.of_eq (slotsAny_six c 1).symm) $$ [A10 A11 A12 A13 A14 A15]
  · isplitl [A10]; · iexact A10
    isplitl [A11]; · iexact A11
    isplitl [A12]; · iexact A12
    isplitl [A13]; · iexact A13
    isplitl [A14]; · iexact A14
    iexact A15
  ihave Hscr := (slots_join c) $$ [Hs0 Hs1]
  · isplitl [Hs0] <;> iassumption
  -- the 24 DMA semaphores closed at zero
  ihave Hz := (Entails.of_eq (bigSep_pairs fun ds : Fin 2 × Fin 6 => iprop(semVal (sendCell ds.1 ds.2 c) 0 ∗ semVal (recvCell ds.1 ds.2 c) 0)).symm)
    $$ [ZS00 ZR00 ZS01 ZR01 ZS02 ZR02 ZS03 ZR03 ZS04 ZR04 ZS05 ZR05 ZS10 ZR10 ZS11 ZR11 ZS12 ZR12 ZS13 ZR13 ZS14 ZR14 ZS15 ZR15]
  · isplitl [ZS00 ZR00]; · (isplitl [ZS00] <;> iassumption)
    isplitl [ZS01 ZR01]; · (isplitl [ZS01] <;> iassumption)
    isplitl [ZS02 ZR02]; · (isplitl [ZS02] <;> iassumption)
    isplitl [ZS03 ZR03]; · (isplitl [ZS03] <;> iassumption)
    isplitl [ZS04 ZR04]; · (isplitl [ZS04] <;> iassumption)
    isplitl [ZS05 ZR05]; · (isplitl [ZS05] <;> iassumption)
    isplitl [ZS10 ZR10]; · (isplitl [ZS10] <;> iassumption)
    isplitl [ZS11 ZR11]; · (isplitl [ZS11] <;> iassumption)
    isplitl [ZS12 ZR12]; · (isplitl [ZS12] <;> iassumption)
    isplitl [ZS13 ZR13]; · (isplitl [ZS13] <;> iassumption)
    isplitl [ZS14 ZR14]; · (isplitl [ZS14] <;> iassumption)
    isplitl [ZS15] <;> iassumption
  -- the result block whole: its chunks are the recursion's end
  ihave Hout := (out_join c (outAt m c) (st m 0 6 c) (st m 1 6 c) (fun j => chunkV_outAt m c 0 j) (fun j => chunkV_outAt m c 1 j)) $$ [C0 C1]
  · isplitl [C0]; · iexact C0
    iexact C1
  rw [wp_ret]; imodintro
  iapply Hk
  unfold bodyPost Φ₁ closedSems
  isplitl [Hscr Hz]
  · isplitl [Hscr]; · iexact Hscr
    iexact Hz
  isplitl [HO]
  · iapply (owesAt_last m ρ c _); iexact HO
  isplitl [Hx]
  · iexists _; isplitr; · (ipureintro; rfl)
    iexact Hx
  iexists _; isplitr; · (ipureintro; rfl)
  iexact Hout

set_option maxRecDepth 8000 in
/-- What the point is entered with, as the pipeline library states it. -/
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 8000 in
/-- The pipeline library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hlev⟩, Hscr⟩, Ho, Hx, Hout⟩
  iapply (sound_body m ρ K c fun _ => bodyPost m ρ c)
  unfold bodyPre
  isplitr []
  · isplitl [Hg Hlev Hscr]
    · isplitl [Hg]; · iexact Hg
      isplitl [Hlev]; · iexact Hlev
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof

end
-- ==== Proof.Bits.LaunchCred.lean ====
/-
  The credit each device is dealt at launch, and the levels of the pipeline's own staging waits. Summed over the
  ring, the units owed to a device's barrier cell are two (one from each neighbour) and the credit owed to its
  receive cell of (direction, step) is one chunk's (from the neighbour upstream in that direction).
-/
import proofs.«900732_g7700000000000733_dist_ar_v7x_xyz2x4x4_z_m1024_n512_f32_1_alg».proof.Proof.Bits.Inv

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

namespace LC

/-! ## Which cell is which -/

theorem dma_ne_reg (q : DmaSem sig) (r : Sem sig) : (SemLoc.dma q : SemLoc sig) ≠ .reg r := fun h => by cases h

/-- Distinct (direction, step) pairs have distinct receive semaphores. -/
theorem recvSem_inj : Function.Injective (fun ds : Fin 2 × Fin 6 => (SemLoc.dma (recvS ds.1 ds.2) : SemLoc sig)) := by
  rintro ⟨d, s⟩ ⟨d', s'⟩ h
  have h' : (recvS d s).val = (recvS d' s').val := congrArg (fun q : DmaSem sig => q.val) (SemLoc.dma.inj h)
  rw [recvS_val, recvS_val] at h'
  have h1 := s.isLt; have h2 := s'.isLt; have h3 := d.isLt; have h4 := d'.isLt
  exact Prod.ext (Fin.ext (show d.val = d'.val by omega)) (Fin.ext (show s.val = s'.val by omega))

theorem bar_eq_iff {a b : Dev nD} : Iff (barCell a = barCell b) (a = b) :=
  ⟨fun h => Fin.ext (congrArg (fun g : GSem nD τ sig => g.1.1.val) h), fun h => h ▸ rfl⟩

theorem recvCell_eq_iff {d d' : Fin 2} {s s' : Fin 6} {c c' : Dev nD} :
    Iff (recvCell d s c = recvCell d' s' c') (d = d' ∧ s = s' ∧ c = c') := by
  constructor
  · intro h
    have h1 : c = c' := Fin.ext (congrArg (fun g : GSem nD τ sig => g.1.1.val) h)
    have h2 : ((d, s) : Fin 2 × Fin 6) = (d', s') := recvSem_inj (congrArg Prod.snd h)
    exact ⟨congrArg Prod.fst h2, congrArg Prod.snd h2, h1⟩
  · rintro ⟨rfl, rfl, rfl⟩; rfl

/-! ## What one device owes one cell -/

/-- Nothing of the twelve copies is owed to a barrier cell. -/
theorem owedFrom_bar (d' c : Dev nD) : owedFrom d' 12 (barCell c) () = 0 :=
  Nat.eq_zero_of_not_pos fun h => by
    obtain ⟨i, _, _, hg⟩ := owedFrom_pos (le_refl 12) h
    exact dma_ne_reg _ _ (congrArg Prod.snd hg).symm

/-- Copy i of device d' owes the receive cell of (d, s) on c exactly when it is the copy of (d, s) and c is downstream. -/
theorem copyOwes_recv (d' : Dev nD) (i : ℕ) (d : Fin 2) (s : Fin 6) (c : Dev nD) :
    copyOwes d' i (recvCell d s c) () = if (dOf i = d ∧ sOf i = s ∧ d' = up d c) then Ncr else 0 := by
  unfold copyOwes
  rw [tallyAt_apply]
  refine if_congr ⟨?_, ?_⟩ rfl rfl
  · rintro ⟨h, -⟩
    obtain ⟨h1, h2, h3⟩ := recvCell_eq_iff.mp h
    refine ⟨h1.symm, h2.symm, ?_⟩
    rw [h3, h1]; exact (up_dn _ _).symm
  · rintro ⟨rfl, rfl, rfl⟩
    exact ⟨by rw [dn_up], rfl⟩

/-- Of its last n copies, device d' owes the receive cell of (d, s) on c one chunk's credit when copy 2 s + d is among
    them and d' is upstream of c in direction d, and nothing otherwise. -/
theorem owedFrom_recv (d' : Dev nD) (d : Fin 2) (s : Fin 6) (c : Dev nD) : ∀ n, n ≤ 12 →
    owedFrom d' n (recvCell d s c) () = if (12 - n ≤ 2 * s.val + d.val ∧ d' = up d c) then Ncr else 0 := by
  have hs := s.isLt
  have hd := d.isLt
  intro n
  induction n with
  | zero =>
    intro _
    rw [if_neg (fun h => by have := h.1; omega)]
    rfl
  | succ n ih =>
    intro hn
    rw [owedFrom_succ, Pi.add_apply, Finsupp.add_apply, ih (by omega), copyOwes_recv]
    have hi : (dOf (12 - (n + 1)) = d ∧ sOf (12 - (n + 1)) = s) ↔ 12 - (n + 1) = 2 * s.val + d.val := by
      rw [Fin.ext_iff, Fin.ext_iff]
      show ((12 - (n + 1)) % 2 = d.val ∧ (12 - (n + 1)) / 2 % 6 = s.val) ↔ _
      omega
    by_cases hP : d' = up d c
    · by_cases h1 : 12 - n ≤ 2 * s.val + d.val
      · rw [if_pos ⟨h1, hP⟩, if_neg (fun h => by have := hi.mp ⟨h.1, h.2.1⟩; omega), if_pos ⟨by omega, hP⟩, Nat.add_zero]
      · by_cases h2 : 12 - (n + 1) = 2 * s.val + d.val
        · rw [if_neg (fun h => h1 h.1), if_pos ⟨(hi.mpr h2).1, (hi.mpr h2).2, hP⟩, if_pos ⟨by omega, hP⟩, Nat.zero_add]
        · rw [if_neg (fun h => h1 h.1), if_neg (fun h => h2 (hi.mp ⟨h.1, h.2.1⟩)), if_neg (fun h => by have := h.1; omega)]
    · rw [if_neg (fun h => hP h.2), if_neg (fun h => hP h.2.2), if_neg (fun h => hP h.2)]

/-- What device d' owes device c's barrier cell: a unit if it is the neighbour below, a unit if the neighbour above. -/
theorem owed_bar (d' c : Dev nD) :
    O₀ d' (barCell c) () = (if d' = lft c then 1 else 0) + (if d' = rgt c then 1 else 0) := by
  unfold O₀ O₁
  rw [Pi.add_apply, Finsupp.add_apply, Pi.add_apply, Finsupp.add_apply, owedFrom_bar, Nat.zero_add, tallyAt_apply, tallyAt_apply]
  congr 1
  · refine if_congr ⟨fun h => ?_, fun h => ⟨?_, rfl⟩⟩ rfl rfl
    · rw [bar_eq_iff.mp h.1, lft_rgt]
    · rw [h, rgt_lft]
  · refine if_congr ⟨fun h => ?_, fun h => ⟨?_, rfl⟩⟩ rfl rfl
    · rw [bar_eq_iff.mp h.1, rgt_lft]
    · rw [h, lft_rgt]

/-- What device d' owes device c's receive cell of (d, s): one chunk's credit if it is upstream of c in direction d. -/
theorem owed_recv (d' : Dev nD) (d : Fin 2) (s : Fin 6) (c : Dev nD) :
    O₀ d' (recvCell d s c) () = if d' = up d c then Ncr else 0 := by
  have hs := s.isLt
  unfold O₀ O₁
  rw [Pi.add_apply, Finsupp.add_apply, Pi.add_apply, Finsupp.add_apply,
    tallyAt_ne_cell (fun h => dma_ne_reg _ _ (congrArg Prod.snd h)), tallyAt_ne_cell (fun h => dma_ne_reg _ _ (congrArg Prod.snd h)),
    Finsupp.zero_apply, Nat.add_zero, Nat.add_zero, owedFrom_recv d' d s c 12 le_rfl]
  exact if_congr ⟨fun h => h.2, fun h => ⟨by omega, h⟩⟩ rfl rfl

/-! ## The launch credit of a cell: what all devices owe it -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d' _ => owed_bar d' c, Finset.sum_add_distrib,
    Finset.sum_ite_eq' Finset.univ (lft c) fun _ => 1, Finset.sum_ite_eq' Finset.univ (rgt c) fun _ => 1, if_pos (Finset.mem_univ _), if_pos (Finset.mem_univ _)]

theorem launch_recv (d : Fin 2) (s : Fin 6) (c : Dev nD) :
    tallyOn (recvCell d s c) (launchCredit (Pipeline.owing O₀) 0 (recvCell d s c)) = (tallyAt (recvCell d s c) () Ncr : CellTallies nD τ sig Unit) := by
  unfold tallyAt; refine congrArg _ (Finsupp.ext fun u => ?_); cases u
  rw [Pipeline.launchCredit_owing, Finsupp.single_eq_same, Finset.sum_congr rfl fun d' _ => owed_recv d' d s c,
    Finset.sum_ite_eq' Finset.univ (up d c) fun _ => Ncr, if_pos (Finset.mem_univ _)]

omit [FloatOps F] in
/-- The launch credit of a receive cell, as the credit to wait with. -/
theorem cred_recv (d : Fin 2) (s : Fin 6) (c : Dev nD) :
    (cred (tallyOn (recvCell d s c) (launchCredit (Pipeline.owing O₀) 0 (recvCell d s c))) : sProp 𝕄)
      ⊢ cred (tallyAt (recvCell d s c) () Ncr) := by
  rw [launch_recv] <;> exact .refl _

end LC

omit [FloatOps F] in
/-- What the launch deals device `c` to wait with: two units on its barrier cell, one chunk's credit on each receive cell. -/
theorem creds (c : Dev nD) :
    (Pipeline.launchCred O₀ c : sProp 𝕄)
      ⊢ iprop(cred (tallyAt (barCell c) () 2) ∗ bigSep Finset.univ fun ds : Fin 2 × Fin 6 => cred (tallyAt (recvCell ds.1 ds.2 c) () Ncr)) := by
  unfold Pipeline.launchCred
  rw [bigSep_univ_at _ (SemLoc.reg barS), LC.launch_bar]
  refine sep_mono_right ?_
  have hsub : (Finset.univ.map ⟨_, LC.recvSem_inj⟩ : Finset (SemLoc sig)) ⊆ Finset.univ.erase (SemLoc.reg barS) := fun sm h => by
    obtain ⟨ds, -, rfl⟩ := Finset.mem_map.mp h
    exact Finset.mem_erase.mpr ⟨LC.dma_ne_reg _ _, Finset.mem_univ _⟩
  refine (bigSep_subset hsub).trans ?_
  rw [bigSep_map]
  exact bigSep_mono fun ds _ => LC.cred_recv ds.1 ds.2 c

/-- The pipeline's staging waits (at the point's start owing `O₀ c`, at its end owing nothing) lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr ⟨0, by decide, rfl⟩)

/-- info: 'Cert.KernelProof.creds' depends on axioms: [propext, Classical.choice, Quot.sound] -/
#guard_msgs in #print axioms creds
/-- info: 'Cert.KernelProof.waits' depends on axioms: [propext, Classical.choice, Quot.sound] -/
#guard_msgs in #print axioms waits

end Cert.KernelProof

end
-- ==== Proof.Bits.Launch.lean ====
/-
  The launch: every cell's invariant allocated for all devices in one step (the barrier semaphore is the runtime's, shared
  by a device and its two neighbours), the tokens dealt to the devices that pay with them, the credit to the devices
  that wait with it, and the run of @main from the body's proof at every device.
-/
import proofs.«900732_g7700000000000733_dist_ar_v7x_xyz2x4x4_z_m1024_n512_f32_1_alg».proof.Proof.Bits.LaunchCred

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-! ## The index sets -/

/-- The kernel's own (scoped) semaphores, as the launch indexes them: \`(false, d, s)\` the send semaphore of
    (direction, step), \`(true, d, s)\` the receive semaphore. -/
abbrev OK : Type := Bool × Fin 2 × Fin 6
abbrev osem (k : OK) : SemLoc sig := .dma (bif k.1 then recvS k.2.1 k.2.2 else sendS k.2.1 k.2.2)

theorem ownSemFacts : Pipeline.OwnSemFacts cfg0.spec osem := by decide

theorem share_eq (c : Dev nD) (w : Fin cfg0.W) : (dats m ρ 0 c).share w = fullShare := by unfold Dat.share; split <;> rfl

/-- A device's 25 cells by kind: the barrier, then the kernel's own 24. -/
def ix25 : Unit ⊕ OK → Fin 25
  | .inl _ => 0
  | .inr k => bif k.1 then recvIx k.2.1 k.2.2 else sendIx k.2.1 k.2.2
theorem ix25_bijective : Function.Bijective ix25 := by decide
def e25 : Unit ⊕ OK ≃ Fin 25 := Equiv.ofBijective ix25 ix25_bijective

omit [FloatOps F] in
/-- Anything indexed by a device's 25 cells, sorted into the barrier's, the send cells' and the receive cells'. -/
theorem bigSep_fin25 (Φ : Fin 25 → sProp 𝕄) :
    bigSep Finset.univ Φ = iprop(Φ 0 ∗ (bigSep Finset.univ fun ds : Fin 2 × Fin 6 => Φ (sendIx ds.1 ds.2))
      ∗ bigSep Finset.univ fun ds : Fin 2 × Fin 6 => Φ (recvIx ds.1 ds.2)) := by
  rw [bigSep_univ_equiv e25, bigSep_univ_sum, bigSep_univ_of_subsingleton (), bigSep_univ_prod,
    bigSep_univ_eq_bigSepL [false, true] (by decide) (by decide)]
  rfl

theorem csem_injective : Function.Injective csem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens minted for a device's own cells: its barrier's two, and duty 0 of each of its 24 DMA cells. -/
def tokOf (cx : Dev nD × (Fin 2 ⊕ OK)) : GSem nD τ sig × ℕ × Fin 2 := match cx.2 with
  | .inl dd => (barCell cx.1, 0, dd)
  | .inr k => (((cx.1 : Thread nD τ), osem k), 0, 0)
theorem osem_injective : Function.Injective osem := by decide
theorem tokOf_injective : Function.Injective tokOf := by
  rintro ⟨c, x⟩ ⟨c', x'⟩ h
  have h1 : c = c' := by
    have := congrArg (fun y : GSem nD τ sig × ℕ × Fin 2 => y.1.1.1) h
    rcases x with dd | k <;> rcases x' with dd' | k' <;> exact this
  subst h1
  rcases x with dd | k <;> rcases x' with dd' | k'
  · have := congrArg (fun y : GSem nD τ sig × ℕ × Fin 2 => y.2.2) h
    exact congrArg _ (congrArg Sum.inl this)
  · exact absurd (congrArg (fun y : GSem nD τ sig × ℕ × Fin 2 => y.1.2) h) (fun h' => by cases h')
  · exact absurd (congrArg (fun y : GSem nD τ sig × ℕ × Fin 2 => y.1.2) h) (fun h' => by cases h')
  · have := osem_injective (congrArg (fun y : GSem nD τ sig × ℕ × Fin 2 => y.1.2) h)
    exact congrArg _ (congrArg Sum.inr this)
def ringToks : Finset (GSem nD τ sig × ℕ × Fin 2) := Finset.univ.map ⟨tokOf, tokOf_injective⟩

def u₀ : UU :=
  (initOf (Pipeline.cells cfgs cellOf_inj) (Pipeline.launchToks cfgs cellOf_inj), initOf ringCells ringToks)

/-! ## What the launch element deals each device -/

/-- The duty tokens of device \`c\`'s own cells. -/
def toks (c : Dev nD) : sProp 𝕄 :=
  iprop((bigSep Finset.univ fun dd : Fin 2 => dutyTok ER (barCell c) 0 dd)
    ∗ (bigSep Finset.univ fun ds : Fin 2 × Fin 6 => dutyTok ER (sendCell ds.1 ds.2 c) 0 0)
    ∗ bigSep Finset.univ fun ds : Fin 2 × Fin 6 => dutyTok ER (recvCell ds.1 ds.2 c) 0 0)

/-- What the launch element deals device \`c\`: its cells' round states, its positions on them, that each has reached
    round 0, and its own cells' tokens. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod, bigSep_univ_eq_bigSepL [false, true] (by decide) (by decide)]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round -/

omit [FloatOps F] in
/-- The kernel's own semaphores are its twelve send and twelve receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun ds : Fin 2 × Fin 6 => semVal (sendCell ds.1 ds.2 c) 0)
        ∗ bigSep Finset.univ fun ds : Fin 2 × Fin 6 => semVal (recvCell ds.1 ds.2 c) 0) := by
  unfold Pipeline.ownSems0
  rw [bigSep_univ_prod, bigSep_univ_eq_bigSepL [false, true] (by decide) (by decide)]
  rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_fin25]
  simp only [kcell, csem_bar, csem_send, csem_recv]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The handshake's share of a device's start, and one copy's, before the credit to wait with is added. -/
def barRes₀ (c : Dev nD) : sProp 𝕄 :=
  iprop(atPos ER (barCell c) 0 ∅ 0 ∗ dutyTok ER (barCell (lft c)) 0 0 ∗ dutyTok ER (barCell (rgt c)) 0 1)
def xferRes₀ (c : Dev nD) (d : Fin 2) (s : Fin 6) : sProp 𝕄 :=
  iprop(atPos ER (sendCell d s c) 0 ∅ 0 ∗ atPos ER (recvCell d s c) 0 ∅ 0 ∗ dutyTok ER (sendCell d s c) 0 0
    ∗ dutyTok ER (recvCell d s (dn d c)) 0 0)
def ghost₀ (K : Dev nD × Fin 25 → ℕ) (c : Dev nD) : sProp 𝕄 :=
  iprop(records m K ∗ barRes₀ c ∗ bigSep Finset.univ fun ds : Fin 2 × Fin 6 => xferRes₀ c ds.1 ds.2)

/-- What the global step makes of it. -/
def G' (c : Dev nD) : sProp 𝕄 := iprop(∃ K, ghost₀ m K c)

/-- The tokens of the duties device \`c\` pays: a unit to each neighbour's barrier, its own send duties, the receive
    duties downstream. -/
def payToks (c : Dev nD) : sProp 𝕄 :=
  iprop(dutyTok ER (barCell (lft c)) 0 0 ∗ dutyTok ER (barCell (rgt c)) 0 1
    ∗ (bigSep Finset.univ fun ds : Fin 2 × Fin 6 => dutyTok ER (sendCell ds.1 ds.2 c) 0 0)
    ∗ bigSep Finset.univ fun ds : Fin 2 × Fin 6 => dutyTok ER (recvCell ds.1 ds.2 (dn ds.1 c)) 0 0)
def linear (c : Dev nD) : sProp 𝕄 :=
  iprop((bigSep Finset.univ fun k : Fin 25 => atPos ER (kcell (c, k)) 0 ∅ 0) ∗ payToks c)

theorem ghost_intro (K : Dev nD × Fin 25 → ℕ) (c : Dev nD) : iprop(records m K ∗ linear c) ⊢ G' m c := by
  unfold linear payToks G' ghost₀ barRes₀ xferRes₀
  rw [bigSep_fin25, bigSep_sep', bigSep_sep', bigSep_sep']
  simp only [kcell, csem_bar, csem_send, csem_recv]
  iintro ⟨#HR, ⟨HaB, HaS, HaV⟩, Ht0, Ht1, HtS, HtV⟩
  iexists K
  isplitr; · iexact HR
  isplitl [HaB Ht0 Ht1]
  · isplitl [HaB]; · iexact HaB
    isplitl [Ht0] <;> iassumption
  isplitl [HaS]; · iexact HaS
  isplitl [HaV]; · iexact HaV
  isplitl [HtS] <;> iassumption

def lftE : Dev nD ≃ Dev nD := ⟨lft, rgt, rgt_lft, lft_rgt⟩
/-- Each receive token moved one device upstream in its direction. -/
def dnE : Dev nD × (Fin 2 × Fin 6) ≃ Dev nD × (Fin 2 × Fin 6) :=
  ⟨fun x => (dn x.2.1 x.1, x.2), fun x => (up x.2.1 x.1, x.2),
    fun x => Prod.ext (up_dn x.2.1 x.1) rfl, fun x => Prod.ext (dn_up x.2.1 x.1) rfl⟩

omit [FloatOps F] in
/-- The tokens dealt round the ring: a barrier's duty 0 token to the device above it, its duty 1 token to the device below,
    each receive token to the device upstream in its direction. -/
theorem toks_around : (bigSep Finset.univ fun c : Dev nD => (toks c : sProp 𝕄)) ⊢ bigSep Finset.univ fun c : Dev nD => payToks c := by
  have hV : (bigSep Finset.univ fun c : Dev nD => bigSep Finset.univ fun ds : Fin 2 × Fin 6 => (dutyTok ER (recvCell ds.1 ds.2 c) 0 0 : sProp 𝕄))
      = bigSep Finset.univ fun c : Dev nD => bigSep Finset.univ fun ds : Fin 2 × Fin 6 => (dutyTok ER (recvCell ds.1 ds.2 (dn ds.1 c)) 0 0 : sProp 𝕄) :=
    (bigSep_univ_prod (fun x : Dev nD × (Fin 2 × Fin 6) => (dutyTok ER (recvCell x.2.1 x.2.2 x.1) 0 0 : sProp 𝕄))).symm.trans
      ((bigSep_univ_equiv dnE _).trans (bigSep_univ_prod _))
  unfold toks payToks
  simp only [bigSep_univ_two]
  rw [bigSep_sep', bigSep_sep', bigSep_sep', bigSep_sep', bigSep_sep', bigSep_sep', hV,
    bigSep_univ_equiv lftE (fun c : Dev nD => (dutyTok ER (barCell c) 0 0 : sProp 𝕄)),
    bigSep_univ_equiv lftE.symm (fun c : Dev nD => (dutyTok ER (barCell c) 0 1 : sProp 𝕄))]
  iintro ⟨⟨H0, H1⟩, HS, HV⟩
  isplitl [H0]; · iexact H0
  isplitl [H1]; · iexact H1
  isplitl [HS] <;> iassumption

theorem regroup :
    (bigSep Finset.univ fun c : Dev nD => iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 25 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
theorem xfer_add (c : Dev nD) (d : Fin 2) (s : Fin 6) :
    iprop(xferRes₀ c d s ∗ cred (tallyAt (recvCell d s c) () Ncr)) ⊢ (xferRes c d s : sProp 𝕄) := by
  unfold xferRes₀ xferRes
  iintro ⟨⟨H1, H2, H3, H4⟩, H5⟩
  isplitl [H1]; · iexact H1
  isplitl [H2]; · iexact H2
  isplitl [H3]; · iexact H3
  isplitl [H4] <;> iassumption

theorem ghost_add (K : Dev nD × Fin 25 → ℕ) (c : Dev nD) :
    iprop(ghost₀ m K c ∗ cred (tallyAt (barCell c) () 2) ∗ bigSep Finset.univ fun ds : Fin 2 × Fin 6 => cred (tallyAt (recvCell ds.1 ds.2 c) () Ncr))
      ⊢ ghost m K c := by
  unfold ghost₀ ghost barRes₀ barRes
  iintro ⟨⟨HR, ⟨Ha, Ht0, Ht1⟩, HX⟩, Hc2, HcN⟩
  isplitl [HR]; · iexact HR
  isplitl [Ha Ht0 Ht1 Hc2]
  · isplitl [Ha]; · iexact Ha
    isplitl [Ht0]; · iexact Ht0
    isplitl [Ht1] <;> iassumption
  iapply ((Entails.of_eq (bigSep_sep' Finset.univ (fun ds : Fin 2 × Fin 6 => xferRes₀ c ds.1 ds.2)
      (fun ds : Fin 2 × Fin 6 => (cred (tallyAt (recvCell ds.1 ds.2 c) () Ncr) : sProp 𝕄))).symm).trans
    (bigSep_mono fun ds _ => xfer_add c ds.1 ds.2))
  isplitl [HX] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  icases HG with ⟨%K, HG⟩
  isplitl
  · isplitl [HG H1 HN]
    · iexists K
      iapply (ghost_add m K c)
      isplitl [HG]; · iexact HG
      isplitl [H1] <;> iassumption
    · iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ closedSems
  rw [bigSep_sep']
  iintro ⟨Hr, HzS, HzV⟩
  isplitr; · iempintro
  isplitl [HzS HzV]
  · isplitl [HzS] <;> iassumption
  iexact Hr

/-- The windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of 32 devices, from any memory with zero counters: given the body's proof at every device, every
    weakly fair execution of @main terminates and every final state has each window's array at `finalA`. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run is what the body left in its staging buffer (the window's one block is the whole array). -/
theorem finalA_o (c : Dev nD) : finalA m ρ c (1 : Fin 2) = outAt m c := by
  -- the one block, at offset zero and of the array's size, reads the array as it is
  have hz : (fun a => (win0_1.index t0_0) a * main_v1.ty.shape.size a) = fun _ => 0 := funext fun a => by fin_cases a <;> decide
  have hwhole := fun f => Memref.read_access_unit_zero (Elt F) main_v1 hz (fun a => by fin_cases a <;> decide) f
  refine (hwhole _).symm.trans ?_
  -- and the write-back at the one point wrote what the body left there over all of it
  unfold finalA
  rw [show cfg0.N = (t0_0 : Fin cfg0.N).val + 1 from rfl, (dats m ρ 0 c).arrAt_succ (1 : Fin 2) t0_0, flush0_1 t0_0, if_pos rfl]
  exact View.read_write_univ _ _

/-- info: 'Cert.KernelProof.run_main' depends on axioms: [propext, Classical.choice, Quot.sound] -/
#guard_msgs in #print axioms run_main

/-- info: 'Cert.KernelProof.finalA_o' depends on axioms: [propext, Classical.choice, Quot.sound] -/
#guard_msgs in #print axioms finalA_o

end Cert.KernelProof

end
-- ==== Proof.lean ====
/-
  The five claims. The kernel on 32 devices is a ring all-reduce along the mesh's third axis: every device ends with
  the sum of the four row blocks held along its ring, which is what the one-device reference computes from the whole
  array. Both printed kernels (word-level and idealized) run to the end without fault and leave their input
  blocks as found: the run of the body at every device under the ring's schedule. The idealization changed no
  operation. At the ideal instance the result block's chunk (d, j) is the values' recursion after six steps, and that
  is the reference's sum by commutativity and associativity of addition on the extended reals.
-/
import proofs.«900732_g7700000000000733_dist_ar_v7x_xyz2x4x4_z_m1024_n512_f32_1_alg».proof.Defs
import proofs.«900732_g7700000000000733_dist_ar_v7x_xyz2x4x4_z_m1024_n512_f32_1_alg».proof.Proof.Body
import proofs.«900732_g7700000000000733_dist_ar_v7x_xyz2x4x4_z_m1024_n512_f32_1_alg».proof.Proof.Launch
import proofs.«900732_g7700000000000733_dist_ar_v7x_xyz2x4x4_z_m1024_n512_f32_1_alg».proof.Proof.Final
import proofs.«900732_g7700000000000733_dist_ar_v7x_xyz2x4x4_z_m1024_n512_f32_1_alg».proof.Proof.Bits.Body
import proofs.«900732_g7700000000000733_dist_ar_v7x_xyz2x4x4_z_m1024_n512_f32_1_alg».proof.Proof.Bits.Launch
import proofs.«900732_g7700000000000733_dist_ar_v7x_xyz2x4x4_z_m1024_n512_f32_1_alg».proof.Proof.Gen.Kernel
import proofs.«900732_g7700000000000733_dist_ar_v7x_xyz2x4x4_z_m1024_n512_f32_1_alg».proof.Proof.Gen.KernelIdeal
import proofs.«900732_g7700000000000733_dist_ar_v7x_xyz2x4x4_z_m1024_n512_f32_1_alg».proof.Proof.Gen.ReferenceIdeal
import proofs.«900732_g7700000000000733_dist_ar_v7x_xyz2x4x4_z_m1024_n512_f32_1_alg».proof.Proof.Gen.ReferenceIdeal.Run
import proofs.«900732_g7700000000000733_dist_ar_v7x_xyz2x4x4_z_m1024_n512_f32_1_alg».proof.Proof.Gen.ReferenceIdeal.Read
import proofs.«900732_g7700000000000733_dist_ar_v7x_xyz2x4x4_z_m1024_n512_f32_1_alg».proof.Proof.Gen.Pre_finite_inputs_Kernel
import proofs.«900732_g7700000000000733_dist_ar_v7x_xyz2x4x4_z_m1024_n512_f32_1_alg».proof.Proof.Gen.Pre_finite_inputs_ReferenceIdeal
import Idealize.ShloMosaic.Adequacy
import Idealize.ShloMosaic.Init

noncomputable section

namespace Cert.Proof

open Idealize.ShloMosaic Idealize.ShloMosaic.TcCoe Idealize.SL.Sem

/-- The word-level kernel runs and leaves its input blocks as found. -/
theorem frame_p : Cert.frame_Kernel := by
  intro m ρ _
  exact (θ_run Cert.Kernel.defs _ _).mono (fun _ h c => (h c (0 : Fin 2)).trans (Cert.KernelProof.finalA_x m ρ c))
    (Cert.KernelProof.run_main (F := Bits) m ρ (Cert.KernelProof.body_obligation m ρ))

/-- The idealized kernel runs and leaves its input blocks as found. -/
theorem frame_pi : Cert.frame_KernelIdeal := by
  intro m ρ _
  exact (θ_run Cert.KernelIdeal.defs _ _).mono (fun _ h c => (h c (0 : Fin 2)).trans (Cert.KernelIdealProof.finalA_x m ρ c))
    (Cert.KernelIdealProof.run_main (F := Ideal) m ρ (Cert.KernelIdealProof.body_obligation m ρ))

/-- The reference runs and leaves the whole array as found: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Every device's result block ends as the reference's result: its chunks are the recursion's values after six steps,
    and those are the sums over the ring. -/
theorem algebraic : Cert.algebraic_KernelIdeal_ReferenceIdeal := by
  intro m ρ m' ρ' _ hagree
  refine ⟨Cert.ReferenceIdeal.Read.val_main_v1 (F := Ideal)
    (m' ((((0 : Dev Cert.ReferenceIdeal.nD).tc : Thread Cert.ReferenceIdeal.nD Cert.ReferenceIdeal.τ)).loc Cert.ReferenceIdeal.main_arg0)), ?_, ?_⟩
  · refine (θ_run Cert.KernelIdeal.defs _ _).mono
      (fun _ h c => ⟨(h c (1 : Fin 2)).trans ?_, (h c (0 : Fin 2)).trans (Cert.KernelIdealProof.finalA_x m ρ c)⟩)
      (Cert.KernelIdealProof.run_main (F := Ideal) m ρ (Cert.KernelIdealProof.body_obligation m ρ))
    exact (Cert.KernelIdealProof.finalA_o m ρ c).trans
      (Cert.KernelIdealProof.Final.final_eq m _ hagree c (Cert.KernelIdealProof.outAt m c) (fun d j => Cert.KernelIdealProof.chunkV_outAt m c d j))
  · exact (θ_run Cert.ReferenceIdeal.defs _ _).mono
      (fun _ h => ⟨((h 0).1).trans (Cert.ReferenceIdeal.Read.val_main_v1_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, preserves, algebraic⟩

end Cert.Proof

end
